-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S64 .f32) (main_arg9 : FVec F S64 .f32) (main_arg10 : FVec F S64x64 .f32) (main_arg11 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x64 .f32) (main_arg1 : IVec S2x800000 32) (main_arg2 : FVec F S64x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S50000x1 : Shape := ⟨2, ![50000, 1]⟩
abbrev S1x64 : Shape := ⟨2, ![1, 64]⟩
abbrev S5000x64 : Shape := ⟨2, ![5000, 64]⟩
abbrev S5000x1 : Shape := ⟨2, ![5000, 1]⟩
abbrev S5000 : Shape := ⟨1, ![5000]⟩

abbrev nBuf : Space → Nat
  | .hbm => 118
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S50000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S_, .i32⟩
  | .hbm, ⟨20, _⟩ => ⟨S850000, .i32⟩
  | .hbm, ⟨21, _⟩ => ⟨S_, .i32⟩
  | .hbm, ⟨22, _⟩ => ⟨S50000, .i32⟩
  | .hbm, ⟨23, _⟩ => ⟨S850000x1, .i32⟩
  | .hbm, ⟨24, _⟩ => ⟨S50000, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000x64, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000x1, .f32⟩
  | .hbm, ⟨49, _⟩ => ⟨S850000x64, .f32⟩
  | .hbm, ⟨50, _⟩ => ⟨S850000x64, .f32⟩
  | .hbm, ⟨51, _⟩ => ⟨S_, .f32⟩
  | .hbm, ⟨52, _⟩ => ⟨S50000x64, .f32⟩
  | .hbm, ⟨53, _⟩ => ⟨S850000x1, .i32⟩
  | .hbm, ⟨54, _⟩ => ⟨S50000x64, .f32⟩
  | .hbm, ⟨55, _⟩ => ⟨S50000x1, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S50000x64, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x64, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000, .f32⟩
  | .hbm, ⟨78, _⟩ => ⟨S850000x1, .f32⟩
  | .hbm, ⟨79, _⟩ => ⟨S850000x64, .f32⟩
  | .hbm, ⟨80, _⟩ => ⟨S850000x64, .f32⟩
  | .hbm, ⟨81, _⟩ => ⟨S_, .f32⟩
  | .hbm, ⟨82, _⟩ => ⟨S50000x64, .f32⟩
  | .hbm, ⟨83, _⟩ => ⟨S850000x1, .i32⟩
  | .hbm, ⟨84, _⟩ => ⟨S50000x64, .f32⟩
  | .hbm, ⟨85, _⟩ => ⟨S50000x1, .f32⟩
  | .hbm, ⟨86, _⟩ => ⟨S1x64, .f32⟩
  | .hbm, ⟨87, _⟩ => ⟨S1x64, .f32⟩
  | .hbm, ⟨88, _⟩ => ⟨S1x64, .f32⟩
  | .hbm, ⟨89, _⟩ => ⟨S50000x64, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x64, .f32⟩
  | .hbm, ⟨99, _⟩ => ⟨S_, .i32⟩
  | .hbm, ⟨100, _⟩ => ⟨S850000, .i32⟩
  | .hbm, ⟨101, _⟩ => ⟨S850000, .i1⟩
  | .hbm, ⟨102, _⟩ => ⟨S_, .i32⟩
  | .hbm, ⟨103, _⟩ => ⟨S850000, .i32⟩
  | .hbm, ⟨104, _⟩ => ⟨S850000, .i32⟩
  | .hbm, ⟨105, _⟩ => ⟨S850000, .i32⟩
  | .hbm, ⟨106, _⟩ => ⟨S850000x1, .i32⟩
  | .hbm, ⟨107, _⟩ => ⟨S850000, .f32⟩
  | .hbm, ⟨108, _⟩ => ⟨S850000x1, .f32⟩
  | .hbm, ⟨109, _⟩ => ⟨S850000x64, .f32⟩
  | .hbm, ⟨110, _⟩ => ⟨S850000x64, .f32⟩
  | .hbm, ⟨111, _⟩ => ⟨S_, .f32⟩
  | .hbm, ⟨112, _⟩ => ⟨S50000x64, .f32⟩
  | .hbm, ⟨113, _⟩ => ⟨S850000x1, .i32⟩
  | .hbm, ⟨114, _⟩ => ⟨S50000x64, .f32⟩
  | .hbm, ⟨115, _⟩ => ⟨S50000x1, .f32⟩
  | .hbm, ⟨116, _⟩ => ⟨S1x64, .f32⟩
  | .hbm, ⟨117, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S64x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x1, .f32⟩
  | .local _ .vmem, ⟨23, _⟩ => ⟨S5000x1, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_11 : Ref sig .tc := ⟨.hbm, 90, rfl⟩
abbrev main_v65 : Ref sig .tc := ⟨.hbm, 91, rfl⟩
abbrev main_v66 : Ref sig .tc := ⟨.hbm, 92, rfl⟩
abbrev main_c_12 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_13 : Ref sig .tc := ⟨.hbm, 99, rfl⟩
abbrev main_v72 : Ref sig .tc := ⟨.hbm, 100, rfl⟩
abbrev main_v73 : Ref sig .tc := ⟨.hbm, 101, rfl⟩
abbrev main_c_14 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_15 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S50000_S50000x1 : S50000.ShapeCasts S50000x1
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S50000_S850000x1_S850000_n_0_0_1_wf : ScatterDims.WF S50000 S850000x1 S850000 [] [0] [0] 1
  gather_S50000x64_S850000x1_S850000x64_1_0_n_n_0_1_164_wf : GatherDims.WF S50000x64 S850000x1 S850000x64 [1] [0] [] [0] [] 1 ![1, 64]
  gather_S50000_S850000x1_S850000_n_0_n_n_0_1_1_wf : GatherDims.WF S50000 S850000x1 S850000 [] [0] [] [0] [] 1 ![1]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v34) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v59) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v62) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v64) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v84) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v86) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v87) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 172
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x64, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x64, .f32⟩
  | 58 => ⟨S850000x1, .f32⟩
  | 59 => ⟨S850000x64, .f32⟩
  | 60 => ⟨S850000x64, .f32⟩
  | 61 => ⟨S_, .f32⟩
  | 62 => ⟨S50000x64, .f32⟩
  | 63 => ⟨S850000x1, .i32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S50000, .f32⟩
  | 70 => ⟨S50000x1, .f32⟩
  | 71 => ⟨S_, .f32⟩
  | 72 => ⟨S50000x1, .f32⟩
  | 73 => ⟨S50000x1, .f32⟩
  | 74 => ⟨S50000x64, .f32⟩
  | 75 => ⟨S50000x64, .f32⟩
  | 76 => ⟨S50000x64, .f32⟩
  | 77 => ⟨S_, .f32⟩
  | 78 => ⟨S50000, .f32⟩
  | 79 => ⟨S50000x1, .f32⟩
  | 80 => ⟨S_, .f32⟩
  | 81 => ⟨S50000x1, .f32⟩
  | 82 => ⟨S50000x1, .f32⟩
  | 83 => ⟨S50000x64, .f32⟩
  | 84 => ⟨S50000x64, .f32⟩
  | 85 => ⟨S_, .f32⟩
  | 86 => ⟨S50000x1, .f32⟩
  | 87 => ⟨S50000x1, .f32⟩
  | 88 => ⟨S50000x1, .f32⟩
  | 89 => ⟨S50000x64, .f32⟩
  | 90 => ⟨S50000x64, .f32⟩
  | 91 => ⟨S1x64, .f32⟩
  | 92 => ⟨S50000x64, .f32⟩
  | 93 => ⟨S50000x64, .f32⟩
  | 94 => ⟨S1x64, .f32⟩
  | 95 => ⟨S50000x64, .f32⟩
  | 96 => ⟨S50000x64, .f32⟩
  | 97 => ⟨S_, .f32⟩
  | 98 => ⟨S50000x64, .f32⟩
  | 99 => ⟨S50000x64, .f32⟩
  | 100 => ⟨S50000x64, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000x64, .f32⟩
  | 110 => ⟨S850000x1, .f32⟩
  | 111 => ⟨S850000x64, .f32⟩
  | 112 => ⟨S850000x64, .f32⟩
  | 113 => ⟨S_, .f32⟩
  | 114 => ⟨S50000x64, .f32⟩
  | 115 => ⟨S850000x1, .i32⟩
  | 116 => ⟨S50000x64, .f32⟩
  | 117 => ⟨S1x64, .f32⟩
  | 118 => ⟨S50000x64, .f32⟩
  | 119 => ⟨S50000x64, .f32⟩
  | 120 => ⟨S_, .f32⟩
  | 121 => ⟨S50000, .f32⟩
  | 122 => ⟨S50000x1, .f32⟩
  | 123 => ⟨S_, .f32⟩
  | 124 => ⟨S50000x1, .f32⟩
  | 125 => ⟨S50000x1, .f32⟩
  | 126 => ⟨S50000x64, .f32⟩
  | 127 => ⟨S50000x64, .f32⟩
  | _ => ⟨S50000x64, .f32⟩

abbrev hbmTy0_1 (i : Nat) : BufTy := match i % 128 with
  | 0 => ⟨S50000x64, .f32⟩
  | 1 => ⟨S_, .f32⟩
  | 2 => ⟨S50000, .f32⟩
  | 3 => ⟨S50000x1, .f32⟩
  | 4 => ⟨S_, .f32⟩
  | 5 => ⟨S50000x1, .f32⟩
  | 6 => ⟨S50000x1, .f32⟩
  | 7 => ⟨S50000x64, .f32⟩
  | 8 => ⟨S50000x64, .f32⟩
  | 9 => ⟨S_, .f32⟩
  | 10 => ⟨S50000x1, .f32⟩
  | 11 => ⟨S50000x1, .f32⟩
  | 12 => ⟨S50000x1, .f32⟩
  | 13 => ⟨S50000x64, .f32⟩
  | 14 => ⟨S50000x64, .f32⟩
  | 15 => ⟨S1x64, .f32⟩
  | 16 => ⟨S50000x64, .f32⟩
  | 17 => ⟨S50000x64, .f32⟩
  | 18 => ⟨S1x64, .f32⟩
  | 19 => ⟨S50000x64, .f32⟩
  | 20 => ⟨S50000x64, .f32⟩
  | 21 => ⟨S_, .f32⟩
  | 22 => ⟨S50000x64, .f32⟩
  | 23 => ⟨S50000x64, .f32⟩
  | 24 => ⟨S50000x64, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S850000x64, .f32⟩
  | 34 => ⟨S850000x1, .f32⟩
  | 35 => ⟨S850000x64, .f32⟩
  | 36 => ⟨S850000x64, .f32⟩
  | 37 => ⟨S_, .f32⟩
  | 38 => ⟨S50000x64, .f32⟩
  | 39 => ⟨S850000x1, .i32⟩
  | 40 => ⟨S50000x64, .f32⟩
  | 41 => ⟨S1x64, .f32⟩
  | 42 => ⟨S50000x64, .f32⟩
  | 43 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_call0_cst : Ref sig .tc := ⟨.hbm, 97, rfl⟩
abbrev main_call0_v0 : Ref sig .tc := ⟨.hbm, 98, rfl⟩
abbrev main_v70 : Ref sig .tc := ⟨.hbm, 99, rfl⟩
abbrev main_v71 : Ref sig .tc := ⟨.hbm, 100, rfl⟩
abbrev main_c_13 : Ref sig .tc := ⟨.hbm, 101, rfl⟩
abbrev main_v72 : Ref sig .tc := ⟨.hbm, 102, rfl⟩
abbrev main_v73 : Ref sig .tc := ⟨.hbm, 103, rfl⟩
abbrev main_c_14 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_16 : Ref sig .tc := ⟨.hbm, 120, rfl⟩
abbrev main_v88 : Ref sig .tc := ⟨.hbm, 121, rfl⟩
abbrev main_v89 : Ref sig .tc := ⟨.hbm, 122, rfl⟩
abbrev main_cst_17 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_18 : Ref sig .tc := ⟨.hbm, 129, rfl⟩
abbrev main_v95 : Ref sig .tc := ⟨.hbm, 130, rfl⟩
abbrev main_v96 : Ref sig .tc := ⟨.hbm, 131, rfl⟩
abbrev main_cst_19 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_20 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_call1_cst : Ref sig .tc := ⟨.hbm, 149, rfl⟩
abbrev main_call1_v0 : Ref sig .tc := ⟨.hbm, 150, rfl⟩
abbrev main_v112 : Ref sig .tc := ⟨.hbm, 151, rfl⟩
abbrev main_v113 : Ref sig .tc := ⟨.hbm, 152, rfl⟩
abbrev main_c_21 : Ref sig .tc := ⟨.hbm, 153, rfl⟩
abbrev main_v114 : Ref sig .tc := ⟨.hbm, 154, rfl⟩
abbrev main_v115 : Ref sig .tc := ⟨.hbm, 155, rfl⟩
abbrev main_c_22 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_23 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  A three-layer graph convolution, written index by index over the extended reals.

  The graph has 50000 nodes and 850000 directed edges (the given ones followed by one loop per node). Edge e
  carries a source word and a target word. A source word is read as a row number by clamping it into
  [0, 49999] (after adding 50000 to a negative word); a target word names row i exactly when its signed value
  is i, and names no row when it is out of range. With d the inverse square root of each node's degree, one
  layer sends the node features h to

      z(i, j) = Σ_{e → i} Σ_k h(src e, k) · W(k, j) · d(src e) · d(i) + b(j),

  and the two programs differ only in where they place the factors and the inner sum: one multiplies by the
  weights first and scales each edge by d(src e) · d(tgt e), the other adds the scaled features first,
  scales the row total by d(i), and multiplies by the weights last. A row is then normalised (mean, variance,
  inverse square root, gain and shift) and clipped below at zero.
-/
import Idealize.ShloMosaic.PureOps.Ideal
import Idealize.ShloMosaic.Lib.ValueIdx

noncomputable section

namespace Cert.GCN

open Idealize.ShloMosaic Idealize.ShloMosaic.ValueIdx

abbrev SNC : Shape := ⟨2, ![50000, 64]⟩
abbrev SN : Shape := ⟨1, ![50000]⟩
abbrev SE : Shape := ⟨1, ![850000]⟩
abbrev SCC : Shape := ⟨2, ![64, 64]⟩
abbrev SC : Shape := ⟨1, ![64]⟩

/-- A word read as a row number: its signed value clamped into [0, 49999]. -/
def row (w : BitVec 32) : Fin 50000 := ⟨min w.toInt.toNat 49999, by omega⟩

/-- The edges whose target word names row i. -/
def into (dst : SE.Idx → BitVec 32) (i : Fin 50000) : Finset (Fin 850000) :=
  Finset.univ.filter fun e => (dst (ix1 e)).toInt = (i.val : Int)

/-- An array all of whose entries are real numbers. -/
def IsReal {s : Shape} (v : s.Idx → EReal) : Prop := ∀ i, ∃ r : ℝ, v i = (r : EReal)

/-- The row total the scatter leaves at (i, k): the features of the edges into i, each scaled by its source's d. -/
def aggK (h : SNC.Idx → EReal) (dinv : SN.Idx → EReal) (sN dst : SE.Idx → BitVec 32) (i : Fin 50000) (k : Fin 64) : EReal :=
  0 + ∑ e ∈ into dst i, h (ix2 (row (sN (ix1 e))) k) * dinv (ix1 (row (sN (ix1 e))))

/-- One layer before normalisation, factors placed as the kernel places them, from the row totals a. -/
def linOfAgg (a : Fin 50000 → Fin 64 → EReal) (dcol : Fin 50000 → EReal) (W : SCC.Idx → EReal) (b : Fin 64 → EReal)
    (i : Fin 50000) (j : Fin 64) : EReal :=
  (∑ k : Fin 64, (a i k * dcol i) * W (ix2 k j)) + b j

/-- The same from the node features. -/
def linK (h : SNC.Idx → EReal) (dinv : SN.Idx → EReal) (W : SCC.Idx → EReal) (b : SC.Idx → EReal)
    (sN dst : SE.Idx → BitVec 32) (i : Fin 50000) (j : Fin 64) : EReal :=
  linOfAgg (aggK h dinv sN dst) (fun i => dinv (ix1 i)) W (fun j => b (ix1 j)) i j

/-- One layer before normalisation, factors placed as the reference places them. -/
def linR (h : SNC.Idx → EReal) (dinv : SN.Idx → EReal) (W : SCC.Idx → EReal) (b : SC.Idx → EReal)
    (sN dN dst : SE.Idx → BitVec 32) (i : Fin 50000) (j : Fin 64) : EReal :=
  (0 + ∑ e ∈ into dst i, (∑ k : Fin 64, h (ix2 (row (sN (ix1 e))) k) * W (ix2 k j))
      * (dinv (ix1 (row (sN (ix1 e)))) * dinv (ix1 (row (dN (ix1 e)))))) + b (ix1 j)

/-- The literals: 64, the variance's epsilon, zero. -/
abbrev c64 : EReal := Ideal.ofBits .f32 0x42800000#32
abbrev ceps : EReal := Ideal.ofBits .f32 0x3727C5AC#32
abbrev c0 : EReal := Ideal.ofBits .f32 0x00000000#32

/-- Normalise a row and clip it below at zero. -/
def lnrelu (z : Fin 64 → EReal) (g be : Fin 64 → EReal) (j : Fin 64) : EReal :=
  max ((z j - Ideal.div (∑ k, z k) c64)
        * Ideal.rsqrt (Ideal.div (∑ k, (z k - Ideal.div (∑ k, z k) c64) * (z k - Ideal.div (∑ k, z k) c64)) c64 + ceps)
        * g j + be j) c0

/-- A word with 50000 added when it is negative (how a negative position is counted from the end). -/
def nrmW (w : BitVec 32) : BitVec 32 := if w.slt 0#32 then w + 50000#32 else w

abbrev c1 : EReal := Ideal.ofBits .f32 0x3F800000#32

/-- The inverse square root of a node's degree (the number of edges into it, at least one). -/
def dinvSpec (dst : SE.Idx → BitVec 32) : SN.Idx → EReal := fun idx =>
  Ideal.rsqrt (max (((into dst (idx 0)).card : ℝ) : EReal) c1)

/-- A whole layer with normalisation, in the kernel's arrangement. -/
def layerK (h : SNC.Idx → EReal) (dinv : SN.Idx → EReal) (W : SCC.Idx → EReal) (b g be : SC.Idx → EReal)
    (sN dst : SE.Idx → BitVec 32) : SNC.Idx → EReal := fun idx =>
  lnrelu (fun j' => linK h dinv W b sN dst (idx 0) j') (fun j => g (ix1 j)) (fun j => be (ix1 j)) (idx 1)

/-- The last layer, which is not normalised, in the kernel's arrangement. -/
def lastK (h : SNC.Idx → EReal) (dinv : SN.Idx → EReal) (W : SCC.Idx → EReal) (b : SC.Idx → EReal)
    (sN dst : SE.Idx → BitVec 32) : SNC.Idx → EReal := fun idx => linK h dinv W b sN dst (idx 0) (idx 1)

/-- A whole layer with normalisation, in the reference's arrangement. -/
def layerR (h : SNC.Idx → EReal) (dinv : SN.Idx → EReal) (W : SCC.Idx → EReal) (b g be : SC.Idx → EReal)
    (sN dN dst : SE.Idx → BitVec 32) : SNC.Idx → EReal := fun idx =>
  lnrelu (fun j' => linR h dinv W b sN dN dst (idx 0) j') (fun j => g (ix1 j)) (fun j => be (ix1 j)) (idx 1)

/-- The last layer in the reference's arrangement. -/
def lastR (h : SNC.Idx → EReal) (dinv : SN.Idx → EReal) (W : SCC.Idx → EReal) (b : SC.Idx → EReal)
    (sN dN dst : SE.Idx → BitVec 32) : SNC.Idx → EReal := fun idx => linR h dinv W b sN dN dst (idx 0) (idx 1)

end Cert.GCN

end
-- ==== Proof.KRegion0.lean ====
/-
  What the first normalising region leaves in its output array, entry by entry, from the arrays it finds.
-/
import proofs.«413777_j75746043232585_3_alg».proof.Proof.Gen.KernelIdeal.Frame
import proofs.«413777_j75746043232585_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.RegionV

open Idealize.ShloMosaic Idealize.ShloMosaic.TcCoe Idealize.ShloMosaic.ValueIdx Idealize.SL.Sem Cert.KernelIdeal Cert.KernelIdeal.Gen Cert.GCN

/-! ## Layout operations of the body read at an entry -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, 0)`, the vector's entry `p`. -/
theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-! ## The two contractions of the body read at an entry -/

/-- The sum over a row's 64 lanes (whatever evidence the reduction carries for its format and its zero accumulator). -/
theorem laneSum_apply (src : FVec Ideal S5000x64 .f32) (hφ : FKind.Formats .f32)
    (hacc : (0x00000000#32 : BitVec 32) = 0x00000000#32) (p : Fin 5000) :
    multiReduction (F := Ideal) .add [1] S5000 src 0x00000000#32 reduces_S5000x64_S5000 hφ hacc (ix1 p)
      = ∑ k : Fin 64, src (ix2 p k) := by
  refine (Ideal.multiReduction_add_single src 0x00000000#32 reduces_S5000x64_S5000 hφ hacc (ix1 p)).trans ?_
  refine Finset.sum_congr rfl fun k _ => congrArg src ?_
  funext a
  apply Fin.ext
  match a with
  | ⟨0, _⟩ => rfl
  | ⟨1, _⟩ => rfl

theorem lhs_rowsTimesWeights_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_rowsTimesWeights_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_rowsTimesWeights_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_rowsTimesWeights_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product of a block of rows with the weights, into the zero accumulator: entry `(p, q)` is the sum over `k` of
    the row's entry `k` times the weight `(k, q)`. -/
theorem rowsTimesWeights_apply (A : FVec Ideal S5000x64 .f32) (B : FVec Ideal S64x64 .f32) (p : Fin 5000) (q : Fin 64) :
    matmul dot_S5000x64_S64x64_S5000x64_1_0_0_1_n_n (some .fp32) A B (constant (F := Ideal) S5000x64 .f32 0x00000000#32) (ix2 p q)
      = ∑ k : Fin 64, A (ix2 p k) * B (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_rowsTimesWeights_0 _ _
    | ⟨1, _⟩ => exact (lhs_rowsTimesWeights_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_rowsTimesWeights_0 _ _).trans hk
    | ⟨1, _⟩ => exact rhs_rowsTimesWeights_1 _ _)
  rw [el, er]

/-- The inverse square root of a vector at an entry is the entry's. -/
theorem rsqrt_apply {s : Shape} {φ : FTy} (a : FVec Ideal s φ) (i : s.Idx) : rsqrt a i = Ideal.rsqrt (a i) := rfl

/-! ## The body's result at an entry of its block -/

/-- Entry `(p, q)` of what the body stores, from the blocks it loads: row `p` of the first block scaled by the column's
    entry `p`, times the weights, shifted by the bias row; normalised over the row's 64 lanes with gain and shift rows,
    and clipped below at zero. -/
theorem payload_apply (x0 : Vec Ideal S5000x64 .f32) (x1 : Vec Ideal S5000x1 .f32) (x2 : Vec Ideal S64x64 .f32)
    (x3 x4 x5 : Vec Ideal S1x64 .f32) (p : Fin 5000) (q : Fin 64) :
    k0_pay1 x0 x1 x2 x3 x4 x5 (ix2 p q)
      = lnrelu (fun j' => (∑ k : Fin 64, (x0 (ix2 p k) * x1 (ix2 p (0 : Fin 1))) * x2 (ix2 k j')) + x3 (ix2 (0 : Fin 1) j'))
          (fun j => x4 (ix2 (0 : Fin 1) j)) (fun j => x5 (ix2 (0 : Fin 1) j)) q := by
  unfold k0_pay1
  dsimp only
  simp only [maximumf_apply, addf_apply, mulf_apply, subf_apply, divf_apply, rsqrt_apply, broadcast_apply,
    shapeCast_self, broadcastTo_a1_ab_apply, broadcastTo_1b_ab_apply, shapeCast_a_a1_apply,
    rowsTimesWeights_apply, Ideal.ofBits_def]
  rw [laneSum_apply, laneSum_apply]
  simp only [addf_apply, mulf_apply, subf_apply, divf_apply, broadcast_apply,
    shapeCast_self, broadcastTo_a1_ab_apply, broadcastTo_1b_ab_apply, shapeCast_a_a1_apply,
    rowsTimesWeights_apply, Ideal.ofBits_def]
  rw [laneSum_apply]
  simp only [lnrelu, addf_apply, mulf_apply, shapeCast_self, broadcastTo_a1_ab_apply, broadcastTo_1b_ab_apply,
    rowsTimesWeights_apply]

/-! ## From the blocks to the array -/

variable (V : (c : Dev nD) → (b : Ref sig .tc) → Buf (Elt Ideal) ((c : Thread nD τ).loc b))

/-- The zero offsets of a whole-block rectangle. -/
theorem zeroOffsets : (![0, 0] : Fin 2 → Nat) = fun _ => 0 :=
  funext fun a => by match a with | ⟨0, _⟩ => rfl | ⟨1, _⟩ => rfl

/-- The whole output array the region leaves, as one function of the arrays it finds: entry `(i, j)` is row `i` of the row
    totals scaled by d(i), multiplied by the weights, shifted, normalised over the row and clipped. -/
abbrev normalisedLayer0 (c : Dev nD) : S50000x64.Idx → EReal := fun idx =>
  lnrelu (fun j' => linOfAgg (fun i k => (V c main_v34 : S50000x64.Idx → EReal) (ix2 i k))
            (fun i => (V c main_v35 : S50000x1.Idx → EReal) (ix2 i (0 : Fin 1))) (V c main_arg2 : S64x64.Idx → EReal)
            (fun j => (V c main_v36 : S1x64.Idx → EReal) (ix2 (0 : Fin 1) j)) (idx 0) j')
          (fun j => (V c main_v37 : S1x64.Idx → EReal) (ix2 (0 : Fin 1) j))
          (fun j => (V c main_v38 : S1x64.Idx → EReal) (ix2 (0 : Fin 1) j)) (idx 1)

/-- The block indices of the seven windows at each of the ten grid points: the two row-blocked inputs and the output sit
    at row block `t`; the weights and the three rows are fetched whole. -/
theorem blockIndex_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the row-totals block at point `t` is row `5000 t + p` of the array. -/
theorem totalsBlock0_apply (c : Dev nD) (t : Fin cfg0.N) (p : Fin 5000) (k : Fin 64) (r : Fin 50000)
    (hr : r.val = t.val * 5000 + p.val) :
    (iblk0 V c 0 t : Vec Ideal S5000x64 .f32) (ix2 p k) = (V c main_v34 : S50000x64.Idx → EReal) (ix2 r k) := by
  obtain ⟨e0, e1, -⟩ := blockIndex_facts0 t
  show (V c main_v34 : S50000x64.Idx → EReal) (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- Entry `p` of the scale column's block at point `t` is entry `5000 t + p` of the column. -/
theorem scaleBlock0_apply (c : Dev nD) (t : Fin cfg0.N) (p : Fin 5000) (r : Fin 50000)
    (hr : r.val = t.val * 5000 + p.val) :
    (iblk0 V c 1 t : Vec Ideal S5000x1 .f32) (ix2 p (0 : Fin 1)) = (V c main_v35 : S50000x1.Idx → EReal) (ix2 r (0 : Fin 1)) := by
  obtain ⟨-, -, e2, e3, -⟩ := blockIndex_facts0 t
  show (V c main_v35 : S50000x1.Idx → EReal) (((cfg0.win 1).blk t).view.emb (ix2 p (0 : Fin 1))) = _
  refine congrArg _ (funext fun a => Fin.ext ?_)
  match a with
  | ⟨0, _⟩ => show win0_1.index t (0 : Fin 2) * 5000 + 1 * p.val = r.val; omega
  | ⟨1, _⟩ => show win0_1.index t (1 : Fin 2) * 1 + 1 * 0 = 0; omega

/-- The weights' block at every point is the whole array. -/
theorem weightsBlock0_apply (c : Dev nD) (t : Fin cfg0.N) (k j : Fin 64) :
    (iblk0 V c 2 t : Vec Ideal S64x64 .f32) (ix2 k j) = (V c main_arg2 : S64x64.Idx → EReal) (ix2 k j) := by
  obtain ⟨-, -, -, -, e4, e5, -⟩ := blockIndex_facts0 t
  show (V c main_arg2 : S64x64.Idx → EReal) (((cfg0.win 2).blk t).view.emb (ix2 k j)) = _
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * j.val = j.val; omega

/-- The bias row's block at every point is the whole row. -/
theorem biasBlock0_apply (c : Dev nD) (t : Fin cfg0.N) (j : Fin 64) :
    (iblk0 V c 3 t : Vec Ideal S1x64 .f32) (ix2 (0 : Fin 1) j) = (V c main_v36 : S1x64.Idx → EReal) (ix2 (0 : Fin 1) j) := by
  obtain ⟨-, -, -, -, -, -, e6, e7, -⟩ := blockIndex_facts0 t
  show (V c main_v36 : S1x64.Idx → EReal) (((cfg0.win 3).blk t).view.emb (ix2 (0 : Fin 1) j)) = _
  refine congrArg _ (funext fun a => Fin.ext ?_)
  match a with
  | ⟨0, _⟩ => show win0_3.index t (0 : Fin 2) * 1 + 1 * 0 = 0; omega
  | ⟨1, _⟩ => show win0_3.index t (1 : Fin 2) * 64 + 1 * j.val = j.val; omega

/-- The gain row's block at every point is the whole row. -/
theorem gainBlock0_apply (c : Dev nD) (t : Fin cfg0.N) (j : Fin 64) :
    (iblk0 V c 4 t : Vec Ideal S1x64 .f32) (ix2 (0 : Fin 1) j) = (V c main_v37 : S1x64.Idx → EReal) (ix2 (0 : Fin 1) j) := by
  obtain ⟨-, -, -, -, -, -, -, -, e8, e9, -⟩ := blockIndex_facts0 t
  show (V c main_v37 : S1x64.Idx → EReal) (((cfg0.win 4).blk t).view.emb (ix2 (0 : Fin 1) j)) = _
  refine congrArg _ (funext fun a => Fin.ext ?_)
  match a with
  | ⟨0, _⟩ => show win0_4.index t (0 : Fin 2) * 1 + 1 * 0 = 0; omega
  | ⟨1, _⟩ => show win0_4.index t (1 : Fin 2) * 64 + 1 * j.val = j.val; omega

/-- The shift row's block at every point is the whole row. -/
theorem shiftBlock0_apply (c : Dev nD) (t : Fin cfg0.N) (j : Fin 64) :
    (iblk0 V c 5 t : Vec Ideal S1x64 .f32) (ix2 (0 : Fin 1) j) = (V c main_v38 : S1x64.Idx → EReal) (ix2 (0 : Fin 1) j) := by
  obtain ⟨-, -, -, -, -, -, -, -, -, -, e10, e11, -⟩ := blockIndex_facts0 t
  show (V c main_v38 : S1x64.Idx → EReal) (((cfg0.win 5).blk t).view.emb (ix2 (0 : Fin 1) j)) = _
  refine congrArg _ (funext fun a => Fin.ext ?_)
  match a with
  | ⟨0, _⟩ => show win0_5.index t (0 : Fin 2) * 1 + 1 * 0 = 0; omega
  | ⟨1, _⟩ => show win0_5.index t (1 : Fin 2) * 64 + 1 * j.val = j.val; omega

/-- Entry `(p, q)` of what the body stores at point `t` is entry `(5000 t + p, q)` of the whole-array function. -/
theorem blockEntry0_eq (c : Dev nD) (t : Fin cfg0.N) (p : Fin 5000) (q : Fin 64) (r : Fin 50000)
    (hr : r.val = t.val * 5000 + p.val) :
    k0_pay1 (iblk0 V c 0 t) (iblk0 V c 1 t) (iblk0 V c 2 t) (iblk0 V c 3 t) (iblk0 V c 4 t) (iblk0 V c 5 t) (ix2 p q)
      = normalisedLayer0 V c (ix2 r q) := by
  refine (payload_apply (iblk0 V c 0 t) (iblk0 V c 1 t) (iblk0 V c 2 t) (iblk0 V c 3 t) (iblk0 V c 4 t) (iblk0 V c 5 t) p q).trans ?_
  show _ = lnrelu (fun j' => linOfAgg (fun i k => (V c main_v34 : S50000x64.Idx → EReal) (ix2 i k))
            (fun i => (V c main_v35 : S50000x1.Idx → EReal) (ix2 i (0 : Fin 1))) (V c main_arg2 : S64x64.Idx → EReal)
            (fun j => (V c main_v36 : S1x64.Idx → EReal) (ix2 (0 : Fin 1) j)) r j')
          (fun j => (V c main_v37 : S1x64.Idx → EReal) (ix2 (0 : Fin 1) j))
          (fun j => (V c main_v38 : S1x64.Idx → EReal) (ix2 (0 : Fin 1) j)) q
  unfold linOfAgg
  simp only [totalsBlock0_apply V c t p _ r hr, scaleBlock0_apply V c t p r hr, weightsBlock0_apply V c t,
    biasBlock0_apply V c t, gainBlock0_apply V c t, shiftBlock0_apply V c t]

/-- What point `t` writes back is block `t` of the whole-array function. -/
theorem flushedBlock0_eq (c : Dev nD) (t : Fin cfg0.N) :
    (dat0 (F := Ideal) V c).flushed 6 t = ((cfg0.win 6).blk t).view.read (Elt Ideal) (normalisedLayer0 V c) := by
  show (cfg0.win 6).cut (grid0.coords t) ((dat0 (F := Ideal) V c).after 6 t) = _
  rw [after0_6]
  unfold out0_6
  rw [View.canon_unit_zero zeroOffsets]
  simp only [View.ld_unit_zero (S := S5000x64) zeroOffsets, View.ld_unit_zero (S := S5000x1) zeroOffsets,
    View.ld_unit_zero (S := S64x64) zeroOffsets, View.ld_unit_zero (S := S1x64) zeroOffsets]
  obtain ⟨-, -, -, -, -, -, -, -, -, -, -, -, e12, e13⟩ := blockIndex_facts0 t
  have hN : t.val < 10 := Nat.lt_of_lt_of_eq t.isLt N_0
  funext y
  obtain ⟨p, q, rfl⟩ : ∃ (p : Fin 5000) (q : Fin 64), y = ix2 p q := ⟨y 0, y 1, eq_ix2 y⟩
  show k0_pay1 (iblk0 V c 0 t) (iblk0 V c 1 t) (iblk0 V c 2 t) (iblk0 V c 3 t) (iblk0 V c 4 t) (iblk0 V c 5 t) (ix2 p q)
      = normalisedLayer0 V c (((cfg0.win 6).blk t).view.emb (ix2 p q))
  have hp : p.val < 5000 := p.isLt
  refine (blockEntry0_eq V c t p q ⟨t.val * 5000 + p.val, by omega⟩ rfl).trans ?_
  refine congrArg (normalisedLayer0 V c) (funext fun a => Fin.ext ?_)
  match a with
  | ⟨0, _⟩ => show t.val * 5000 + p.val = win0_6.index t (0 : Fin 2) * 5000 + 1 * p.val; omega
  | ⟨1, _⟩ => show q.val = win0_6.index t (1 : Fin 2) * 64 + 1 * q.val; omega

/-- An entry of the array is in point `t`'s block iff each coordinate is in the block's range on its axis. -/
theorem mem_outBlock0 (t : Fin cfg0.N) (i : S50000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v39).slice (win0_6.rect t)).set ↔ _
  rw [View.set_slice_whole, Rect.mem_set_unit]
  exact Iff.rfl

/-- Row `r` of the array is written back by point `r / 5000`: the ten row blocks cover the array. -/
theorem rows_covered0 (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, Nat.lt_of_lt_of_eq (by omega : (i 0).val / 5000 < 10) N_0.symm⟩, rfl⟩
  obtain ⟨-, -, -, -, -, -, -, -, -, -, -, -, e12, e13⟩ := blockIndex_facts0 t
  refine ⟨t, flush0_6 t, ?_⟩
  rw [mem_outBlock0]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 64 ≤ (i 1).val ∧ (i 1).val < win0_6.index t (1 : Fin 2) * 64 + 64
    omega

/-- The output array after the run is the whole-array function. -/
theorem outputArray0_eq (c : Dev nD) : (dat0 (F := Ideal) V c).arrAt 6 cfg0.N = normalisedLayer0 V c :=
  (dat0 (F := Ideal) V c).arrAt_eq_of_cover 6 (normalisedLayer0 V c) (fun t _ => flushedBlock0_eq V c t) rows_covered0

/-- Entry (i, j) of the region's output array after the run: row i of the row totals scaled by d(i), multiplied by the
    weights, shifted, normalised over the row and clipped. -/
theorem region0_value (c : Dev nD) (i : Fin 50000) (j : Fin 64) :
    ((dat0 (F := Ideal) V c).arrAt 6 cfg0.N : S50000x64.Idx → EReal) (ix2 i j)
      = lnrelu (fun j' => linOfAgg (fun i k => (V c main_v34 : S50000x64.Idx → EReal) (ix2 i k))
            (fun i => (V c main_v35 : S50000x1.Idx → EReal) (ix2 i (0 : Fin 1))) (V c main_arg2 : S64x64.Idx → EReal)
            (fun j => (V c main_v36 : S1x64.Idx → EReal) (ix2 (0 : Fin 1) j)) i j')
          (fun j => (V c main_v37 : S1x64.Idx → EReal) (ix2 (0 : Fin 1) j))
          (fun j => (V c main_v38 : S1x64.Idx → EReal) (ix2 (0 : Fin 1) j)) j :=
  congrFun (outputArray0_eq V c) (ix2 i j)

end Cert.KernelIdeal.RegionV

end
-- ==== Proof.KRegion1.lean ====
/-
  What the second normalising region leaves in its output array, entry by entry, from the arrays it finds.
-/
import proofs.«413777_j75746043232585_3_alg».proof.Proof.Gen.KernelIdeal.Frame
import proofs.«413777_j75746043232585_3_alg».proof.Proof.Spec
import proofs.«413777_j75746043232585_3_alg».proof.Proof.KRegion0
import Idealize.ShloMosaic.Lib.Pipeline.Value
import Idealize.ShloMosaic.PureOps.Ideal.Laws

set_option maxRecDepth 16384

noncomputable section

namespace Cert.KernelIdeal.RegionV

open Idealize.ShloMosaic Idealize.ShloMosaic.TcCoe Idealize.ShloMosaic.ValueIdx Idealize.SL.Sem Cert.KernelIdeal Cert.KernelIdeal.Gen Cert.GCN

/-! ## The body's result at an entry of its block -/

/-- The second region's body is the same function of the blocks it loads as the first region's. -/
theorem payload1_eq_payload0 (x0 : Vec Ideal S5000x64 .f32) (x1 : Vec Ideal S5000x1 .f32) (x2 : Vec Ideal S64x64 .f32)
    (x3 x4 x5 : Vec Ideal S1x64 .f32) : k1_pay1 x0 x1 x2 x3 x4 x5 = k0_pay1 x0 x1 x2 x3 x4 x5 := rfl

/-! ## From the blocks to the array -/

variable (V : (c : Dev nD) → (b : Ref sig .tc) → Buf (Elt Ideal) ((c : Thread nD τ).loc b))

/-- The whole output array the second region leaves, as one function of the arrays it finds: entry `(i, j)` is row `i` of
    the row totals scaled by d(i), multiplied by the weights, shifted, normalised over the row and clipped. -/
abbrev normalisedLayer1 (c : Dev nD) : S50000x64.Idx → EReal := fun idx =>
  lnrelu (fun j' => linOfAgg (fun i k => (V c main_v59 : S50000x64.Idx → EReal) (ix2 i k))
            (fun i => (V c main_v60 : S50000x1.Idx → EReal) (ix2 i (0 : Fin 1))) (V c main_arg6 : S64x64.Idx → EReal)
            (fun j => (V c main_v61 : S1x64.Idx → EReal) (ix2 (0 : Fin 1) j)) (idx 0) j')
          (fun j => (V c main_v62 : S1x64.Idx → EReal) (ix2 (0 : Fin 1) j))
          (fun j => (V c main_v63 : S1x64.Idx → EReal) (ix2 (0 : Fin 1) j)) (idx 1)

/-- The block indices of the second region's seven windows at each of its ten grid points: the two row-blocked inputs and
    the output sit at row block `t`; the weights and the three rows are fetched whole. -/
theorem blockIndex_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the row-totals block at point `t` is row `5000 t + p` of the array. -/
theorem totalsBlock1_apply (c : Dev nD) (t : Fin cfg1.N) (p : Fin 5000) (k : Fin 64) (r : Fin 50000)
    (hr : r.val = t.val * 5000 + p.val) :
    (iblk1 V c 0 t : Vec Ideal S5000x64 .f32) (ix2 p k) = (V c main_v59 : S50000x64.Idx → EReal) (ix2 r k) := by
  obtain ⟨e0, e1, -⟩ := blockIndex_facts1 t
  show (V c main_v59 : S50000x64.Idx → EReal) (((cfg1.win 0).blk t).view.emb (ix2 p k)) = _
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- Entry `p` of the scale column's block at point `t` is entry `5000 t + p` of the column. -/
theorem scaleBlock1_apply (c : Dev nD) (t : Fin cfg1.N) (p : Fin 5000) (r : Fin 50000)
    (hr : r.val = t.val * 5000 + p.val) :
    (iblk1 V c 1 t : Vec Ideal S5000x1 .f32) (ix2 p (0 : Fin 1)) = (V c main_v60 : S50000x1.Idx → EReal) (ix2 r (0 : Fin 1)) := by
  obtain ⟨-, -, e2, e3, -⟩ := blockIndex_facts1 t
  show (V c main_v60 : S50000x1.Idx → EReal) (((cfg1.win 1).blk t).view.emb (ix2 p (0 : Fin 1))) = _
  refine congrArg _ (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

/-- The weights' block at every point is the whole array. -/
theorem weightsBlock1_apply (c : Dev nD) (t : Fin cfg1.N) (k j : Fin 64) :
    (iblk1 V c 2 t : Vec Ideal S64x64 .f32) (ix2 k j) = (V c main_arg6 : S64x64.Idx → EReal) (ix2 k j) := by
  obtain ⟨-, -, -, -, e4, e5, -⟩ := blockIndex_facts1 t
  show (V c main_arg6 : S64x64.Idx → EReal) (((cfg1.win 2).blk t).view.emb (ix2 k j)) = _
  refine congrArg _ (funext fun a => Fin.ext ?_)
  match a with
  | ⟨0, _⟩ => show win1_2.index t (0 : Fin 2) * 64 + 1 * k.val = k.val; omega
  | ⟨1, _⟩ => show win1_2.index t (1 : Fin 2) * 64 + 1 * j.val = j.val; omega

/-- The bias row's block at every point is the whole row. -/
theorem biasBlock1_apply (c : Dev nD) (t : Fin cfg1.N) (j : Fin 64) :
    (iblk1 V c 3 t : Vec Ideal S1x64 .f32) (ix2 (0 : Fin 1) j) = (V c main_v61 : S1x64.Idx → EReal) (ix2 (0 : Fin 1) j) := by
  obtain ⟨-, -, -, -, -, -, e6, e7, -⟩ := blockIndex_facts1 t
  show (V c main_v61 : S1x64.Idx → EReal) (((cfg1.win 3).blk t).view.emb (ix2 (0 : Fin 1) j)) = _
  refine congrArg _ (funext fun a => Fin.ext ?_)
  match a with
  | ⟨0, _⟩ => show win1_3.index t (0 : Fin 2) * 1 + 1 * 0 = 0; omega
  | ⟨1, _⟩ => show win1_3.index t (1 : Fin 2) * 64 + 1 * j.val = j.val; omega

/-- The gain row's block at every point is the whole row. -/
theorem gainBlock1_apply (c : Dev nD) (t : Fin cfg1.N) (j : Fin 64) :
    (iblk1 V c 4 t : Vec Ideal S1x64 .f32) (ix2 (0 : Fin 1) j) = (V c main_v62 : S1x64.Idx → EReal) (ix2 (0 : Fin 1) j) := by
  obtain ⟨-, -, -, -, -, -, -, -, e8, e9, -⟩ := blockIndex_facts1 t
  show (V c main_v62 : S1x64.Idx → EReal) (((cfg1.win 4).blk t).view.emb (ix2 (0 : Fin 1) j)) = _
  refine congrArg _ (funext fun a => Fin.ext ?_)
  match a with
  | ⟨0, _⟩ => show win1_4.index t (0 : Fin 2) * 1 + 1 * 0 = 0; omega
  | ⟨1, _⟩ => show win1_4.index t (1 : Fin 2) * 64 + 1 * j.val = j.val; omega

/-- The shift row's block at every point is the whole row. -/
theorem shiftBlock1_apply (c : Dev nD) (t : Fin cfg1.N) (j : Fin 64) :
    (iblk1 V c 5 t : Vec Ideal S1x64 .f32) (ix2 (0 : Fin 1) j) = (V c main_v63 : S1x64.Idx → EReal) (ix2 (0 : Fin 1) j) := by
  obtain ⟨-, -, -, -, -, -, -, -, -, -, e10, e11, -⟩ := blockIndex_facts1 t
  show (V c main_v63 : S1x64.Idx → EReal) (((cfg1.win 5).blk t).view.emb (ix2 (0 : Fin 1) j)) = _
  refine congrArg _ (funext fun a => Fin.ext ?_)
  match a with
  | ⟨0, _⟩ => show win1_5.index t (0 : Fin 2) * 1 + 1 * 0 = 0; omega
  | ⟨1, _⟩ => show win1_5.index t (1 : Fin 2) * 64 + 1 * j.val = j.val; omega

/-- Entry `(p, q)` of what the body stores at point `t` is entry `(5000 t + p, q)` of the whole-array function. -/
theorem blockEntry1_eq (c : Dev nD) (t : Fin cfg1.N) (p : Fin 5000) (q : Fin 64) (r : Fin 50000)
    (hr : r.val = t.val * 5000 + p.val) :
    k1_pay1 (iblk1 V c 0 t) (iblk1 V c 1 t) (iblk1 V c 2 t) (iblk1 V c 3 t) (iblk1 V c 4 t) (iblk1 V c 5 t) (ix2 p q)
      = normalisedLayer1 V c (ix2 r q) := by
  refine ((congrFun (payload1_eq_payload0 (iblk1 V c 0 t) (iblk1 V c 1 t) (iblk1 V c 2 t) (iblk1 V c 3 t) (iblk1 V c 4 t)
    (iblk1 V c 5 t)) (ix2 p q)).trans (payload_apply (iblk1 V c 0 t) (iblk1 V c 1 t) (iblk1 V c 2 t) (iblk1 V c 3 t)
    (iblk1 V c 4 t) (iblk1 V c 5 t) p q)).trans ?_
  show _ = lnrelu (fun j' => linOfAgg (fun i k => (V c main_v59 : S50000x64.Idx → EReal) (ix2 i k))
            (fun i => (V c main_v60 : S50000x1.Idx → EReal) (ix2 i (0 : Fin 1))) (V c main_arg6 : S64x64.Idx → EReal)
            (fun j => (V c main_v61 : S1x64.Idx → EReal) (ix2 (0 : Fin 1) j)) r j')
          (fun j => (V c main_v62 : S1x64.Idx → EReal) (ix2 (0 : Fin 1) j))
          (fun j => (V c main_v63 : S1x64.Idx → EReal) (ix2 (0 : Fin 1) j)) q
  unfold linOfAgg
  simp only [totalsBlock1_apply V c t p _ r hr, scaleBlock1_apply V c t p r hr, weightsBlock1_apply V c t,
    biasBlock1_apply V c t, gainBlock1_apply V c t, shiftBlock1_apply V c t]

/-- What point `t` writes back is block `t` of the whole-array function. -/
theorem flushedBlock1_eq (c : Dev nD) (t : Fin cfg1.N) :
    (dat1 (F := Ideal) V c).flushed 6 t = ((cfg1.win 6).blk t).view.read (Elt Ideal) (normalisedLayer1 V c) := by
  show (cfg1.win 6).cut (grid1.coords t) ((dat1 (F := Ideal) V c).after 6 t) = _
  rw [after1_6]
  unfold out1_6
  rw [View.canon_unit_zero zeroOffsets]
  simp only [View.ld_unit_zero (S := S5000x64) zeroOffsets, View.ld_unit_zero (S := S5000x1) zeroOffsets,
    View.ld_unit_zero (S := S64x64) zeroOffsets, View.ld_unit_zero (S := S1x64) zeroOffsets]
  obtain ⟨-, -, -, -, -, -, -, -, -, -, -, -, e12, e13⟩ := blockIndex_facts1 t
  have hN : t.val < 10 := Nat.lt_of_lt_of_eq t.isLt N_1
  funext y
  obtain ⟨p, q, rfl⟩ : ∃ (p : Fin 5000) (q : Fin 64), y = ix2 p q := ⟨y 0, y 1, eq_ix2 y⟩
  show k1_pay1 (iblk1 V c 0 t) (iblk1 V c 1 t) (iblk1 V c 2 t) (iblk1 V c 3 t) (iblk1 V c 4 t) (iblk1 V c 5 t) (ix2 p q)
      = normalisedLayer1 V c (((cfg1.win 6).blk t).view.emb (ix2 p q))
  have hp : p.val < 5000 := p.isLt
  refine (blockEntry1_eq V c t p q ⟨t.val * 5000 + p.val, by omega⟩ rfl).trans ?_
  refine congrArg (normalisedLayer1 V c) (funext fun a => Fin.ext ?_)
  match a with
  | ⟨0, _⟩ => show t.val * 5000 + p.val = win1_6.index t (0 : Fin 2) * 5000 + 1 * p.val; omega
  | ⟨1, _⟩ => show q.val = win1_6.index t (1 : Fin 2) * 64 + 1 * q.val; omega

/-- An entry of the array is in point `t`'s block iff each coordinate is in the block's range on its axis. -/
theorem mem_outBlock1 (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v64).slice (win1_6.rect t)).set ↔ _
  rw [View.set_slice_whole, Rect.mem_set_unit]
  exact Iff.rfl

/-- Row `r` of the array is written back by point `r / 5000`: the ten row blocks cover the array. -/
theorem rows_covered1 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, Nat.lt_of_lt_of_eq (by omega : (i 0).val / 5000 < 10) N_1.symm⟩, rfl⟩
  obtain ⟨-, -, -, -, -, -, -, -, -, -, -, -, e12, e13⟩ := blockIndex_facts1 t
  refine ⟨t, flush1_6 t, ?_⟩
  rw [mem_outBlock1]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 64 ≤ (i 1).val ∧ (i 1).val < win1_6.index t (1 : Fin 2) * 64 + 64
    omega

/-- The output array after the run is the whole-array function. -/
theorem outputArray1_eq (c : Dev nD) : (dat1 (F := Ideal) V c).arrAt 6 cfg1.N = normalisedLayer1 V c :=
  (dat1 (F := Ideal) V c).arrAt_eq_of_cover 6 (normalisedLayer1 V c) (fun t _ => flushedBlock1_eq V c t) rows_covered1

/-- Entry (i, j) of the region's output array after the run: row i of the row totals scaled by d(i), multiplied by the
    weights, shifted, normalised over the row and clipped. -/
theorem region1_value (c : Dev nD) (i : Fin 50000) (j : Fin 64) :
    ((dat1 (F := Ideal) V c).arrAt 6 cfg1.N : S50000x64.Idx → EReal) (ix2 i j)
      = lnrelu (fun j' => linOfAgg (fun i k => (V c main_v59 : S50000x64.Idx → EReal) (ix2 i k))
            (fun i => (V c main_v60 : S50000x1.Idx → EReal) (ix2 i (0 : Fin 1))) (V c main_arg6 : S64x64.Idx → EReal)
            (fun j => (V c main_v61 : S1x64.Idx → EReal) (ix2 (0 : Fin 1) j)) i j')
          (fun j => (V c main_v62 : S1x64.Idx → EReal) (ix2 (0 : Fin 1) j))
          (fun j => (V c main_v63 : S1x64.Idx → EReal) (ix2 (0 : Fin 1) j)) j :=
  congrFun (outputArray1_eq V c) (ix2 i j)

end Cert.KernelIdeal.RegionV

end
-- ==== Proof.KRegion2.lean ====
/-
  What the last region, which does not normalise, leaves in its output array, entry by entry, from the arrays it finds.
-/
import proofs.«413777_j75746043232585_3_alg».proof.Proof.Gen.KernelIdeal.Frame
import proofs.«413777_j75746043232585_3_alg».proof.Proof.Spec
import Idealize.ShloMosaic.Lib.Pipeline.Value
import Idealize.ShloMosaic.PureOps.Ideal.Laws

set_option maxRecDepth 16384

noncomputable section

namespace Cert.KernelIdeal.RegionV

open Idealize.ShloMosaic Idealize.ShloMosaic.TcCoe Idealize.ShloMosaic.ValueIdx Idealize.SL.Sem Cert.KernelIdeal Cert.KernelIdeal.Gen Cert.GCN

variable (V : (c : Dev nD) → (b : Ref sig .tc) → Buf (Elt Ideal) ((c : Thread nD τ).loc b))

/-! ## The contraction's operand indices, axis by axis -/

private theorem contrL_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
private theorem contrL_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
private theorem contrR_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
private theorem contrR_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product of a block of rows with the weights, into zero, read at (p, q): the sum over the shared axis. -/
private theorem rows_times_weights (A : FVec Ideal S5000x64 .f32) (B : FVec Ideal S64x64 .f32) (p : Fin 5000) (q : Fin 64) :
    matmul dot_S5000x64_S64x64_S5000x64_1_0_0_1_n_n (some .fp32) A B (constant (F := Ideal) S5000x64 .f32 0x00000000#32) (ix2 p q)
      = ∑ k : Fin 64, A (ix2 p k) * B (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact contrL_0 _ _
    | ⟨1, _⟩ => exact (contrL_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (contrR_0 _ _).trans hk
    | ⟨1, _⟩ => exact contrR_1 _ _)
  rw [el, er]

/-- A column of 5000 entries spread over 64 columns reads, at (p, q), the column's entry p. -/
private theorem column_spread (v : S5000x1.Idx → EReal) (h : S5000x1.Broadcasts S5000x64) (p : Fin 5000) (q : Fin 64) :
    broadcastTo S5000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A row of 64 entries spread over 5000 rows reads, at (p, q), the row's entry q. -/
private theorem row_spread (v : S1x64.Idx → EReal) (h : S1x64.Broadcasts S5000x64) (p : Fin 5000) (q : Fin 64) :
    broadcastTo S5000x64 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- The body's arithmetic at entry (p, q) of a block: the block's row p scaled by its d, times the weights, shifted. -/
private theorem body_at (x0 : Vec Ideal S5000x64 .f32) (x1 : Vec Ideal S5000x1 .f32) (x2 : Vec Ideal S64x64 .f32)
    (x3 : Vec Ideal S1x64 .f32) (p : Fin 5000) (q : Fin 64) :
    k2_pay1 (F := Ideal) x0 x1 x2 x3 (ix2 p q)
      = (∑ k : Fin 64, (x0 (ix2 p k) * x1 (ix2 p (0 : Fin 1))) * x2 (ix2 k q)) + x3 (ix2 (0 : Fin 1) q) := by
  unfold k2_pay1
  simp only [shapeCast_self]
  rw [addf_apply, rows_times_weights, row_spread]
  refine congrArg (· + x3 (ix2 (0 : Fin 1) q)) (Finset.sum_congr rfl fun k _ => ?_)
  rw [mulf_apply, column_spread]

/-! ## From the blocks to the array -/

private theorem zero_offsets : (![0, 0] : Fin 2 → Nat) = fun _ => 0 :=
  funext fun a => by match a with | ⟨0, _⟩ => rfl | ⟨1, _⟩ => rfl

/-- Where each window's block sits at grid point t: the row totals, the scale column and the output move down one
    block of 5000 rows per point; the weights and the shift stay at the one block they have. -/
private theorem block_positions : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The layer before normalisation as one function of the array index, from the arrays the region finds. -/
private abbrev wholeLayer (c : Dev nD) : S50000x64.Idx → EReal := fun idx =>
  linOfAgg (fun i k => (V c main_v84 : S50000x64.Idx → EReal) (ix2 i k))
    (fun i => (V c main_v85 : S50000x1.Idx → EReal) (ix2 i (0 : Fin 1))) (V c main_arg10 : S64x64.Idx → EReal)
    (fun j => (V c main_v86 : S1x64.Idx → EReal) (ix2 (0 : Fin 1) j)) (idx 0) (idx 1)

/-- Entry (p, k) of the row totals' block at point t is entry (5000 t + p, k) of the array. -/
private theorem totals_block (c : Dev nD) (t : Fin cfg2.N) (p : Fin 5000) (k : Fin 64) (r : Fin 50000)
    (hr : r.val = t.val * 5000 + p.val) :
    (iblk2 (F := Ideal) V c 0 t : S5000x64.Idx → EReal) (ix2 p k) = (V c main_v84 : S50000x64.Idx → EReal) (ix2 r k) := by
  obtain ⟨e0, e1, -⟩ := block_positions t
  unfold iblk2
  rw [View.read_apply]
  show V c main_v84 _ = V c main_v84 _
  congr 1
  funext a
  apply Fin.ext
  match a with
  | ⟨0, _⟩ => show win2_0.index t (0 : Fin 2) * 5000 + 1 * p.val = r.val; omega
  | ⟨1, _⟩ => show win2_0.index t (1 : Fin 2) * 64 + 1 * k.val = k.val; omega

/-- Entry p of the scale column's block at point t is entry 5000 t + p of the column. -/
private theorem scale_block (c : Dev nD) (t : Fin cfg2.N) (p : Fin 5000) (r : Fin 50000)
    (hr : r.val = t.val * 5000 + p.val) :
    (iblk2 (F := Ideal) V c 1 t : S5000x1.Idx → EReal) (ix2 p (0 : Fin 1)) = (V c main_v85 : S50000x1.Idx → EReal) (ix2 r (0 : Fin 1)) := by
  obtain ⟨-, -, e0, e1, -⟩ := block_positions t
  unfold iblk2
  rw [View.read_apply]
  show V c main_v85 _ = V c main_v85 _
  congr 1
  funext a
  apply Fin.ext
  match a with
  | ⟨0, _⟩ => show win2_1.index t (0 : Fin 2) * 5000 + 1 * p.val = r.val; omega
  | ⟨1, _⟩ => show win2_1.index t (1 : Fin 2) * 1 + 1 * (0 : Fin 1).val = (0 : Fin 1).val; omega

/-- The weights' one block is the whole array of weights. -/
private theorem weights_block (c : Dev nD) (t : Fin cfg2.N) (k q : Fin 64) :
    (iblk2 (F := Ideal) V c 2 t : S64x64.Idx → EReal) (ix2 k q) = (V c main_arg10 : S64x64.Idx → EReal) (ix2 k q) := by
  obtain ⟨-, -, -, -, e0, e1, -⟩ := block_positions t
  unfold iblk2
  rw [View.read_apply]
  show V c main_arg10 _ = V c main_arg10 _
  congr 1
  funext a
  apply Fin.ext
  match a with
  | ⟨0, _⟩ => show win2_2.index t (0 : Fin 2) * 64 + 1 * k.val = k.val; omega
  | ⟨1, _⟩ => show win2_2.index t (1 : Fin 2) * 64 + 1 * q.val = q.val; omega

/-- The shift's one block is the whole row. -/
private theorem shift_block (c : Dev nD) (t : Fin cfg2.N) (q : Fin 64) :
    (iblk2 (F := Ideal) V c 3 t : S1x64.Idx → EReal) (ix2 (0 : Fin 1) q) = (V c main_v86 : S1x64.Idx → EReal) (ix2 (0 : Fin 1) q) := by
  obtain ⟨-, -, -, -, -, -, e0, e1, -⟩ := block_positions t
  unfold iblk2
  rw [View.read_apply]
  show V c main_v86 _ = V c main_v86 _
  congr 1
  funext a
  apply Fin.ext
  match a with
  | ⟨0, _⟩ => show win2_3.index t (0 : Fin 2) * 1 + 1 * (0 : Fin 1).val = (0 : Fin 1).val; omega
  | ⟨1, _⟩ => show win2_3.index t (1 : Fin 2) * 64 + 1 * q.val = q.val; omega

/-- The body's result at entry (p, q) of point t's blocks is the layer at row 5000 t + p, column q. -/
private theorem body_of_blocks (c : Dev nD) (t : Fin cfg2.N) (p : Fin 5000) (q : Fin 64) (r : Fin 50000)
    (hr : r.val = t.val * 5000 + p.val) :
    k2_pay1 (F := Ideal) (iblk2 V c 0 t) (iblk2 V c 1 t) (iblk2 V c 2 t) (iblk2 V c 3 t) (ix2 p q) = wholeLayer V c (ix2 r q) := by
  refine (body_at _ _ _ _ p q).trans ?_
  show _ = linOfAgg _ _ _ _ r q
  unfold linOfAgg
  refine congrArg₂ (· + ·) (Finset.sum_congr rfl fun k _ => ?_) (shift_block V c t q)
  exact congrArg₂ (· * ·) (congrArg₂ (· * ·) (totals_block V c t p k r hr) (scale_block V c t p r hr)) (weights_block V c t k q)

/-- What point t writes back is block t of the layer. -/
private theorem written_back (c : Dev nD) (t : Fin cfg2.N) :
    (dat2 (F := Ideal) V c).flushed 4 t = ((cfg2.win 4).blk t).view.read (Elt Ideal) (wholeLayer V c) := by
  show (cfg2.win 4).cut (grid2.coords t) ((dat2 V c).after 4 t) = _
  rw [after2_4]
  unfold out2_4
  rw [View.canon_unit_zero zero_offsets]
  simp only [View.ld_unit_zero (S := S5000x64) zero_offsets, View.ld_unit_zero (S := S5000x1) zero_offsets,
    View.ld_unit_zero (S := S64x64) zero_offsets, View.ld_unit_zero (S := S1x64) zero_offsets]
  funext y
  have hp : (y 0).val < 5000 := (y 0).isLt
  have hq : (y 1).val < 64 := (y 1).isLt
  have ht : t.val < 10 := t.isLt
  obtain ⟨-, -, -, -, -, -, -, -, e0, e1⟩ := block_positions t
  have hy : (cfg2.win 4).xinj (grid2.coords t) y = ix2 (⟨(y 0).val, hp⟩ : Fin 5000) (⟨(y 1).val, hq⟩ : Fin 64) :=
    funext fun a => by match a with | ⟨0, _⟩ => rfl | ⟨1, _⟩ => rfl
  have hemb : ((cfg2.win 4).blk t).view.emb y
      = ix2 (⟨t.val * 5000 + (y 0).val, by omega⟩ : Fin 50000) (⟨(y 1).val, hq⟩ : Fin 64) := by
    funext a
    apply Fin.ext
    match a with
    | ⟨0, _⟩ => show win2_4.index t (0 : Fin 2) * 5000 + 1 * (y 0).val = t.val * 5000 + (y 0).val; omega
    | ⟨1, _⟩ => show win2_4.index t (1 : Fin 2) * 64 + 1 * (y 1).val = (y 1).val; omega
  show k2_pay1 (F := Ideal) (iblk2 V c 0 t) (iblk2 V c 1 t) (iblk2 V c 2 t) (iblk2 V c 3 t) ((cfg2.win 4).xinj (grid2.coords t) y)
      = wholeLayer V c (((cfg2.win 4).blk t).view.emb y)
  exact (congrArg (k2_pay1 (F := Ideal) (iblk2 V c 0 t) (iblk2 V c 1 t) (iblk2 V c 2 t) (iblk2 V c 3 t)) hy).trans
    ((body_of_blocks V c t _ _ _ rfl).trans (congrArg (wholeLayer V c) hemb).symm)

/-- An index of the array is in point t's block iff each coordinate is in the block's range on its axis. -/
private theorem in_block (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v87).slice (win2_4.rect t)).set ↔ _
  rw [View.set_slice_whole, Rect.mem_set_unit]
  exact Iff.rfl

/-- Row r of the array is in the block of point r / 5000. -/
private theorem rows_covered (idx : S50000x64.Idx) :
    ∃ t : Fin cfg2.N, (cfg2.win 4).flush t = true ∧ idx ∈ ((cfg2.win 4).blk t).view.set := by
  have h0 : (idx 0).val < 50000 := (idx 0).isLt
  have h1 : (idx 1).val < 64 := (idx 1).isLt
  obtain ⟨t, ht⟩ : ∃ t : Fin cfg2.N, t.val = (idx 0).val / 5000 :=
    ⟨⟨(idx 0).val / 5000, by rw [show cfg2.N = 10 from N_2]; omega⟩, rfl⟩
  obtain ⟨-, -, -, -, -, -, -, -, e0, e1⟩ := block_positions t
  refine ⟨t, flush2_4 t, ?_⟩
  rw [in_block]
  intro a
  match a with
  | ⟨0, _⟩ =>
    show win2_4.index t (0 : Fin 2) * 5000 ≤ (idx 0).val ∧ (idx 0).val < win2_4.index t (0 : Fin 2) * 5000 + 5000
    omega
  | ⟨1, _⟩ =>
    show win2_4.index t (1 : Fin 2) * 64 ≤ (idx 1).val ∧ (idx 1).val < win2_4.index t (1 : Fin 2) * 64 + 64
    omega

/-- Entry (i, j) of the region's output array after the run: row i of the row totals scaled by d(i), multiplied by the
    weights and shifted. -/
theorem region2_value (c : Dev nD) (i : Fin 50000) (j : Fin 64) :
    ((dat2 (F := Ideal) V c).arrAt 4 cfg2.N : S50000x64.Idx → EReal) (ix2 i j)
      = linOfAgg (fun i k => (V c main_v84 : S50000x64.Idx → EReal) (ix2 i k))
            (fun i => (V c main_v85 : S50000x1.Idx → EReal) (ix2 i (0 : Fin 1))) (V c main_arg10 : S64x64.Idx → EReal)
            (fun j => (V c main_v86 : S1x64.Idx → EReal) (ix2 (0 : Fin 1) j)) i j := by
  have h := (dat2 (F := Ideal) V c).arrAt_eq_of_cover 4 (wholeLayer V c) (fun t _ => written_back V c t) rows_covered
  exact congrFun h (ix2 i j)

end Cert.KernelIdeal.RegionV

end
-- ==== Proof.LibGather.lean ====
/-
  Two gathers and one scatter read at an index.

  * jnp's `take_along_axis (a, idx[:, None], axis = 1)` over an [R × C] table prints as a gather with the row as a
    batching axis: result row r reads column `idx r` (read signed and clamped into the row) of row r.
  * jnp's `y[idx]` over the rows of an [N × C] array prints as a gather whose one start-index component names the
    row and whose offset axis runs over the columns: result (r, c) reads (row `idx r` clamped, c).
  * jnp's `zeros.at[idx].set(v)` over rows prints as a scatter whose body returns the update: when the row numbers
    `idx r` are in range and pairwise distinct, row `idx r` of the result is row r of the updates, and a row that is
    no `idx r` keeps the operand's.
-/
import Mathlib.Logic.Equiv.Defs
import Mathlib.Tactic.Set
import Idealize.ShloMosaic.Lib.StableHlo.Predicate
import Idealize.ShloMosaic.PureOps.ShapeOps

namespace Cert.LibGather

open Idealize.ShloMosaic Idealize.ShloMosaic.StableHlo.Predicate

/-- Entry (r, 0, 0) of an [R × 1 × 1] array of start indices. -/
abbrev ixR11 {R : Nat} (r : Fin R) : (⟨3, ![R, 1, 1]⟩ : Shape).Idx := fun | ⟨0, _⟩ => r | ⟨1, _⟩ => (0 : Fin 1) | ⟨2, _⟩ => (0 : Fin 1)

/-! ## The two gathers

Both proofs read the operand index one operand axis at a time: it is the clamped start plus the batching coordinate
plus the offset coordinate, and with the dimension numbers literal each of the three is a closed term. -/

/-- TAKE ALONG THE SECOND AXIS: the row is a batching axis of both the table and the start indices, the column the one
    collapsed, start-indexed axis, the index vector on the start indices' last axis. -/
theorem gather_along_cols {α : Type} {R C w : Nat} (d : GatherDims ⟨2, ![R, C]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![R, C]⟩ : Shape).Idx → α) (idx : IVec ⟨3, ![R, 1, 1]⟩ w) (r : Fin R) (hC : 0 < C) :
    Host.gather d x idx (ixP r) = x (ij r ⟨min (idx (ixR11 r)).toInt.toNat (C - 1), by omega⟩) := by
  obtain ⟨od, cd, ob, sb, sm, iv, ss, wf⟩ := d
  simp only at hoff hcoll hob hsb hsim hivd
  subst hoff hcoll hob hsb hsim hivd
  unfold Host.gather
  congr 1
  funext a
  apply Fin.ext
  match a with
  | ⟨0, _⟩ =>
    -- the row: a batching axis, so the start is 0 and there is no offset; the batching coordinate is the
    -- result's coordinate on its batch axis 0, which reads the start indices' axis 0
    show GatherDims.start _ _ _ 0 + GatherDims.batchCoord _ _ 0 + GatherDims.offCoord _ _ 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    -- the column: collapsed (slice size 1, no offset) and not batching; its start is component 0 of the start
    -- index, read at the start-indices index (r, 0, 0) and clamped to [0, C − 1]
    have hsl : ss 1 = 1 := wf.2.2.2.2.2.2.2.2.2.2.2.1 1 (List.mem_singleton.mpr rfl)
    show GatherDims.start _ _ _ 1 + GatherDims.batchCoord _ _ 1 + GatherDims.offCoord _ _ 1 = min _ _
    rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (C - ss 1) = _
    rw [hsl]
    congr 3
    congr 1
    funext b
    apply Fin.ext
    match b with
    | ⟨0, _⟩ => rfl
    | ⟨1, _⟩ => rfl
    | ⟨2, _⟩ => rfl

/-- TAKE OF ROWS: one collapsed, start-indexed row axis; the columns are the offset axis. -/
theorem gather_rows {α : Type} {N R C w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (r : Fin R) (c : Fin C) (hN : 0 < N) :
    Host.gather d x idx (ij r c) = x (ij ⟨min (idx (ixP r)).toInt.toNat (N - 1), by omega⟩ c) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, _⟩ =>
    -- the row: collapsed (slice size 1, no offset), no batching; its start is component 0 of the start index,
    -- read at the start-indices index (r, 0) and clamped to [0, N − 1]
    have hsl : ss 0 = 1 := wf.2.2.2.2.2.2.2.2.2.2.2.1 0 (List.mem_singleton.mpr rfl)
    show GatherDims.start _ _ _ 0 + GatherDims.batchCoord _ _ 0 + GatherDims.offCoord _ _ 0 = min _ _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    -- the column: not in the start index map (start 0), not batching; the offset coordinate is the result's
    -- coordinate on its one offset axis
    show GatherDims.start _ _ _ 1 + GatherDims.batchCoord _ _ 1 + GatherDims.offCoord _ _ 1 = c.val
    rw [GatherDims.batchCoord_eq_zero _ _ _ List.not_mem_nil]
    unfold GatherDims.start
    rw [dif_neg (show (1 : Fin 2) ∉ [(0 : Fin 2)] by decide)]
    simp only [Nat.zero_add]
    rfl

/-! ## A left fold of point writes, read at one cell

The scatter is a left fold, over the update indices in order, of "write `v n` at the cell `g n` names, if it names
one". Read at a cell `i₀`: if no update names `i₀` the fold leaves it; if some update names it and every update that
names it carries the same value, the fold ends with that value there, whatever the order. The step is kept abstract
(any function with the two defining equations), so that the lemmas apply to the fold as the scatter spells it. -/

/-- A left fold of point writes leaves a cell no write names as it was. -/
theorem foldl_set_miss {β ι α : Type} [DecidableEq ι] (g : β → Option ι) (v : β → α)
    (step : (ι → α) → β → ι → α)
    (hsome : ∀ r n i, g n = some i → ∀ i', step r n i' = if i' = i then v n else r i')
    (hnone : ∀ r n, g n = none → step r n = r) (i₀ : ι) :
    ∀ (L : List β) (x : ι → α), (∀ n ∈ L, g n ≠ some i₀) → (L.foldl step x) i₀ = x i₀ := by
  intro L
  induction L with
  | nil => intro x _; rfl
  | cons n L ih =>
    intro x h
    rw [List.foldl_cons, ih _ (fun m hm => h m (List.mem_cons_of_mem _ hm))]
    have hn := h n (List.mem_cons_self ..)
    cases hg : g n with
    | none => rw [hnone x n hg]
    | some i =>
      have hne : i₀ ≠ i := fun e => hn (by rw [hg, e])
      rw [hsome x n i hg, if_neg hne]

/-- A left fold of point writes: a cell that some write names, all of whose writers carry the value `a`, ends at `a`.
    By induction on the list: if a later write names the cell, the induction hypothesis applies to the tail from the
    array after the head's step; if none does, the tail leaves the cell as the head's step made it, and the head is
    then the write that names it. -/
theorem foldl_set_hit {β ι α : Type} [DecidableEq ι] (g : β → Option ι) (v : β → α)
    (step : (ι → α) → β → ι → α)
    (hsome : ∀ r n i, g n = some i → ∀ i', step r n i' = if i' = i then v n else r i')
    (hnone : ∀ r n, g n = none → step r n = r) (i₀ : ι) (a : α) :
    ∀ (L : List β) (x : ι → α), (∃ n ∈ L, g n = some i₀) → (∀ n ∈ L, g n = some i₀ → v n = a) →
      (L.foldl step x) i₀ = a := by
  intro L
  induction L with
  | nil => intro x h; obtain ⟨n, hn, _⟩ := h; cases hn
  | cons n L ih =>
    intro x hex hval
    rw [List.foldl_cons]
    by_cases hL : ∃ m ∈ L, g m = some i₀
    · exact ih _ hL (fun m hm => hval m (List.mem_cons_of_mem _ hm))
    · have hmiss : ∀ m ∈ L, g m ≠ some i₀ := fun m hm e => hL ⟨m, hm, e⟩
      rw [foldl_set_miss g v step hsome hnone i₀ L _ hmiss]
      obtain ⟨m, hm, hgm⟩ := hex
      rcases List.mem_cons.mp hm with rfl | hm'
      · rw [hsome x m i₀ hgm, if_pos rfl]
        exact hval m (List.mem_cons_self ..) hgm
      · exact absurd hgm (hmiss m hm')

/-! ## The scatter of rows -/

/-- Where update (r', c') of a set-of-rows scatter lands: at (row r', c'). On the row axis the start is the scatter
    index of r' (read signed, here the in-range number `row r'`) and the window coordinate 0 (the axis is inserted);
    on the column axis the start is 0 (the map does not name it) and the window coordinate c'. Both are in range. -/
theorem scatter_rows_resultIdx {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1) (idx : IVec ⟨2, ![R, 1]⟩ w)
    (row : Fin R → Fin N) (hrow : ∀ r, (idx (ixP r)).toInt = ((row r).val : Int))
    (j : (⟨2, ![R, C]⟩ : Shape).Idx) :
    d.resultIdx? j idx = some (ij (row (j 0)) (j 1)) := by
  obtain ⟨uw, iw, sd, iv, wf⟩ := d
  simp only at huw hiw hsd hivd
  subst huw hiw hsd hivd
  set d : ScatterDims ⟨2, ![N, C]⟩ ⟨2, ![R, 1]⟩ ⟨2, ![R, C]⟩ :=
    { updateWindowDims := [1], insertedWindowDims := [0], scatterDimsToOperandDims := [0], indexVectorDim := 1, wf := wf } with hd
  have hs0 : d.start j idx 0 = ((row (j 0)).val : Int) := by
    unfold ScatterDims.start
    rw [dif_pos (List.mem_singleton.mpr rfl)]
    refine Eq.trans ?_ (hrow (j 0))
    congr 2
    funext b
    apply Fin.ext
    match b with
    | ⟨0, _⟩ => rfl
    | ⟨1, _⟩ => rfl
  have hw0 : d.window j 0 = 0 := rfl
  have hs1 : d.start j idx 1 = 0 := rfl
  have hw1 : d.window j 1 = (j 1).val := rfl
  have h : ∀ a, 0 ≤ d.start j idx a + d.window j a ∧ d.start j idx a + d.window j a < (⟨2, ![N, C]⟩ : Shape).size a := by
    intro a
    match a with
    | ⟨0, _⟩ =>
      show 0 ≤ d.start j idx 0 + d.window j 0 ∧ d.start j idx 0 + (d.window j 0 : Int) < (N : Int)
      rw [hs0, hw0]
      have := (row (j 0)).isLt
      omega
    | ⟨1, _⟩ =>
      show 0 ≤ d.start j idx 1 + d.window j 1 ∧ d.start j idx 1 + (d.window j 1 : Int) < (C : Int)
      rw [hs1, hw1]
      have : (j 1).val < C := (j 1).isLt
      omega
  unfold ScatterDims.resultIdx?
  rw [dif_pos h]
  congr 1
  funext a
  apply Fin.ext
  match a with
  | ⟨0, _⟩ =>
    show (d.start j idx 0 + (d.window j 0 : Int)).toNat = (row (j 0)).val
    rw [hs0, hw0]; simp
  | ⟨1, _⟩ =>
    show (d.start j idx 1 + (d.window j 1 : Int)).toNat = (j 1).val
    rw [hs1, hw1]; simp

/-- SET OF ROWS at in-range, pairwise distinct row numbers: row `row r` of the result is row r of the updates.
    Update (r, c) lands on (row r, c); an update (r', c') that lands there has row r' = row r and c' = c, so it is
    update (r, c) itself since `row` is injective: every writer of the cell carries `upd (r, c)`. -/
theorem scatter_rows_hit {α : Type} {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (x : (⟨2, ![N, C]⟩ : Shape).Idx → α) (idx : IVec ⟨2, ![R, 1]⟩ w) (upd : (⟨2, ![R, C]⟩ : Shape).Idx → α)
    (row : Fin R → Fin N) (hrow : ∀ r, (idx (ixP r)).toInt = ((row r).val : Int)) (hinj : Function.Injective row)
    (r : Fin R) (c : Fin C) :
    Host.scatter d (fun _ b => b) x idx upd (ij (row r) c) = upd (ij r c) := by
  have hres := scatter_rows_resultIdx d huw hiw hsd hivd idx row hrow
  unfold Host.scatter
  refine foldl_set_hit (fun n => d.resultIdx? ((⟨2, ![R, C]⟩ : Shape).rowMajor.symm n) idx)
    (fun n => upd ((⟨2, ![R, C]⟩ : Shape).rowMajor.symm n)) _ ?_ ?_ (ij (row r) c) (upd (ij r c)) _ x ?_ ?_
  · intro r n i h i'
    simp only [h]
  · intro r n h
    simp only [h]
  · refine ⟨(⟨2, ![R, C]⟩ : Shape).rowMajor (ij r c), List.mem_finRange _, ?_⟩
    show d.resultIdx? ((⟨2, ![R, C]⟩ : Shape).rowMajor.symm ((⟨2, ![R, C]⟩ : Shape).rowMajor (ij r c))) idx = _
    rw [Equiv.symm_apply_apply, hres]
    rfl
  · intro n _ hn
    show upd ((⟨2, ![R, C]⟩ : Shape).rowMajor.symm n) = upd (ij r c)
    have hn' : d.resultIdx? ((⟨2, ![R, C]⟩ : Shape).rowMajor.symm n) idx = some (ij (row r) c) := hn
    rw [hres] at hn'
    have he := Option.some.inj hn'
    have h0 : row (((⟨2, ![R, C]⟩ : Shape).rowMajor.symm n) 0) = row r := congrFun he 0
    have h1 : ((⟨2, ![R, C]⟩ : Shape).rowMajor.symm n) 1 = c := congrFun he 1
    rw [← ij_eta ((⟨2, ![R, C]⟩ : Shape).rowMajor.symm n)]
    congr 2
    exact hinj h0

/-- SET OF ROWS, a row no update names: it keeps the operand's. (Injectivity of `row` is not needed here.) -/
theorem scatter_rows_miss {α : Type} {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (x : (⟨2, ![N, C]⟩ : Shape).Idx → α) (idx : IVec ⟨2, ![R, 1]⟩ w) (upd : (⟨2, ![R, C]⟩ : Shape).Idx → α)
    (row : Fin R → Fin N) (hrow : ∀ r, (idx (ixP r)).toInt = ((row r).val : Int))
    (ρ : Fin N) (hρ : ∀ r, row r ≠ ρ) (c : Fin C) :
    Host.scatter d (fun _ b => b) x idx upd (ij ρ c) = x (ij ρ c) := by
  have hres := scatter_rows_resultIdx d huw hiw hsd hivd idx row hrow
  unfold Host.scatter
  refine foldl_set_miss (fun n => d.resultIdx? ((⟨2, ![R, C]⟩ : Shape).rowMajor.symm n) idx)
    (fun n => upd ((⟨2, ![R, C]⟩ : Shape).rowMajor.symm n)) _ ?_ ?_ (ij ρ c) _ x ?_
  · intro r n i h i'
    simp only [h]
  · intro r n h
    simp only [h]
  · intro n _ hn
    have hn' : d.resultIdx? ((⟨2, ![R, C]⟩ : Shape).rowMajor.symm n) idx = some (ij ρ c) := hn
    rw [hres] at hn'
    exact hρ _ (congrFun (Option.some.inj hn') 0)

end Cert.LibGather
-- ==== Proof.LibScatter.lean ====
/-
  Where the updates of a sum-into-rows scatter land.

  jnp's `zeros.at[idx].add(v)` over rows (a segment sum) prints as a scatter whose one scatter-index component names the
  row and whose window axis runs over the columns. The index is read signed and is not clamped: update (r, c') lands on
  (i, c) exactly when the signed value of row r's index is i and c' = c; an index that is no row number drops the update.
-/
import Idealize.ShloMosaic.Lib.StableHlo.Predicate
import Idealize.ShloMosaic.Lib.ValueIdx
import Idealize.ShloMosaic.PureOps.ShapeOps
import Mathlib.Tactic.Set

namespace Cert.LibScatter

open Idealize.ShloMosaic Idealize.ShloMosaic.ValueIdx

/-- The one-axis index built from a position is the library's. -/
theorem ofFin_eq_ix1 {n : Nat} (p : Fin n) : (Shape.Idx.ofFin p : (⟨1, ![n]⟩ : Shape).Idx) = ix1 p := by
  funext a
  match a with
  | ⟨0, _⟩ => exact Fin.ext rfl

/-- The two-axis index built from two positions is the library's. -/
theorem ij_eq_ix2 {n q : Nat} (a : Fin n) (b : Fin q) : StableHlo.Predicate.ij a b = ix2 a b := by
  funext x
  match x with
  | ⟨0, _⟩ => rfl
  | ⟨1, _⟩ => rfl

open StableHlo.Predicate in
/-- Where update (r, c') of a sum-into-rows scatter lands: at (the signed value of the scatter index of r, c') when that value
    is a row number, nowhere otherwise. On the row axis the start is the scatter index read signed and the window coordinate
    0 (the axis is inserted); on the column axis the start is 0 (the map does not name it) and the window coordinate c'. -/
theorem scatter_rows_resultIdx_iff {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1) (idx : IVec ⟨2, ![R, 1]⟩ w)
    (r : Fin R) (c' : Fin C) (i : Fin N) (c : Fin C) :
    d.resultIdx? (ix2 r c') idx = some (ix2 i c) ↔ (idx (ixP r)).toInt = (i.val : Int) ∧ c' = c := by
  obtain ⟨uw, iw, sd, iv, wf⟩ := d
  simp only at huw hiw hsd hivd
  subst huw hiw hsd hivd
  set d : ScatterDims ⟨2, ![N, C]⟩ ⟨2, ![R, 1]⟩ ⟨2, ![R, C]⟩ :=
    { updateWindowDims := [1], insertedWindowDims := [0], scatterDimsToOperandDims := [0], indexVectorDim := 1, wf := wf } with hd
  have hs0 : d.start (ix2 r c') idx 0 = (idx (ixP r)).toInt := by
    unfold ScatterDims.start
    rw [dif_pos (List.mem_singleton.mpr rfl)]
    congr 2
    funext b
    apply Fin.ext
    match b with
    | ⟨0, _⟩ => rfl
    | ⟨1, _⟩ => rfl
  have hw0 : d.window (ix2 r c') 0 = 0 := rfl
  have hs1 : d.start (ix2 r c') idx 1 = 0 := rfl
  have hw1 : d.window (ix2 r c') 1 = c'.val := rfl
  have hi := i.isLt
  have hc' := c'.isLt
  unfold ScatterDims.resultIdx?
  split
  · next h =>
    have h0 : 0 ≤ d.start (ix2 r c') idx 0 + (d.window (ix2 r c') 0 : Int)
        ∧ d.start (ix2 r c') idx 0 + (d.window (ix2 r c') 0 : Int) < (N : Int) := h 0
    rw [hs0, hw0] at h0
    constructor
    · intro e
      have e' := Option.some.inj e
      have e0 : (d.start (ix2 r c') idx 0 + (d.window (ix2 r c') 0 : Int)).toNat = i.val := congrArg Fin.val (congrFun e' 0)
      have e1 : (d.start (ix2 r c') idx 1 + (d.window (ix2 r c') 1 : Int)).toNat = c.val := congrArg Fin.val (congrFun e' 1)
      rw [hs0, hw0] at e0
      rw [hs1, hw1] at e1
      exact ⟨by omega, Fin.ext (by omega)⟩
    · rintro ⟨e0, e1⟩
      refine congrArg some (funext fun a => Fin.ext ?_)
      match a with
      | ⟨0, _⟩ =>
        show (d.start (ix2 r c') idx 0 + (d.window (ix2 r c') 0 : Int)).toNat = i.val
        rw [hs0, hw0, e0]; omega
      | ⟨1, _⟩ =>
        show (d.start (ix2 r c') idx 1 + (d.window (ix2 r c') 1 : Int)).toNat = c.val
        rw [hs1, hw1, ← e1]; omega
  · next h =>
    constructor
    · intro e; cases e
    · rintro ⟨e0, e1⟩
      refine absurd (fun a => ?_) h
      match a with
      | ⟨0, _⟩ =>
        show 0 ≤ d.start (ix2 r c') idx 0 + (d.window (ix2 r c') 0 : Int)
          ∧ d.start (ix2 r c') idx 0 + (d.window (ix2 r c') 0 : Int) < (N : Int)
        rw [hs0, hw0, e0]; omega
      | ⟨1, _⟩ =>
        show 0 ≤ d.start (ix2 r c') idx 1 + (d.window (ix2 r c') 1 : Int)
          ∧ d.start (ix2 r c') idx 1 + (d.window (ix2 r c') 1 : Int) < (C : Int)
        rw [hs1, hw1]; omega

end Cert.LibScatter
-- ==== Proof.KLayer.lean ====
/-
  One layer's host operations in the kernel program — normalise the source words, gather the source rows and the sources' inverse square-root degrees, multiply, and add into the target rows — read at an index over any features, degrees and edge words.
-/
import proofs.«413777_j75746043232585_3_alg».proof.Proof.Gen.KernelIdeal.Frame
import proofs.«413777_j75746043232585_3_alg».proof.Proof.Spec
import proofs.«413777_j75746043232585_3_alg».proof.Proof.LibGather
import proofs.«413777_j75746043232585_3_alg».proof.Proof.LibScatter
import Idealize.ShloMosaic.Lib.StableHlo.Predicate
import Idealize.ShloMosaic.Lib.ValueLayout
import Idealize.ShloMosaic.Lib.IdealHost

set_option maxRecDepth 16384

noncomputable section

namespace Cert.KernelIdeal.HostV

open Idealize.ShloMosaic Idealize.ShloMosaic.TcCoe Idealize.ShloMosaic.ValueIdx Idealize.SL.Sem Cert.KernelIdeal Cert.KernelIdeal.Gen Cert.GCN
open Cert.LibScatter

/-! ## One layer's row totals, read at an index

Over any node features h, inverse square roots d, source words and target words, the host operations of one layer are:
normalise the source words (add 50000 to a negative one), take row `src e` of h and entry `src e` of d for every edge e (both
reads clamp the word into the rows), multiply, and add the products into the rows the target words name, starting from zero.
An edge's product lands in row i exactly when its target word's signed value is i (a word out of range lands nowhere), and in
the column it came from: so entry (i, k) of the result is zero plus the sum, over the edges into i, of h (src e, k) · d (src e). -/

/-- The source words with 50000 added to the negative ones, as the program computes them. -/
def sNrm (src : S850000.Idx → BitVec 32) : S850000.Idx → BitVec 32 :=
  select (cmpi .slt src (broadcastInDim S850000 ![] Facts₀.bcast_S_S850000 (constantI S_ 32 0#32)))
    (addi src (broadcastInDim S850000 ![] Facts₀.bcast_S_S850000 (constantI S_ 32 50000#32))) src

theorem sNrm_apply (src : S850000.Idx → BitVec 32) (e : S850000.Idx) : sNrm src e = nrmW (src e) := by
  show Scalar.select (BitVec.ofBool ((src e).slt 0#32)) (src e + 50000#32) (src e)
    = if (src e).slt 0#32 then src e + 50000#32 else src e
  cases (src e).slt 0#32
  · rw [show BitVec.ofBool false = 0#1 from rfl, select_zero, if_neg Bool.false_ne_true]
  · rw [show BitVec.ofBool true = 1#1 from rfl, select_one, if_pos rfl]

/-- One layer's host operations, over any features, inverse square roots and edge words. -/
def layerT (h : S50000x64.Idx → EReal) (dinv : S50000.Idx → EReal) (src dst : S850000.Idx → BitVec 32) :
    S50000x64.Idx → EReal :=
  Host.scatterAdd (F := Ideal) (φ := .f32) scatter_S50000x64_S850000x1_S850000x64_1_0_0_1
    (broadcastInDim S50000x64 ![] Facts₀.bcast_S_S50000x64 (constant (F := Ideal) S_ .f32 0x00000000#32))
    (broadcastInDim S850000x1 ![0] Facts₀.bcast_S850000_S850000x1_0 dst)
    (mulf (F := Ideal) (φ := .f32)
      (Host.gather gather_S50000x64_S850000x1_S850000x64_1_0_n_n_0_1_164 h
        (broadcastInDim S850000x1 ![0] Facts₀.bcast_S850000_S850000x1_0 (sNrm src)))
      (broadcastInDim S850000x64 ![0, 1] Facts₀.bcast_S850000x1_S850000x64_0_1
        (broadcastInDim S850000x1 ![0] Facts₀.bcast_S850000_S850000x1_0
          (Host.gather gather_S50000_S850000x1_S850000_n_0_n_n_0_1_1 dinv
            (broadcastInDim S850000x1 ![0] Facts₀.bcast_S850000_S850000x1_0 (sNrm src))))))

open StableHlo.Predicate in
/-- A vector of words as a column reads, at row e, the vector at e. -/
theorem col_apply {α : Type} (v : S850000.Idx → α) (e : Fin 850000) :
    broadcastInDim S850000x1 ![0] Facts₀.bcast_S850000_S850000x1_0 v (ixP e) = v (ix1 e) :=
  (bcast_col1 _ v e).trans (congrArg v (ofFin_eq_ix1 e))

open StableHlo.Predicate in
/-- Reading the row numbered by the word's signed value, a negative value counted as 0 and a value past 49999 as 49999, is
    reading the row the word names. -/
theorem clamp_row (h : S50000x64.Idx → EReal) (dinv : S50000.Idx → EReal) (w w' : BitVec 32) (hw : w = w') (k : Fin 64)
    (p₁ p₂ : min w.toInt.toNat (50000 - 1) < 50000) :
    h (ij ⟨min w.toInt.toNat (50000 - 1), p₁⟩ k) * dinv (Shape.Idx.ofFin ⟨min w.toInt.toNat (50000 - 1), p₂⟩)
      = h (ix2 (row w') k) * dinv (ix1 (row w')) := by
  subst hw
  rw [ij_eq_ix2, ofFin_eq_ix1]
  rfl

open StableHlo.Predicate in
/-- The product an edge contributes at column k: the row its source word names, times the source's inverse square root. -/
theorem msg_apply (h : S50000x64.Idx → EReal) (dinv : S50000.Idx → EReal) (src : S850000.Idx → BitVec 32)
    (e : Fin 850000) (k : Fin 64) :
    mulf (F := Ideal) (φ := .f32)
      (Host.gather gather_S50000x64_S850000x1_S850000x64_1_0_n_n_0_1_164 h
        (broadcastInDim S850000x1 ![0] Facts₀.bcast_S850000_S850000x1_0 (sNrm src)))
      (broadcastInDim S850000x64 ![0, 1] Facts₀.bcast_S850000x1_S850000x64_0_1
        (broadcastInDim S850000x1 ![0] Facts₀.bcast_S850000_S850000x1_0
          (Host.gather gather_S50000_S850000x1_S850000_n_0_n_n_0_1_1 dinv
            (broadcastInDim S850000x1 ![0] Facts₀.bcast_S850000_S850000x1_0 (sNrm src))))) (ix2 e k)
      = h (ix2 (row (nrmW (src (ix1 e)))) k) * dinv (ix1 (row (nrmW (src (ix1 e))))) := by
  rw [mulf_apply, ← ij_eq_ix2 e k, bcast_rows,
    Cert.LibGather.gather_rows gather_S50000x64_S850000x1_S850000x64_1_0_n_n_0_1_164 rfl rfl rfl rfl rfl h _ e k (by decide),
    gather_take gather_S50000_S850000x1_S850000_n_0_n_n_0_1_1 rfl rfl rfl rfl dinv _ e (by decide)]
  exact clamp_row h dinv _ _ ((col_apply _ e).trans (sNrm_apply _ _)) k _ _

open StableHlo.Predicate in
/-- The row totals of one layer at (i, k): an edge's product lands in row i exactly when its target word names i, in the column
    it came from; the edges into i, each at column k, are therefore all the updates that land on (i, k). -/
theorem layerT_apply (h : S50000x64.Idx → EReal) (dinv : S50000.Idx → EReal) (src dst : S850000.Idx → BitVec 32)
    (i : Fin 50000) (k : Fin 64) :
    layerT h dinv src dst (ix2 i k) = aggK h dinv (fun e => nrmW (src e)) dst i k := by
  have hmem : ∀ (r : Fin 850000) (c' : Fin 64),
      (scatter_S50000x64_S850000x1_S850000x64_1_0_0_1.resultIdx? (ix2 r c')
          (broadcastInDim S850000x1 ![0] Facts₀.bcast_S850000_S850000x1_0 dst) = some (ix2 i k))
        ↔ (dst (ix1 r)).toInt = (i.val : Int) ∧ c' = k := fun r c' => by
    rw [scatter_rows_resultIdx_iff scatter_S50000x64_S850000x1_S850000x64_1_0_0_1 rfl rfl rfl rfl, col_apply]
  unfold layerT aggK
  rw [show ∀ (x : S50000x64.Idx → EReal) (idx : IVec S850000x1 32) (upd : S850000x64.Idx → EReal),
      Host.scatterAdd (F := Ideal) (φ := .f32) scatter_S50000x64_S850000x1_S850000x64_1_0_0_1 x idx upd
        = Ideal.hostScatterAdd scatter_S50000x64_S850000x1_S850000x64_1_0_0_1 x idx upd from fun _ _ _ => rfl]
  unfold Ideal.hostScatterAdd
  refine congrArg₂ (fun a b : EReal => a + b) ?_ ?_
  · rw [bcast_scalar _ (by decide)]
    exact Ideal.ofBits_zero_f32
  · refine (Finset.sum_nbij' (fun e : Fin 850000 => (ix2 e k : S850000x64.Idx)) (fun j : S850000x64.Idx => (j 0 : Fin 850000))
      ?_ ?_ ?_ ?_ ?_).symm
    · intro e he
      exact Finset.mem_filter.mpr ⟨Finset.mem_univ _, (hmem e k).mpr ⟨(Finset.mem_filter.mp he).2, rfl⟩⟩
    · intro j hj
      obtain ⟨r, c', rfl⟩ : ∃ (r : Fin 850000) (c' : Fin 64), j = ix2 r c' := ⟨j 0, j 1, eq_ix2 j⟩
      exact Finset.mem_filter.mpr ⟨Finset.mem_univ _, ((hmem r c').mp (Finset.mem_filter.mp hj).2).1⟩
    · intro e _
      rfl
    · intro j hj
      obtain ⟨r, c', rfl⟩ : ∃ (r : Fin 850000) (c' : Fin 64), j = ix2 r c' := ⟨j 0, j 1, eq_ix2 j⟩
      have h1 : c' = k := ((hmem r c').mp (Finset.mem_filter.mp hj).2).2
      subst h1
      rfl
    · intro e _
      exact (msg_apply h dinv src e k).symm

end Cert.KernelIdeal.HostV

end
-- ==== Proof.KHost0.lean ====
/-
  The arrays the host operations before the first region leave: the degrees' inverse square roots, the first row totals, and the reshaped parameters.
-/
import proofs.«413777_j75746043232585_3_alg».proof.Proof.Gen.KernelIdeal.Frame
import proofs.«413777_j75746043232585_3_alg».proof.Proof.Spec
import proofs.«413777_j75746043232585_3_alg».proof.Proof.KLayer
import Idealize.ShloMosaic.Lib.StableHlo.Run
import Idealize.ShloMosaic.Lib.StableHlo.Predicate
import Idealize.ShloMosaic.Lib.ValueLayout
import Mathlib.Data.Fintype.Basic
import Mathlib.Data.Finset.Card

set_option maxRecDepth 16384

noncomputable section

namespace Cert.KernelIdeal.HostV

open Idealize.ShloMosaic Idealize.ShloMosaic.TcCoe Idealize.ShloMosaic.ValueIdx Idealize.SL.Sem Cert.KernelIdeal Cert.KernelIdeal.Gen Cert.GCN
open Idealize.ShloMosaic.StableHlo.Predicate

/-! ## A left fold of increments, read at one cell -/

/-- A left fold of "add one at the cell g n names, if it names one" leaves at a cell its start value plus the number
    of steps that name it. By induction on the list, the start value general. -/
private theorem foldl_count {β ι : Type} [DecidableEq ι] (g : β → Option ι)
    (step : (ι → BitVec 32) → β → ι → BitVec 32)
    (hsome : ∀ r n i, g n = some i → ∀ i', step r n i' = if i' = i then r i + 1#32 else r i')
    (hnone : ∀ r n, g n = none → step r n = r) (i₀ : ι) :
    ∀ (L : List β) (x : ι → BitVec 32),
      (L.foldl step x) i₀ = x i₀ + BitVec.ofNat 32 (L.countP fun n => decide (g n = some i₀)) := by
  intro L
  induction L with
  | nil => intro x; simp
  | cons n L ih =>
    intro x
    rw [List.foldl_cons, ih]
    cases hg : g n with
    | none =>
      rw [hnone x n hg, List.countP_cons_of_neg (by simp [hg])]
    | some i =>
      by_cases hi : i₀ = i
      · subst hi
        rw [hsome x n i₀ hg, if_pos rfl, List.countP_cons_of_pos (by simp [hg]), BitVec.ofNat_add,
          BitVec.add_assoc, BitVec.add_comm 1#32]
      · have hne : ¬ (some i = some i₀) := fun e => hi (Option.some.inj e).symm
        rw [hsome x n i hg, if_neg hi, List.countP_cons_of_neg (by simp [hg, hne])]

/-- Counting over all of 0 … N − 1 in order is the size of the set. -/
private theorem countP_finRange (N : Nat) (p : Fin N → Bool) :
    (List.finRange N).countP p = (Finset.univ.filter fun n => p n = true).card := by
  rw [List.countP_eq_length_filter, ← List.toFinset_card_of_nodup ((List.nodup_finRange N).filter _),
    List.toFinset_filter, List.toFinset_finRange]

/-! ## Where an update lands -/

/-- A scatter into a vector, one start-index component, the vector's axis inserted: update j lands on cell i exactly
    when its start index, read signed, is i. The start is not clamped: out of range it lands nowhere. -/
private theorem scatter_vec_resultIdx_iff {N R w : Nat} (d : ScatterDims ⟨1, ![N]⟩ ⟨2, ![R, 1]⟩ ⟨1, ![R]⟩)
    (huw : d.updateWindowDims = []) (hiw : d.insertedWindowDims = [0]) (hsd : d.scatterDimsToOperandDims = [0])
    (hivd : d.indexVectorDim = 1) (idx : IVec ⟨2, ![R, 1]⟩ w) (j : (⟨1, ![R]⟩ : Shape).Idx) (i : Fin N) :
    d.resultIdx? j idx = some (ix1 i) ↔ (idx (ixP (j 0))).toInt = (i.val : Int) := by
  obtain ⟨uw, iw, sd, iv, wf⟩ := d
  simp only at huw hiw hsd hivd
  subst huw hiw hsd hivd
  set d : ScatterDims ⟨1, ![N]⟩ ⟨2, ![R, 1]⟩ ⟨1, ![R]⟩ :=
    { updateWindowDims := [], insertedWindowDims := [0], scatterDimsToOperandDims := [0], indexVectorDim := 1, wf := wf } with hd
  have hs0 : d.start j idx 0 = (idx (ixP (j 0))).toInt := by
    unfold ScatterDims.start
    rw [dif_pos (List.mem_singleton.mpr rfl)]
    congr 2
    funext b
    apply Fin.ext
    match b with
    | ⟨0, _⟩ => rfl
    | ⟨1, _⟩ => rfl
  have hw0 : d.window j 0 = 0 := rfl
  have hi := i.isLt
  unfold ScatterDims.resultIdx?
  split
  · next h =>
    have h0 := h 0
    rw [hs0, hw0] at h0
    constructor
    · intro e
      have e0 : (d.start j idx 0 + (d.window j 0 : Int)).toNat = i.val :=
        congrArg Fin.val (congrFun (Option.some.inj e) 0)
      rw [hs0, hw0] at e0
      omega
    · intro e
      congr 1
      funext a
      apply Fin.ext
      match a with
      | ⟨0, _⟩ =>
        show (d.start j idx 0 + (d.window j 0 : Int)).toNat = i.val
        rw [hs0, hw0, e]; simp
  · next h =>
    constructor
    · intro e; cases e
    · intro e
      exfalso
      apply h
      intro a
      match a with
      | ⟨0, _⟩ =>
        show 0 ≤ d.start j idx 0 + d.window j 0 ∧ d.start j idx 0 + (d.window j 0 : Int) < (N : Int)
        rw [hs0, hw0, e]
        omega

/-! ## The degree count -/

/-- A scatter of ones with an integer add into a vector: cell i ends at its start value plus the number of updates
    whose start index, read signed, is i. -/
private theorem scatter_ones_apply {N R w : Nat} (d : ScatterDims ⟨1, ![N]⟩ ⟨2, ![R, 1]⟩ ⟨1, ![R]⟩)
    (huw : d.updateWindowDims = []) (hiw : d.insertedWindowDims = [0]) (hsd : d.scatterDimsToOperandDims = [0])
    (hivd : d.indexVectorDim = 1) (x : (⟨1, ![N]⟩ : Shape).Idx → BitVec 32) (idx : IVec ⟨2, ![R, 1]⟩ w)
    (upd : (⟨1, ![R]⟩ : Shape).Idx → BitVec 32) (hupd : ∀ j, upd j = 1#32) (i : Fin N) :
    Host.scatter d IntOp.addi x idx upd (ix1 i)
      = x (ix1 i) + BitVec.ofNat 32 (Finset.univ.filter fun e : Fin R => (idx (ixP e)).toInt = (i.val : Int)).card := by
  have hres := scatter_vec_resultIdx_iff d huw hiw hsd hivd idx
  unfold Host.scatter
  rw [foldl_count (fun n => d.resultIdx? ((⟨1, ![R]⟩ : Shape).rowMajor.symm n) idx) _ ?_ ?_ (ix1 i) _ x]
  · congr 2
    rw [countP_finRange]
    refine Finset.card_bij' (fun n _ => (((⟨1, ![R]⟩ : Shape).rowMajor.symm n) 0 : Fin R))
      (fun e _ => (⟨1, ![R]⟩ : Shape).rowMajor (ix1 e)) ?_ ?_ ?_ ?_
    · intro n hn
      have hn' := of_decide_eq_true (Finset.mem_filter.mp hn).2
      exact Finset.mem_filter.mpr ⟨Finset.mem_univ _, (hres _ i).mp hn'⟩
    · intro e he
      refine Finset.mem_filter.mpr ⟨Finset.mem_univ _, decide_eq_true ?_⟩
      show d.resultIdx? ((⟨1, ![R]⟩ : Shape).rowMajor.symm ((⟨1, ![R]⟩ : Shape).rowMajor (ix1 e))) idx = some (ix1 i)
      rw [Equiv.symm_apply_apply]
      exact (hres _ i).mpr (Finset.mem_filter.mp he).2
    · intro n _
      exact (congrArg _ (eq_ix1 ((⟨1, ![R]⟩ : Shape).rowMajor.symm n)).symm).trans (Equiv.apply_symm_apply _ n)
    · intro e _
      show ((⟨1, ![R]⟩ : Shape).rowMajor.symm ((⟨1, ![R]⟩ : Shape).rowMajor (ix1 e))) 0 = e
      rw [Equiv.symm_apply_apply]
      rfl
  · intro r n i' h i''
    simp only [h, hupd]
    rfl
  · intro r n h
    simp only [h]

/-- A count of at most 850000 things, held in a 32-bit word and read signed, is the count. -/
private theorem toInt_card {ι : Type} [Fintype ι] (hι : Fintype.card ι = 850000) (S : Finset ι) :
    (BitVec.ofNat 32 S.card).toInt = (S.card : Int) := by
  refine toInt_ofNat_small _ ?_
  have := Finset.card_le_univ S
  rw [hι] at this
  omega

/-- An `[a]` array cast to `[a, 1]` reads, at `(i, u)`, the operand at `i`: both have row-major position i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The edges into row i, read off the column of target words. -/
private theorem into_bcast (dst : S850000.Idx → BitVec 32) (i : Fin 50000) :
    (Finset.univ.filter fun e : Fin 850000 =>
        ((broadcastInDim S850000x1 ![0] Facts₀.bcast_S850000_S850000x1_0 dst) (ixP e)).toInt = (i.val : Int)) = into dst i := by
  unfold into
  refine Finset.filter_congr fun e _ => ?_
  rw [col_apply]

/-- The degrees counted in integers, converted, clipped below at one, and their inverse square roots taken. -/
private theorem dinv_apply (dst : S850000.Idx → BitVec 32) (idx : S50000.Idx) :
    (Host.rsqrt (maximumf
          (sitofp .f32 (Host.scatter scatter_S50000_S850000x1_S850000_n_0_0_1 IntOp.addi
            (broadcastInDim S50000 ![] Facts₀.bcast_S_S50000 (constantI S_ 32 0#32))
            (broadcastInDim S850000x1 ![0] Facts₀.bcast_S850000_S850000x1_0 dst)
            (broadcastInDim S850000 ![] Facts₀.bcast_S_S850000 (constantI S_ 32 1#32))))
          (broadcastInDim S50000 ![] Facts₀.bcast_S_S50000 (constant (F := Ideal) S_ .f32 0x3F800000#32))) : S50000.Idx → EReal) idx
      = dinvSpec dst idx := by
  obtain ⟨i, rfl⟩ : ∃ i : Fin 50000, idx = ix1 i := ⟨idx 0, eq_ix1 idx⟩
  show Ideal.rsqrt (max ((((Host.scatter scatter_S50000_S850000x1_S850000_n_0_0_1 IntOp.addi
            (broadcastInDim S50000 ![] Facts₀.bcast_S_S50000 (constantI S_ 32 0#32))
            (broadcastInDim S850000x1 ![0] Facts₀.bcast_S850000_S850000x1_0 dst)
            (broadcastInDim S850000 ![] Facts₀.bcast_S_S850000 (constantI S_ 32 1#32))) (ix1 i)).toInt : ℝ) : EReal) c1)
      = Ideal.rsqrt (max (((into dst i).card : ℝ) : EReal) c1)
  have hsc := scatter_ones_apply scatter_S50000_S850000x1_S850000_n_0_0_1 rfl rfl rfl rfl
      (broadcastInDim S50000 ![] Facts₀.bcast_S_S50000 (constantI S_ 32 0#32))
      (broadcastInDim S850000x1 ![0] Facts₀.bcast_S850000_S850000x1_0 dst)
      (broadcastInDim S850000 ![] Facts₀.bcast_S_S850000 (constantI S_ 32 1#32)) (fun _ => rfl) i
  rw [hsc, into_bcast,
    show (broadcastInDim S50000 ![] Facts₀.bcast_S_S50000 (constantI S_ 32 0#32)) (ix1 i) = 0#32 from rfl,
    BitVec.zero_add, toInt_card (ι := Fin 850000) (Fintype.card_fin 850000), Int.cast_natCast]

variable (m : (ℓ : Loc nD τ sig) → Buf (Elt Ideal) ℓ) (ρ : Dev nD → PrngReg)

/-- The edges' source words and target words as the program lays them out (the given edges, then one loop per node). -/
abbrev SRC (c : Dev nD) : S850000.Idx → BitVec 32 := V1 (F := Ideal) m ρ c main_v3
abbrev DST (c : Dev nD) : S850000.Idx → BitVec 32 := V1 (F := Ideal) m ρ c main_v6
/-- The source words with 50000 added to the negative ones. -/
def SNRM (c : Dev nD) : SE.Idx → BitVec 32 := fun e => nrmW (SRC m ρ c e)

set_option maxHeartbeats 1000000 in
/-- What the host operations leave in the buffer of the inverse square roots, over the target words. -/
private theorem V1_v14_chain (c : Dev nD) :
    (V1 (F := Ideal) m ρ c main_v14 : S50000.Idx → EReal)
      = Host.rsqrt (maximumf
          (sitofp .f32 (Host.scatter scatter_S50000_S850000x1_S850000_n_0_0_1 IntOp.addi
            (broadcastInDim S50000 ![] Facts₀.bcast_S_S50000 (constantI S_ 32 0#32))
            (broadcastInDim S850000x1 ![0] Facts₀.bcast_S850000_S850000x1_0 (DST m ρ c))
            (broadcastInDim S850000 ![] Facts₀.bcast_S_S850000 (constantI S_ 32 1#32))))
          (broadcastInDim S50000 ![] Facts₀.bcast_S_S50000 (constant (F := Ideal) S_ .f32 0x3F800000#32))) := by
  show StableHlo.after hostOps0 (W0 m ρ c) (Proc.devRef .tc main_v14)
      = Host.rsqrt (maximumf
          (sitofp .f32 (Host.scatter scatter_S50000_S850000x1_S850000_n_0_0_1 IntOp.addi
            (broadcastInDim S50000 ![] Facts₀.bcast_S_S50000 (constantI S_ 32 0#32))
            (broadcastInDim S850000x1 ![0] Facts₀.bcast_S850000_S850000x1_0 (StableHlo.after hostOps0 (W0 m ρ c) (Proc.devRef .tc main_v6)))
            (broadcastInDim S850000 ![] Facts₀.bcast_S_S850000 (constantI S_ 32 1#32))))
          (broadcastInDim S50000 ![] Facts₀.bcast_S_S50000 (constant (F := Ideal) S_ .f32 0x3F800000#32)))
  after_results_simp
  all_goals rfl

set_option maxHeartbeats 4000000 in
/-- What they leave in the buffer of the first row totals: one layer's host term over the launched features, the inverse square
    roots and the edge words. -/
private theorem V1_v34_chain (c : Dev nD) :
    (V1 (F := Ideal) m ρ c main_v34 : S50000x64.Idx → EReal)
      = layerT (m ((c : Thread nD τ).loc main_arg0)) (V1 (F := Ideal) m ρ c main_v14) (SRC m ρ c) (DST m ρ c) := by
  show StableHlo.after hostOps0 (W0 m ρ c) (Proc.devRef .tc main_v34)
      = layerT (W0 m ρ c (Proc.devRef .tc main_arg0)) (StableHlo.after hostOps0 (W0 m ρ c) (Proc.devRef .tc main_v14))
          (StableHlo.after hostOps0 (W0 m ρ c) (Proc.devRef .tc main_v3)) (StableHlo.after hostOps0 (W0 m ρ c) (Proc.devRef .tc main_v6))
  unfold layerT sNrm
  after_results_simp
  all_goals rfl

set_option maxHeartbeats 1000000 in
/-- The column of inverse square roots is their vector, reshaped. -/
private theorem V1_v35_chain (c : Dev nD) :
    (V1 (F := Ideal) m ρ c main_v35 : S50000x1.Idx → EReal)
      = shapeCast S50000x1 (V1 (F := Ideal) m ρ c main_v14 : S50000.Idx → EReal) Facts₀.shapeCasts_S50000_S50000x1 := by
  show StableHlo.after hostOps0 (W0 m ρ c) (Proc.devRef .tc main_v35)
      = shapeCast S50000x1 (StableHlo.after hostOps0 (W0 m ρ c) (Proc.devRef .tc main_v14)) Facts₀.shapeCasts_S50000_S50000x1
  after_results_simp
  all_goals rfl

set_option maxHeartbeats 1000000 in
/-- Each parameter row is its vector, reshaped. -/
private theorem V1_v36_chain (c : Dev nD) :
    (V1 (F := Ideal) m ρ c main_v36 : S1x64.Idx → EReal)
      = shapeCast S1x64 (m ((c : Thread nD τ).loc main_arg3) : S64.Idx → EReal) Facts₀.shapeCasts_S64_S1x64 := by
  show StableHlo.after hostOps0 (W0 m ρ c) (Proc.devRef .tc main_v36) = _
  after_results
  all_goals rfl

set_option maxHeartbeats 1000000 in
private theorem V1_v37_chain (c : Dev nD) :
    (V1 (F := Ideal) m ρ c main_v37 : S1x64.Idx → EReal)
      = shapeCast S1x64 (m ((c : Thread nD τ).loc main_arg4) : S64.Idx → EReal) Facts₀.shapeCasts_S64_S1x64 := by
  show StableHlo.after hostOps0 (W0 m ρ c) (Proc.devRef .tc main_v37) = _
  after_results
  all_goals rfl

set_option maxHeartbeats 1000000 in
private theorem V1_v38_chain (c : Dev nD) :
    (V1 (F := Ideal) m ρ c main_v38 : S1x64.Idx → EReal)
      = shapeCast S1x64 (m ((c : Thread nD τ).loc main_arg5) : S64.Idx → EReal) Facts₀.shapeCasts_S64_S1x64 := by
  show StableHlo.after hostOps0 (W0 m ρ c) (Proc.devRef .tc main_v38) = _
  after_results
  all_goals rfl

/-- The degrees are counted in integers and converted: the inverse square roots are those of the counts. -/
theorem V1_dinv (c : Dev nD) : (V1 (F := Ideal) m ρ c main_v14 : S50000.Idx → EReal) = dinvSpec (DST m ρ c) := by
  funext idx
  exact (congrFun (V1_v14_chain m ρ c) idx).trans (dinv_apply (DST m ρ c) idx)

/-- The first row totals. -/
theorem V1_agg (c : Dev nD) (i : Fin 50000) (k : Fin 64) :
    (V1 (F := Ideal) m ρ c main_v34 : S50000x64.Idx → EReal) (ix2 i k)
      = aggK (m ((c : Thread nD τ).loc main_arg0)) (dinvSpec (DST m ρ c)) (SNRM m ρ c) (DST m ρ c) i k := by
  refine (congrFun (V1_v34_chain m ρ c) (ix2 i k)).trans ?_
  rw [V1_dinv]
  exact layerT_apply _ _ (SRC m ρ c) (DST m ρ c) i k

theorem V1_dcol (c : Dev nD) (i : Fin 50000) :
    (V1 (F := Ideal) m ρ c main_v35 : S50000x1.Idx → EReal) (ix2 i (0 : Fin 1)) = dinvSpec (DST m ρ c) (ix1 i) := by
  refine (congrFun (V1_v35_chain m ρ c) (ix2 i (0 : Fin 1))).trans ?_
  rw [shapeCast_a_a1_apply, V1_dinv]

theorem V1_W (c : Dev nD) : (V1 (F := Ideal) m ρ c main_arg2 : S64x64.Idx → EReal) = m ((c : Thread nD τ).loc main_arg2) := by
  show StableHlo.after hostOps0 (W0 m ρ c) (Proc.devRef .tc main_arg2) = _
  refine (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ?_
  rfl

theorem V1_b (c : Dev nD) (j : Fin 64) :
    (V1 (F := Ideal) m ρ c main_v36 : S1x64.Idx → EReal) (ix2 (0 : Fin 1) j) = (m ((c : Thread nD τ).loc main_arg3) : S64.Idx → EReal) (ix1 j) := by
  refine (congrFun (V1_v36_chain m ρ c) (ix2 (0 : Fin 1) j)).trans ?_
  exact shapeCast_a_1a_apply _ _ _ _

theorem V1_g (c : Dev nD) (j : Fin 64) :
    (V1 (F := Ideal) m ρ c main_v37 : S1x64.Idx → EReal) (ix2 (0 : Fin 1) j) = (m ((c : Thread nD τ).loc main_arg4) : S64.Idx → EReal) (ix1 j) := by
  refine (congrFun (V1_v37_chain m ρ c) (ix2 (0 : Fin 1) j)).trans ?_
  exact shapeCast_a_1a_apply _ _ _ _

theorem V1_be (c : Dev nD) (j : Fin 64) :
    (V1 (F := Ideal) m ρ c main_v38 : S1x64.Idx → EReal) (ix2 (0 : Fin 1) j) = (m ((c : Thread nD τ).loc main_arg5) : S64.Idx → EReal) (ix1 j) := by
  refine (congrFun (V1_v38_chain m ρ c) (ix2 (0 : Fin 1) j)).trans ?_
  exact shapeCast_a_1a_apply _ _ _ _

end Cert.KernelIdeal.HostV

end
-- ==== Proof.KHost12.lean ====
/-
  The arrays the host operations between the regions leave: the second and third row totals from the previous region's output, the degrees' column and the reshaped parameters; the edge words and the degrees computed before the first region are still what they were.
-/
import proofs.«413777_j75746043232585_3_alg».proof.Proof.Gen.KernelIdeal.Frame
import proofs.«413777_j75746043232585_3_alg».proof.Proof.Spec
import proofs.«413777_j75746043232585_3_alg».proof.Proof.KHost0
import proofs.«413777_j75746043232585_3_alg».proof.Proof.LibGather
import proofs.«413777_j75746043232585_3_alg».proof.Proof.KLayer
import Idealize.ShloMosaic.Lib.StableHlo.Run
import Idealize.ShloMosaic.Lib.StableHlo.Predicate
import Idealize.ShloMosaic.Lib.ValueLayout
import Idealize.ShloMosaic.Lib.IdealHost

set_option maxRecDepth 16384

noncomputable section

namespace Cert.KernelIdeal.HostV

open Idealize.ShloMosaic Idealize.ShloMosaic.TcCoe Idealize.ShloMosaic.ValueIdx Idealize.SL.Sem Cert.KernelIdeal Cert.KernelIdeal.Gen Cert.GCN

variable (m : (ℓ : Loc nD τ sig) → Buf (Elt Ideal) ℓ) (ρ : Dev nD → PrngReg)

/-! ## Buffers that no operation and no region in between writes

The edge words, the degrees' inverse square roots and the parameters are written (or given) before the first region; neither a
region nor a later host operation writes them, so at every later boundary they hold what they held. -/

private theorem W2_keep_v3 (c : Dev nD) :
    W2 (F := Ideal) m ρ c (Proc.devRef .tc main_v3) = V1 m ρ c main_v3 :=
  W2_of_ne m ρ c main_v3 (by decide)

private theorem W2_keep_v6 (c : Dev nD) :
    W2 (F := Ideal) m ρ c (Proc.devRef .tc main_v6) = V1 m ρ c main_v6 :=
  W2_of_ne m ρ c main_v6 (by decide)

private theorem W2_keep_v14 (c : Dev nD) :
    W2 (F := Ideal) m ρ c (Proc.devRef .tc main_v14) = V1 m ρ c main_v14 :=
  W2_of_ne m ρ c main_v14 (by decide)

private theorem W4_keep_v3 (c : Dev nD) :
    W4 (F := Ideal) m ρ c (Proc.devRef .tc main_v3) = V1 m ρ c main_v3 :=
  calc W4 (F := Ideal) m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V1 m ρ c main_v3 := W2_of_ne m ρ c main_v3 (by decide)

private theorem W4_keep_v6 (c : Dev nD) :
    W4 (F := Ideal) m ρ c (Proc.devRef .tc main_v6) = V1 m ρ c main_v6 :=
  calc W4 (F := Ideal) m ρ c (Proc.devRef .tc main_v6)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V1 m ρ c main_v6 := W2_of_ne m ρ c main_v6 (by decide)

private theorem W4_keep_v14 (c : Dev nD) :
    W4 (F := Ideal) m ρ c (Proc.devRef .tc main_v14) = V1 m ρ c main_v14 :=
  calc W4 (F := Ideal) m ρ c (Proc.devRef .tc main_v14)
    _ = W3 m ρ c (Proc.devRef .tc main_v14) := W4_of_ne m ρ c main_v14 (by decide)
    _ = W2 m ρ c (Proc.devRef .tc main_v14) := StableHlo.after_of_forall_not_mem (b := Proc.devRef .tc main_v14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V1 m ρ c main_v14 := W2_of_ne m ρ c main_v14 (by decide)

private theorem W2_keep_arg7 (c : Dev nD) :
    W2 (F := Ideal) m ρ c (Proc.devRef .tc main_arg7) = m ((c : Thread nD τ).loc main_arg7) :=
  calc W2 (F := Ideal) m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl

private theorem W2_keep_arg8 (c : Dev nD) :
    W2 (F := Ideal) m ρ c (Proc.devRef .tc main_arg8) = m ((c : Thread nD τ).loc main_arg8) :=
  calc W2 (F := Ideal) m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

private theorem W2_keep_arg9 (c : Dev nD) :
    W2 (F := Ideal) m ρ c (Proc.devRef .tc main_arg9) = m ((c : Thread nD τ).loc main_arg9) :=
  calc W2 (F := Ideal) m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl

private theorem W4_keep_arg11 (c : Dev nD) :
    W4 (F := Ideal) m ρ c (Proc.devRef .tc main_arg11) = m ((c : Thread nD τ).loc main_arg11) :=
  calc W4 (F := Ideal) m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg11) := rfl

/-! ## Between the first and the second region -/

set_option maxHeartbeats 2000000 in
/-- The second row totals, from the first region's output array. -/
theorem V3_agg (c : Dev nD) (i : Fin 50000) (k : Fin 64) :
    (V3 (F := Ideal) m ρ c main_v59 : S50000x64.Idx → EReal) (ix2 i k)
      = aggK (V2 (F := Ideal) m ρ c main_v39 : S50000x64.Idx → EReal) (dinvSpec (DST m ρ c)) (SNRM m ρ c) (DST m ρ c) i k := by
  have e : (V3 (F := Ideal) m ρ c main_v59 : S50000x64.Idx → EReal)
      = layerT (W2 (F := Ideal) m ρ c (Proc.devRef .tc main_v39) : S50000x64.Idx → EReal)
          (W2 (F := Ideal) m ρ c (Proc.devRef .tc main_v14) : S50000.Idx → EReal)
          (W2 (F := Ideal) m ρ c (Proc.devRef .tc main_v3) : S850000.Idx → BitVec 32)
          (W2 (F := Ideal) m ρ c (Proc.devRef .tc main_v6) : S850000.Idx → BitVec 32) := by
    show StableHlo.after hostOps1 _ (Proc.devRef .tc main_v59) = _
    after_results_simp
    rfl
  rw [e, W2_keep_v14, W2_keep_v3, W2_keep_v6, V1_dinv]
  exact layerT_apply _ _ _ _ i k

theorem V3_dcol (c : Dev nD) (i : Fin 50000) :
    (V3 (F := Ideal) m ρ c main_v60 : S50000x1.Idx → EReal) (ix2 i (0 : Fin 1)) = dinvSpec (DST m ρ c) (ix1 i) := by
  have e : (V3 (F := Ideal) m ρ c main_v60 : S50000x1.Idx → EReal)
      = shapeCast S50000x1 (W2 (F := Ideal) m ρ c (Proc.devRef .tc main_v14) : S50000.Idx → EReal) Facts₀.shapeCasts_S50000_S50000x1 := by
    show StableHlo.after hostOps1 _ (Proc.devRef .tc main_v60) = _
    after_results
    rfl
  rw [e, W2_keep_v14, V1_dinv]
  exact shapeCast_apply _ _ (ix2 i (0 : Fin 1)) (ix1 i) (by
    rw [Shape.rowMajor_val_two, Shape.rowMajor_val_one]
    show i.val = i.val * 1 + 0
    omega)

theorem V3_W (c : Dev nD) : (V3 (F := Ideal) m ρ c main_arg6 : S64x64.Idx → EReal) = m ((c : Thread nD τ).loc main_arg6) := by
  exact calc W3 (F := Ideal) m ρ c (Proc.devRef .tc main_arg6)
    _ = W2 m ρ c (Proc.devRef .tc main_arg6) := StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

theorem V3_b (c : Dev nD) (j : Fin 64) :
    (V3 (F := Ideal) m ρ c main_v61 : S1x64.Idx → EReal) (ix2 (0 : Fin 1) j) = (m ((c : Thread nD τ).loc main_arg7) : S64.Idx → EReal) (ix1 j) := by
  have e : (V3 (F := Ideal) m ρ c main_v61 : S1x64.Idx → EReal)
      = shapeCast S1x64 (W2 (F := Ideal) m ρ c (Proc.devRef .tc main_arg7) : S64.Idx → EReal) Facts₀.shapeCasts_S64_S1x64 := by
    show StableHlo.after hostOps1 _ (Proc.devRef .tc main_v61) = _
    after_results
    rfl
  rw [e, shapeCast_a_1a_apply, W2_keep_arg7]

theorem V3_g (c : Dev nD) (j : Fin 64) :
    (V3 (F := Ideal) m ρ c main_v62 : S1x64.Idx → EReal) (ix2 (0 : Fin 1) j) = (m ((c : Thread nD τ).loc main_arg8) : S64.Idx → EReal) (ix1 j) := by
  have e : (V3 (F := Ideal) m ρ c main_v62 : S1x64.Idx → EReal)
      = shapeCast S1x64 (W2 (F := Ideal) m ρ c (Proc.devRef .tc main_arg8) : S64.Idx → EReal) Facts₀.shapeCasts_S64_S1x64 := by
    show StableHlo.after hostOps1 _ (Proc.devRef .tc main_v62) = _
    after_results
    rfl
  rw [e, shapeCast_a_1a_apply, W2_keep_arg8]

theorem V3_be (c : Dev nD) (j : Fin 64) :
    (V3 (F := Ideal) m ρ c main_v63 : S1x64.Idx → EReal) (ix2 (0 : Fin 1) j) = (m ((c : Thread nD τ).loc main_arg9) : S64.Idx → EReal) (ix1 j) := by
  have e : (V3 (F := Ideal) m ρ c main_v63 : S1x64.Idx → EReal)
      = shapeCast S1x64 (W2 (F := Ideal) m ρ c (Proc.devRef .tc main_arg9) : S64.Idx → EReal) Facts₀.shapeCasts_S64_S1x64 := by
    show StableHlo.after hostOps1 _ (Proc.devRef .tc main_v63) = _
    after_results
    rfl
  rw [e, shapeCast_a_1a_apply, W2_keep_arg9]

/-! ## Between the second and the third region -/

set_option maxHeartbeats 2000000 in
/-- The third row totals, from the second region's output array. -/
theorem V5_agg (c : Dev nD) (i : Fin 50000) (k : Fin 64) :
    (V5 (F := Ideal) m ρ c main_v84 : S50000x64.Idx → EReal) (ix2 i k)
      = aggK (V4 (F := Ideal) m ρ c main_v64 : S50000x64.Idx → EReal) (dinvSpec (DST m ρ c)) (SNRM m ρ c) (DST m ρ c) i k := by
  have e : (V5 (F := Ideal) m ρ c main_v84 : S50000x64.Idx → EReal)
      = layerT (W4 (F := Ideal) m ρ c (Proc.devRef .tc main_v64) : S50000x64.Idx → EReal)
          (W4 (F := Ideal) m ρ c (Proc.devRef .tc main_v14) : S50000.Idx → EReal)
          (W4 (F := Ideal) m ρ c (Proc.devRef .tc main_v3) : S850000.Idx → BitVec 32)
          (W4 (F := Ideal) m ρ c (Proc.devRef .tc main_v6) : S850000.Idx → BitVec 32) := by
    show StableHlo.after hostOps2 _ (Proc.devRef .tc main_v84) = _
    after_results_simp
    rfl
  rw [e, W4_keep_v14, W4_keep_v3, W4_keep_v6, V1_dinv]
  exact layerT_apply _ _ _ _ i k

theorem V5_dcol (c : Dev nD) (i : Fin 50000) :
    (V5 (F := Ideal) m ρ c main_v85 : S50000x1.Idx → EReal) (ix2 i (0 : Fin 1)) = dinvSpec (DST m ρ c) (ix1 i) := by
  have e : (V5 (F := Ideal) m ρ c main_v85 : S50000x1.Idx → EReal)
      = shapeCast S50000x1 (W4 (F := Ideal) m ρ c (Proc.devRef .tc main_v14) : S50000.Idx → EReal) Facts₀.shapeCasts_S50000_S50000x1 := by
    show StableHlo.after hostOps2 _ (Proc.devRef .tc main_v85) = _
    after_results
    rfl
  rw [e, W4_keep_v14, V1_dinv]
  exact shapeCast_apply _ _ (ix2 i (0 : Fin 1)) (ix1 i) (by
    rw [Shape.rowMajor_val_two, Shape.rowMajor_val_one]
    show i.val = i.val * 1 + 0
    omega)

theorem V5_W (c : Dev nD) : (V5 (F := Ideal) m ρ c main_arg10 : S64x64.Idx → EReal) = m ((c : Thread nD τ).loc main_arg10) := by
  exact calc W5 (F := Ideal) m ρ c (Proc.devRef .tc main_arg10)
    _ = W4 m ρ c (Proc.devRef .tc main_arg10) := StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := rfl

theorem V5_b (c : Dev nD) (j : Fin 64) :
    (V5 (F := Ideal) m ρ c main_v86 : S1x64.Idx → EReal) (ix2 (0 : Fin 1) j) = (m ((c : Thread nD τ).loc main_arg11) : S64.Idx → EReal) (ix1 j) := by
  have e : (V5 (F := Ideal) m ρ c main_v86 : S1x64.Idx → EReal)
      = shapeCast S1x64 (W4 (F := Ideal) m ρ c (Proc.devRef .tc main_arg11) : S64.Idx → EReal) Facts₀.shapeCasts_S64_S1x64 := by
    show StableHlo.after hostOps2 _ (Proc.devRef .tc main_v86) = _
    after_results
    rfl
  rw [e, shapeCast_a_1a_apply, W4_keep_arg11]

end Cert.KernelIdeal.HostV

end
-- ==== Proof.KValue.lean ====
/-
  The kernel program's result array as three layers in the kernel's arrangement, composed from the regions' outputs and the host operations between them.
-/
import proofs.«413777_j75746043232585_3_alg».proof.Proof.Gen.KernelIdeal.Frame
import proofs.«413777_j75746043232585_3_alg».proof.Proof.Spec
import proofs.«413777_j75746043232585_3_alg».proof.Proof.KRegion0
import proofs.«413777_j75746043232585_3_alg».proof.Proof.KRegion1
import proofs.«413777_j75746043232585_3_alg».proof.Proof.KRegion2
import proofs.«413777_j75746043232585_3_alg».proof.Proof.KHost0
import proofs.«413777_j75746043232585_3_alg».proof.Proof.KHost12

set_option maxRecDepth 16384

noncomputable section

namespace Cert.KernelIdeal.KValue

open Idealize.ShloMosaic Idealize.ShloMosaic.TcCoe Idealize.ShloMosaic.ValueIdx Idealize.SL.Sem Cert.KernelIdeal Cert.KernelIdeal.Gen
open Cert.KernelIdeal.HostV Cert.KernelIdeal.RegionV Cert.GCN

variable (m : (ℓ : Loc nD τ sig) → Buf (Elt Ideal) ℓ) (ρ : Dev nD → PrngReg)

/-- A normalised layer depends on its row totals, degrees, weights and parameters only through their values. -/
theorem lnrelu_lin_congr {A A' : Fin 50000 → Fin 64 → EReal} {D D' : Fin 50000 → EReal} {W W' : SCC.Idx → EReal}
    {B B' G G' BE BE' : Fin 64 → EReal} (hA : ∀ i k, A i k = A' i k) (hD : ∀ i, D i = D' i) (hW : W = W')
    (hB : ∀ j, B j = B' j) (hG : ∀ j, G j = G' j) (hBE : ∀ j, BE j = BE' j) (i : Fin 50000) (j : Fin 64) :
    lnrelu (fun j' => linOfAgg A D W B i j') G BE j = lnrelu (fun j' => linOfAgg A' D' W' B' i j') G' BE' j := by
  obtain rfl : A = A' := funext fun i => funext fun k => hA i k
  obtain rfl : D = D' := funext hD
  obtain rfl : B = B' := funext hB
  obtain rfl : G = G' := funext hG
  obtain rfl : BE = BE' := funext hBE
  subst hW
  rfl

theorem lin_congr {A A' : Fin 50000 → Fin 64 → EReal} {D D' : Fin 50000 → EReal} {W W' : SCC.Idx → EReal}
    {B B' : Fin 64 → EReal} (hA : ∀ i k, A i k = A' i k) (hD : ∀ i, D i = D' i) (hW : W = W')
    (hB : ∀ j, B j = B' j) (i : Fin 50000) (j : Fin 64) :
    linOfAgg A D W B i j = linOfAgg A' D' W' B' i j := by
  obtain rfl : A = A' := funext fun i => funext fun k => hA i k
  obtain rfl : D = D' := funext hD
  obtain rfl : B = B' := funext hB
  subst hW
  rfl

/-- The first region's output array is the first layer of the node features. -/
theorem layer0 (c : Dev nD) :
    (V2 (F := Ideal) m ρ c main_v39 : S50000x64.Idx → EReal)
      = layerK (m ((c : Thread nD τ).loc main_arg0)) (dinvSpec (DST m ρ c)) (m ((c : Thread nD τ).loc main_arg2)) (m ((c : Thread nD τ).loc main_arg3)) (m ((c : Thread nD τ).loc main_arg4)) (m ((c : Thread nD τ).loc main_arg5))
          (SNRM m ρ c) (DST m ρ c) := by
  funext idx
  obtain ⟨i, j, rfl⟩ : ∃ (i : Fin 50000) (j : Fin 64), idx = ix2 i j := ⟨idx 0, idx 1, eq_ix2 idx⟩
  refine ((congrFun (W2_arr (F := Ideal) m ρ c 6) _).trans (region0_value (V1 (F := Ideal) m ρ) c i j)).trans ?_
  exact lnrelu_lin_congr (V1_agg m ρ c) (V1_dcol m ρ c) (V1_W m ρ c) (V1_b m ρ c) (V1_g m ρ c) (V1_be m ρ c) i j

/-- The second region's output array is the second layer of the first region's output. -/
theorem layer1 (c : Dev nD) :
    (V4 (F := Ideal) m ρ c main_v64 : S50000x64.Idx → EReal)
      = layerK (V2 (F := Ideal) m ρ c main_v39 : S50000x64.Idx → EReal) (dinvSpec (DST m ρ c)) (m ((c : Thread nD τ).loc main_arg6)) (m ((c : Thread nD τ).loc main_arg7)) (m ((c : Thread nD τ).loc main_arg8)) (m ((c : Thread nD τ).loc main_arg9))
          (SNRM m ρ c) (DST m ρ c) := by
  funext idx
  obtain ⟨i, j, rfl⟩ : ∃ (i : Fin 50000) (j : Fin 64), idx = ix2 i j := ⟨idx 0, idx 1, eq_ix2 idx⟩
  refine ((congrFun (W4_arr (F := Ideal) m ρ c 6) _).trans (region1_value (V3 (F := Ideal) m ρ) c i j)).trans ?_
  exact lnrelu_lin_congr (V3_agg m ρ c) (V3_dcol m ρ c) (V3_W m ρ c) (V3_b m ρ c) (V3_g m ρ c) (V3_be m ρ c) i j

/-- The third region's output array, the program's result, is the last layer of the second region's output. -/
theorem layer2 (c : Dev nD) :
    (W6 (F := Ideal) m ρ c (Proc.devRef .tc main_v87) : S50000x64.Idx → EReal)
      = lastK (V4 (F := Ideal) m ρ c main_v64 : S50000x64.Idx → EReal) (dinvSpec (DST m ρ c)) (m ((c : Thread nD τ).loc main_arg10)) (m ((c : Thread nD τ).loc main_arg11))
          (SNRM m ρ c) (DST m ρ c) := by
  funext idx
  obtain ⟨i, j, rfl⟩ : ∃ (i : Fin 50000) (j : Fin 64), idx = ix2 i j := ⟨idx 0, idx 1, eq_ix2 idx⟩
  refine ((congrFun (W6_arr (F := Ideal) m ρ c 4) _).trans (region2_value (V5 (F := Ideal) m ρ) c i j)).trans ?_
  exact lin_congr (V5_agg m ρ c) (V5_dcol m ρ c) (V5_W m ρ c) (V5_b m ρ c) i j

/-- The program's result array: three layers in the kernel's arrangement. -/
theorem total (c : Dev nD) :
    (W6 (F := Ideal) m ρ c (Proc.devRef .tc main_v87) : S50000x64.Idx → EReal)
      = lastK (layerK (layerK (m ((c : Thread nD τ).loc main_arg0)) (dinvSpec (DST m ρ c)) (m ((c : Thread nD τ).loc main_arg2)) (m ((c : Thread nD τ).loc main_arg3)) (m ((c : Thread nD τ).loc main_arg4)) (m ((c : Thread nD τ).loc main_arg5)) (SNRM m ρ c) (DST m ρ c))
            (dinvSpec (DST m ρ c)) (m ((c : Thread nD τ).loc main_arg6)) (m ((c : Thread nD τ).loc main_arg7)) (m ((c : Thread nD τ).loc main_arg8)) (m ((c : Thread nD τ).loc main_arg9)) (SNRM m ρ c) (DST m ρ c))
          (dinvSpec (DST m ρ c)) (m ((c : Thread nD τ).loc main_arg10)) (m ((c : Thread nD τ).loc main_arg11)) (SNRM m ρ c) (DST m ρ c) := by
  rw [layer2, layer1, layer0]

end Cert.KernelIdeal.KValue

end
-- ==== Proof.RefLin.lean ====
/-
  The reference's three linear parts and its degrees, read entry by entry.
-/
import proofs.«413777_j75746043232585_3_alg».proof.Proof.Gen.ReferenceIdeal.Read
import proofs.«413777_j75746043232585_3_alg».proof.Proof.Spec
import proofs.«413777_j75746043232585_3_alg».proof.Proof.LibGather
import Idealize.ShloMosaic.Lib.StableHlo.Predicate

set_option maxRecDepth 16384

noncomputable section

namespace Cert.ReferenceIdeal.RefV

open Idealize.ShloMosaic Idealize.ShloMosaic.TcCoe Idealize.ShloMosaic.ValueIdx Idealize.SL.Sem Cert.ReferenceIdeal Cert.ReferenceIdeal.Read Cert.GCN

variable (x0 : S50000x64.Idx → EReal) (x1 : S2x800000.Idx → BitVec 32) (x2 : S64x64.Idx → EReal) (x3 x4 x5 : S64.Idx → EReal)
  (x6 : S64x64.Idx → EReal) (x7 x8 x9 : S64.Idx → EReal) (x10 : S64x64.Idx → EReal) (x11 : S64.Idx → EReal)

/-- The edges' source and target words as the reference lays them out. -/
abbrev SRCr : S850000.Idx → BitVec 32 := val_main_v3 (F := Ideal) x1
abbrev DSTr : S850000.Idx → BitVec 32 := val_main_v6 (F := Ideal) x1
/-- Each with 50000 added to the negative ones. -/
def SNr : SE.Idx → BitVec 32 := fun e => nrmW (SRCr x1 e)
def DNr : SE.Idx → BitVec 32 := fun e => nrmW (DSTr x1 e)

section

open Idealize.ShloMosaic.StableHlo.Predicate

/-! ## Indices written two ways -/

/-- The two spellings of a rank-2 index agree. -/
private theorem ij_eq_ix2 {n m : Nat} (p : Fin n) (q : Fin m) : ij p q = ix2 p q := by
  funext a
  match a with
  | ⟨0, _⟩ => rfl
  | ⟨1, _⟩ => rfl

/-- The two spellings of a rank-1 index agree. -/
private theorem ofFin_eq_ix1 {n : Nat} (p : Fin n) : Shape.Idx.ofFin p = ix1 p := by
  funext a
  match a with
  | ⟨0, _⟩ => exact Fin.ext rfl

/-! ## Where an update of an accumulating scatter lands

The start of a window is the scatter index read as a signed number and not clamped; an update whose start is not a
row number of the operand lands nowhere. -/

/-- Rows of an [N × C] array, one row number per update row: update (r, c') lands on (i, c) exactly when the signed
    value of r's scatter index is i and c' = c. -/
private theorem scatter2_lands {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1) (idx : IVec ⟨2, ![R, 1]⟩ w)
    (j : (⟨2, ![R, C]⟩ : Shape).Idx) (t : (⟨2, ![N, C]⟩ : Shape).Idx) :
    d.resultIdx? j idx = some t ↔ (idx (ixP (j 0))).toInt = ((t 0).val : Int) ∧ j 1 = t 1 := by
  obtain ⟨uw, iw, sd, iv, wf⟩ := d
  simp only at huw hiw hsd hivd
  subst huw hiw hsd hivd
  set d : ScatterDims ⟨2, ![N, C]⟩ ⟨2, ![R, 1]⟩ ⟨2, ![R, C]⟩ :=
    { updateWindowDims := [1], insertedWindowDims := [0], scatterDimsToOperandDims := [0], indexVectorDim := 1, wf := wf } with hd
  have hs0 : d.start j idx 0 = (idx (ixP (j 0))).toInt := by
    unfold ScatterDims.start
    rw [dif_pos (List.mem_singleton.mpr rfl)]
    congr 2
    funext b
    apply Fin.ext
    match b with
    | ⟨0, _⟩ => rfl
    | ⟨1, _⟩ => rfl
  have hw0 : d.window j 0 = 0 := rfl
  have hs1 : d.start j idx 1 = 0 := rfl
  have hw1 : d.window j 1 = (j 1).val := rfl
  have ht0 : (t 0).val < N := (t 0).isLt
  have hj1 : (j 1).val < C := (j 1).isLt
  unfold ScatterDims.resultIdx?
  constructor
  · intro h
    split at h
    · next hh =>
      have e := Option.some.inj h
      have e0 : (d.start j idx 0 + (d.window j 0 : Int)).toNat = (t 0).val := congrArg Fin.val (congrFun e 0)
      have e1 : (d.start j idx 1 + (d.window j 1 : Int)).toNat = (t 1).val := congrArg Fin.val (congrFun e 1)
      have h0 : 0 ≤ d.start j idx 0 + (d.window j 0 : Int) := (hh 0).1
      rw [hs0, hw0] at e0 h0
      rw [hs1, hw1] at e1
      refine ⟨by omega, Fin.ext (by omega)⟩
    · exact absurd h (by simp)
  · rintro ⟨h0, h1⟩
    have hh : ∀ a, 0 ≤ d.start j idx a + d.window j a ∧ d.start j idx a + d.window j a < (⟨2, ![N, C]⟩ : Shape).size a := by
      intro a
      match a with
      | ⟨0, _⟩ =>
        show 0 ≤ d.start j idx 0 + d.window j 0 ∧ d.start j idx 0 + (d.window j 0 : Int) < (N : Int)
        rw [hs0, hw0, h0]
        omega
      | ⟨1, _⟩ =>
        show 0 ≤ d.start j idx 1 + d.window j 1 ∧ d.start j idx 1 + (d.window j 1 : Int) < (C : Int)
        rw [hs1, hw1]
        omega
    rw [dif_pos hh]
    congr 1
    funext a
    apply Fin.ext
    match a with
    | ⟨0, _⟩ =>
      show (d.start j idx 0 + (d.window j 0 : Int)).toNat = (t 0).val
      rw [hs0, hw0, h0]
      omega
    | ⟨1, _⟩ =>
      show (d.start j idx 1 + (d.window j 1 : Int)).toNat = (t 1).val
      rw [hs1, hw1, ← h1]
      omega

/-- Entries of a vector of length N, one position per update: update r lands on i exactly when the signed value of
    r's scatter index is i. -/
private theorem scatter1_lands {N R w : Nat} (d : ScatterDims ⟨1, ![N]⟩ ⟨2, ![R, 1]⟩ ⟨1, ![R]⟩)
    (huw : d.updateWindowDims = []) (hiw : d.insertedWindowDims = [0]) (hsd : d.scatterDimsToOperandDims = [0])
    (hivd : d.indexVectorDim = 1) (idx : IVec ⟨2, ![R, 1]⟩ w)
    (j : (⟨1, ![R]⟩ : Shape).Idx) (t : (⟨1, ![N]⟩ : Shape).Idx) :
    d.resultIdx? j idx = some t ↔ (idx (ixP (j 0))).toInt = ((t 0).val : Int) := by
  obtain ⟨uw, iw, sd, iv, wf⟩ := d
  simp only at huw hiw hsd hivd
  subst huw hiw hsd hivd
  set d : ScatterDims ⟨1, ![N]⟩ ⟨2, ![R, 1]⟩ ⟨1, ![R]⟩ :=
    { updateWindowDims := [], insertedWindowDims := [0], scatterDimsToOperandDims := [0], indexVectorDim := 1, wf := wf } with hd
  have hs0 : d.start j idx 0 = (idx (ixP (j 0))).toInt := by
    unfold ScatterDims.start
    rw [dif_pos (List.mem_singleton.mpr rfl)]
    congr 2
    funext b
    apply Fin.ext
    match b with
    | ⟨0, _⟩ => rfl
    | ⟨1, _⟩ => rfl
  have hw0 : d.window j 0 = 0 := rfl
  have ht0 : (t 0).val < N := (t 0).isLt
  unfold ScatterDims.resultIdx?
  constructor
  · intro h
    split at h
    · next hh =>
      have e := Option.some.inj h
      have e0 : (d.start j idx 0 + (d.window j 0 : Int)).toNat = (t 0).val := congrArg Fin.val (congrFun e 0)
      have h0 : 0 ≤ d.start j idx 0 + (d.window j 0 : Int) := (hh 0).1
      rw [hs0, hw0] at e0 h0
      omega
    · exact absurd h (by simp)
  · intro h0
    have hh : ∀ a, 0 ≤ d.start j idx a + d.window j a ∧ d.start j idx a + d.window j a < (⟨1, ![N]⟩ : Shape).size a := by
      intro a
      match a with
      | ⟨0, _⟩ =>
        show 0 ≤ d.start j idx 0 + d.window j 0 ∧ d.start j idx 0 + (d.window j 0 : Int) < (N : Int)
        rw [hs0, hw0, h0]
        omega
    rw [dif_pos hh]
    congr 1
    funext a
    apply Fin.ext
    match a with
    | ⟨0, _⟩ =>
      show (d.start j idx 0 + (d.window j 0 : Int)).toNat = (t 0).val
      rw [hs0, hw0, h0]
      omega

/-! ## The accumulating scatter read at an index -/

/-- Entry (i, c) of the scatter of rows: the operand's entry plus the updates (r, c) over the update rows r whose
    scatter index, read signed, is i. -/
private theorem scatterAdd2_apply {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1) (x : (⟨2, ![N, C]⟩ : Shape).Idx → EReal) (idx : IVec ⟨2, ![R, 1]⟩ w)
    (upd : (⟨2, ![R, C]⟩ : Shape).Idx → EReal) (i : Fin N) (c : Fin C) :
    Ideal.hostScatterAdd d x idx upd (ix2 i c)
      = x (ix2 i c) + ∑ r ∈ Finset.univ.filter (fun r : Fin R => (idx (ixP r)).toInt = (i.val : Int)), upd (ix2 r c) := by
  unfold Ideal.hostScatterAdd
  congr 1
  refine Finset.sum_bij' (fun j _ => j 0) (fun r _ => ix2 r c) ?_ ?_ ?_ ?_ ?_
  · intro j hj
    exact Finset.mem_filter.mpr ⟨Finset.mem_univ _,
      ((scatter2_lands d huw hiw hsd hivd idx j (ix2 i c)).mp (Finset.mem_filter.mp hj).2).1⟩
  · intro r hr
    exact Finset.mem_filter.mpr ⟨Finset.mem_univ _,
      (scatter2_lands d huw hiw hsd hivd idx (ix2 r c) (ix2 i c)).mpr ⟨(Finset.mem_filter.mp hr).2, rfl⟩⟩
  · intro j hj
    rw [Finset.mem_filter] at hj
    have h1 : j 1 = c := ((scatter2_lands d huw hiw hsd hivd idx j (ix2 i c)).mp hj.2).2
    rw [← h1]
    exact (eq_ix2 j).symm
  · intro r _
    rfl
  · intro j hj
    rw [Finset.mem_filter] at hj
    have h1 : j 1 = c := ((scatter2_lands d huw hiw hsd hivd idx j (ix2 i c)).mp hj.2).2
    rw [← h1]
    exact congrArg upd (eq_ix2 j)

/-- Entry i of the scatter into a vector: the operand's entry plus the updates r whose scatter index, read signed,
    is i. -/
private theorem scatterAdd1_apply {N R w : Nat} (d : ScatterDims ⟨1, ![N]⟩ ⟨2, ![R, 1]⟩ ⟨1, ![R]⟩)
    (huw : d.updateWindowDims = []) (hiw : d.insertedWindowDims = [0]) (hsd : d.scatterDimsToOperandDims = [0])
    (hivd : d.indexVectorDim = 1) (x : (⟨1, ![N]⟩ : Shape).Idx → EReal) (idx : IVec ⟨2, ![R, 1]⟩ w)
    (upd : (⟨1, ![R]⟩ : Shape).Idx → EReal) (i : Fin N) :
    Ideal.hostScatterAdd d x idx upd (ix1 i)
      = x (ix1 i) + ∑ r ∈ Finset.univ.filter (fun r : Fin R => (idx (ixP r)).toInt = (i.val : Int)), upd (ix1 r) := by
  unfold Ideal.hostScatterAdd
  congr 1
  refine Finset.sum_bij' (fun j _ => j 0) (fun r _ => ix1 r) ?_ ?_ ?_ ?_ ?_
  · intro j hj
    exact Finset.mem_filter.mpr ⟨Finset.mem_univ _,
      (scatter1_lands d huw hiw hsd hivd idx j (ix1 i)).mp (Finset.mem_filter.mp hj).2⟩
  · intro r hr
    exact Finset.mem_filter.mpr ⟨Finset.mem_univ _,
      (scatter1_lands d huw hiw hsd hivd idx (ix1 r) (ix1 i)).mpr (Finset.mem_filter.mp hr).2⟩
  · intro j _
    exact (eq_ix1 j).symm
  · intro r _
    rfl
  · intro j _
    exact congrArg upd (eq_ix1 j)

/-! ## The words -/

/-- Counting a negative position from the end, as the reference spells it on one word. -/
private theorem nrm_word (w : BitVec 32) :
    Scalar.select (IntOp.cmpi .slt w 0#32) (IntOp.addi w 50000#32) w = nrmW w := by
  by_cases h : w.slt 0#32 = true
  · simp [nrmW, IntOp.cmpi, IntOp.addi, Scalar.select, h]
  · simp [nrmW, IntOp.cmpi, IntOp.addi, Scalar.select, h]

/-- The word of the constant one denotes the real number 1. -/
private theorem c1_eq : c1 = ((1 : ℝ) : EReal) := by
  show Ideal.ofBits .f32 0x3F800000#32 = _
  simp [Ideal.ofBits, Ideal.ieee, -EReal.coe_mul]
  norm_num

/-- A vector laid out as a column reads, at row r, the vector at r. -/
private theorem col_read {α : Type} {n : Nat} (h₁ : (⟨1, ![n]⟩ : Shape).BroadcastsInDim ⟨2, ![n, 1]⟩ ![0])
    (v : (⟨1, ![n]⟩ : Shape).Idx → α) (r : Fin n) : broadcastInDim ⟨2, ![n, 1]⟩ ![0] h₁ v (ixP r) = v (ix1 r) := by
  rw [bcast_col1, ofFin_eq_ix1]

/-- A take from a vector of length 50000 at a column of words: entry e is the vector at the row its word names. -/
private theorem take_word (hc : S850000.BroadcastsInDim S850000x1 ![0]) (v : FVec Ideal S50000 .f32)
    (wd : S850000.Idx → BitVec 32) (e : Fin 850000) :
    Host.gather gather_S50000_S850000x1_S850000_n_0_n_n_0_1_1 v (broadcastInDim S850000x1 ![0] hc wd) (ix1 e)
      = v (ix1 (row (wd (ix1 e)))) := by
  have hw : (broadcastInDim S850000x1 ![0] hc wd) (ixP e) = wd (ix1 e) := col_read hc wd e
  rw [← ofFin_eq_ix1 e, gather_take _ rfl rfl rfl rfl v _ e (by omega), ofFin_eq_ix1, ofFin_eq_ix1]
  refine congrArg v (congrArg ix1 (Fin.ext ?_))
  show min (broadcastInDim S850000x1 ![0] hc wd (ixP e)).toInt.toNat (50000 - 1) = min (wd (ix1 e)).toInt.toNat 49999
  rw [hw]

/-- The reference's product of a table of features with a weight matrix, read at (r, j). -/
private theorem dot_read (h : FVec Ideal S50000x64 .f32) (W : FVec Ideal S64x64 .f32) (r : Fin 50000) (j : Fin 64) :
    Host.dotGeneral (F := Ideal) dot_S50000x64_S64x64_S50000x64_1_0_0_1_n_n none h W (ix2 r j)
      = ∑ k : Fin 64, h (ix2 r k) * W (ix2 k j) := by
  have e := val_main_v29_apply h W (ix2 r j)
  unfold val_main_v29 at e
  rw [e]
  refine Finset.sum_congr rfl fun k _ => ?_
  congr 2 <;> exact funext fun a => Fin.ext (by match a with | ⟨0, _⟩ => rfl | ⟨1, _⟩ => rfl)

/-- One edge's scaled row: the gathered product's row at the edge's source, times the edge's factor. -/
private theorem upd_read (hc : S850000.BroadcastsInDim S850000x1 ![0])
    (hcc : S850000x1.BroadcastsInDim S850000x64 ![0, 1])
    (hw : FVec Ideal S50000x64 .f32) (sN : S850000.Idx → BitVec 32) (nrm : FVec Ideal S850000 .f32)
    (r : Fin 850000) (j : Fin 64) :
    (mulf
          (Host.gather gather_S50000x64_S850000x1_S850000x64_1_0_n_n_0_1_164 hw (broadcastInDim S850000x1 ![0] hc sN))
          (broadcastInDim S850000x64 ![0, 1] hcc (broadcastInDim S850000x1 ![0] hc nrm))) (ix2 r j)
        = hw (ix2 (row (sN (ix1 r))) j) * nrm (ix1 r) := by
  have hwd : (broadcastInDim S850000x1 ![0] hc sN) (ixP r) = sN (ix1 r) := col_read hc sN r
  rw [mulf_apply, ← ij_eq_ix2 r j]
  have hg := Cert.LibGather.gather_rows gather_S50000x64_S850000x1_S850000x64_1_0_n_n_0_1_164 rfl rfl rfl rfl rfl hw
    (broadcastInDim S850000x1 ![0] hc sN) r j (by omega)
  rw [hg]
  have hb := bcast_rows hc hcc nrm r j
  rw [hb, ofFin_eq_ix1, ij_eq_ix2]
  refine congrArg (· * nrm (ix1 r)) (congrArg hw (congrArg (fun p => ix2 p j) (Fin.ext ?_)))
  show min (broadcastInDim S850000x1 ![0] hc sN (ixP r)).toInt.toNat (50000 - 1) = min (sN (ix1 r)).toInt.toNat 49999
  rw [hwd]

/-- The accumulating scatter of rows from zero, read at (i, j): the updates (e, j) over the edges e into i. -/
private theorem scatter_read (hz : S_.BroadcastsInDim S50000x64 ![]) (hc : S850000.BroadcastsInDim S850000x1 ![0])
    (dst : S850000.Idx → BitVec 32) (upd : FVec Ideal S850000x64 .f32) (i : Fin 50000) (j : Fin 64) :
    Host.scatterAdd (F := Ideal) (φ := .f32) scatter_S50000x64_S850000x1_S850000x64_1_0_0_1
        (broadcastInDim S50000x64 ![] hz (constant (F := Ideal) S_ .f32 0x00000000#32))
        (broadcastInDim S850000x1 ![0] hc dst) upd (ix2 i j)
      = 0 + ∑ e ∈ into dst i, upd (ix2 e j) := by
  rw [show ∀ (x : S50000x64.Idx → EReal) (idx : IVec S850000x1 32) (upd : S850000x64.Idx → EReal),
      Host.scatterAdd (F := Ideal) (φ := .f32) scatter_S50000x64_S850000x1_S850000x64_1_0_0_1 x idx upd
        = Ideal.hostScatterAdd scatter_S50000x64_S850000x1_S850000x64_1_0_0_1 x idx upd from fun _ _ _ => rfl]
  rw [scatterAdd2_apply scatter_S50000x64_S850000x1_S850000x64_1_0_0_1 rfl rfl rfl rfl]
  unfold into
  refine congrArg₂ (fun a b : EReal => a + b) Ideal.ofBits_zero_f32 ?_
  refine Finset.sum_congr (Finset.filter_congr fun r _ => ?_) fun _ _ => rfl
  rw [col_read hc dst r]

/-- The bias laid along the rows reads, at (i, j), the bias at j. -/
private theorem bias_read (hb₁ : S64.BroadcastsInDim S1x64 ![1]) (hb₂ : S1x64.BroadcastsInDim S50000x64 ![0, 1])
    (b : FVec Ideal S64 .f32) (i : Fin 50000) (j : Fin 64) :
    (broadcastInDim S50000x64 ![0, 1] hb₂ (broadcastInDim S1x64 ![1] hb₁ b)) (ix2 i j) = b (ix1 j) := by
  rw [← ij_eq_ix2, bcast_cols, ofFin_eq_ix1]

/-! ## One layer's linear part, read at an entry

The reference multiplies the features by the weights, takes the product's rows at the edges' sources, scales each
edge's row by the product of the two degrees' inverse roots, adds the rows into their targets from zero, and adds the
bias. -/
private theorem layer_lin (hz : S_.BroadcastsInDim S50000x64 ![]) (hc : S850000.BroadcastsInDim S850000x1 ![0])
    (hcc : S850000x1.BroadcastsInDim S850000x64 ![0, 1]) (hb₁ : S64.BroadcastsInDim S1x64 ![1])
    (hb₂ : S1x64.BroadcastsInDim S50000x64 ![0, 1])
    (h : FVec Ideal S50000x64 .f32) (W : FVec Ideal S64x64 .f32) (b : FVec Ideal S64 .f32)
    (sN dN dst : S850000.Idx → BitVec 32) (nrm : FVec Ideal S850000 .f32) (dinv : S50000.Idx → EReal)
    (hn : ∀ e : Fin 850000, nrm (ix1 e) = dinv (ix1 (row (sN (ix1 e)))) * dinv (ix1 (row (dN (ix1 e)))))
    (i : Fin 50000) (j : Fin 64) :
    addf
      (Host.scatterAdd scatter_S50000x64_S850000x1_S850000x64_1_0_0_1
        (broadcastInDim S50000x64 ![] hz (constant (F := Ideal) S_ .f32 0x00000000#32))
        (broadcastInDim S850000x1 ![0] hc dst)
        (mulf
          (Host.gather gather_S50000x64_S850000x1_S850000x64_1_0_n_n_0_1_164
            (Host.dotGeneral (F := Ideal) dot_S50000x64_S64x64_S50000x64_1_0_0_1_n_n none h W)
            (broadcastInDim S850000x1 ![0] hc sN))
          (broadcastInDim S850000x64 ![0, 1] hcc (broadcastInDim S850000x1 ![0] hc nrm))))
      (broadcastInDim S50000x64 ![0, 1] hb₂ (broadcastInDim S1x64 ![1] hb₁ b)) (ix2 i j)
      = linR h dinv W b sN dN dst i j := by
  rw [addf_apply]
  refine (congrArg₂ (fun a b : EReal => a + b) (scatter_read hz hc dst _ i j) (bias_read hb₁ hb₂ b i j)).trans ?_
  refine congrArg (fun a : EReal => a + b (ix1 j)) (congrArg (fun a : EReal => 0 + a)
    (Finset.sum_congr rfl fun e _ => ?_))
  rw [upd_read, dot_read, hn]

/-! ## The degrees -/

/-- A sum of ones over a finite set is its number of elements. -/
private theorem sum_ones {ι : Type} (s : Finset ι) (f : ι → EReal) (hf : ∀ r, f r = ((1 : ℝ) : EReal)) :
    ∑ r ∈ s, f r = ((s.card : ℝ) : EReal) := by
  rw [Finset.sum_congr rfl fun r _ => hf r, Finset.sum_const, ← EReal.coe_nsmul, nsmul_eq_mul, mul_one]

/-- Ones added from zero into the positions the target words name: entry i is the number of edges into i. -/
private theorem count_read (hz : S_.BroadcastsInDim S50000 ![]) (hc : S850000.BroadcastsInDim S850000x1 ![0])
    (ho : S_.BroadcastsInDim S850000 ![]) (dst : S850000.Idx → BitVec 32) (i : Fin 50000) :
    Host.scatterAdd (F := Ideal) (φ := .f32) scatter_S50000_S850000x1_S850000_n_0_0_1
        (broadcastInDim S50000 ![] hz (constant (F := Ideal) S_ .f32 0x00000000#32))
        (broadcastInDim S850000x1 ![0] hc dst)
        (broadcastInDim S850000 ![] ho (constant (F := Ideal) S_ .f32 0x3F800000#32)) (ix1 i)
      = (((into dst i).card : ℝ) : EReal) := by
  rw [show ∀ (x : S50000.Idx → EReal) (idx : IVec S850000x1 32) (upd : S850000.Idx → EReal),
      Host.scatterAdd (F := Ideal) (φ := .f32) scatter_S50000_S850000x1_S850000_n_0_0_1 x idx upd
        = Ideal.hostScatterAdd scatter_S50000_S850000x1_S850000_n_0_0_1 x idx upd from fun _ _ _ => rfl]
  rw [scatterAdd1_apply scatter_S50000_S850000x1_S850000_n_0_0_1 rfl rfl rfl rfl]
  unfold into
  have e1 : (Finset.univ.filter fun r : Fin 850000 =>
        ((broadcastInDim S850000x1 ![0] hc dst) (ixP r)).toInt = (i.val : Int))
      = Finset.univ.filter fun r : Fin 850000 => (dst (ix1 r)).toInt = (i.val : Int) :=
    Finset.filter_congr fun r _ => by rw [col_read hc dst r]
  rw [e1]
  have e2 : ∀ r : Fin 850000,
      (broadcastInDim S850000 ![] ho (constant (F := Ideal) S_ .f32 0x3F800000#32)) (ix1 r) = ((1 : ℝ) : EReal) :=
    fun _ => c1_eq
  refine Eq.trans (congrArg₂ (fun a b : EReal => a + b) Ideal.ofBits_zero_f32 (sum_ones _ _ e2)) ?_
  exact zero_add _

end

/-- The reference adds ones in floating point: the degrees' inverse square roots are those of the counts. -/
theorem dinv_val : (val_main_v13 (F := Ideal) x1 : S50000.Idx → EReal) = dinvSpec (DSTr x1) := by
  funext idx
  obtain ⟨i, rfl⟩ : ∃ i, idx = ix1 i := ⟨idx 0, eq_ix1 idx⟩
  have h10 : val_main_v10 (F := Ideal) x1 (ix1 i) = (((into (DSTr x1) i).card : ℝ) : EReal) :=
    count_read _ _ _ (DSTr x1) i
  rw [val_main_v13_apply, val_main_v12_apply, h10]
  rfl

/-! ## The stages that normalise the words -/

private theorem v18_eq : (val_main_v18 (F := Ideal) x1 : S850000.Idx → BitVec 32) = SNr x1 := by
  funext e
  rw [val_main_v18_apply, val_main_v15_apply, val_main_v17_apply, val_main_v14_apply, val_main_c_apply,
    val_main_v16_apply, val_main_c_2_apply]
  exact nrm_word _

private theorem v25_eq : (val_main_v25 (F := Ideal) x1 : S850000.Idx → BitVec 32) = DNr x1 := by
  funext e
  rw [val_main_v25_apply, val_main_v22_apply, val_main_v24_apply, val_main_v21_apply, val_main_c_3_apply,
    val_main_v23_apply, val_main_c_4_apply]
  exact nrm_word _

private theorem v34_eq : (val_main_v34 (F := Ideal) x1 : S850000.Idx → BitVec 32) = SNr x1 := by
  funext e
  rw [val_main_v34_apply, val_main_v31_apply, val_main_v33_apply, val_main_v30_apply, val_main_c_5_apply,
    val_main_v32_apply, val_main_c_6_apply]
  exact nrm_word _

private theorem v76_eq : (val_main_v76 (F := Ideal) x1 : S850000.Idx → BitVec 32) = SNr x1 := by
  funext e
  rw [val_main_v76_apply, val_main_v73_apply, val_main_v75_apply, val_main_v72_apply, val_main_c_13_apply,
    val_main_v74_apply, val_main_c_14_apply]
  exact nrm_word _

private theorem v118_eq : (val_main_v118 (F := Ideal) x1 : S850000.Idx → BitVec 32) = SNr x1 := by
  funext e
  rw [val_main_v118_apply, val_main_v115_apply, val_main_v117_apply, val_main_v114_apply, val_main_c_21_apply,
    val_main_v116_apply, val_main_c_22_apply]
  exact nrm_word _

/-- An edge's factor: the product of the inverse roots of its two ends' degrees. -/
private theorem norm_val (e : Fin 850000) :
    (val_main_v28 (F := Ideal) x1 : S850000.Idx → EReal) (ix1 e)
      = dinvSpec (DSTr x1) (ix1 (row (SNr x1 (ix1 e)))) * dinvSpec (DSTr x1) (ix1 (row (DNr x1 (ix1 e)))) := by
  have h20 : val_main_v20 (F := Ideal) x1 (ix1 e)
      = val_main_v13 (F := Ideal) x1 (ix1 (row (val_main_v18 (F := Ideal) x1 (ix1 e)))) := take_word _ _ _ e
  have h27 : val_main_v27 (F := Ideal) x1 (ix1 e)
      = val_main_v13 (F := Ideal) x1 (ix1 (row (val_main_v25 (F := Ideal) x1 (ix1 e)))) := take_word _ _ _ e
  rw [val_main_v28_apply, h20, h27, v18_eq, v25_eq, dinv_val]
  rfl

/-- The first linear part. -/
theorem lin0 (i : Fin 50000) (j : Fin 64) :
    (val_main_v45 (F := Ideal) x0 x1 x2 x3 : S50000x64.Idx → EReal) (ix2 i j)
      = linR x0 (dinvSpec (DSTr x1)) x2 x3 (SNr x1) (DNr x1) (DSTr x1) i j := by
  have hn : ∀ e : Fin 850000, (val_main_v28 (F := Ideal) x1 : S850000.Idx → EReal) (ix1 e)
      = dinvSpec (DSTr x1) (ix1 (row (val_main_v34 (F := Ideal) x1 (ix1 e))))
        * dinvSpec (DSTr x1) (ix1 (row (DNr x1 (ix1 e)))) := by
    rw [v34_eq]
    exact norm_val x1
  refine (layer_lin _ _ _ _ _ x0 x2 x3 (val_main_v34 (F := Ideal) x1) (DNr x1) (DSTr x1)
    (val_main_v28 (F := Ideal) x1) (dinvSpec (DSTr x1)) hn i j).trans ?_
  rw [v34_eq]

/-- The second linear part, from the first layer's output. -/
theorem lin1 (i : Fin 50000) (j : Fin 64) :
    (val_main_v87 (F := Ideal) x0 x1 x2 x3 x4 x5 x6 x7 : S50000x64.Idx → EReal) (ix2 i j)
      = linR (val_main_v70 (F := Ideal) x0 x1 x2 x3 x4 x5) (dinvSpec (DSTr x1)) x6 x7 (SNr x1) (DNr x1) (DSTr x1) i j := by
  have hn : ∀ e : Fin 850000, (val_main_v28 (F := Ideal) x1 : S850000.Idx → EReal) (ix1 e)
      = dinvSpec (DSTr x1) (ix1 (row (val_main_v76 (F := Ideal) x1 (ix1 e))))
        * dinvSpec (DSTr x1) (ix1 (row (DNr x1 (ix1 e)))) := by
    rw [v76_eq]
    exact norm_val x1
  refine (layer_lin _ _ _ _ _ (val_main_v70 (F := Ideal) x0 x1 x2 x3 x4 x5) x6 x7 (val_main_v76 (F := Ideal) x1) (DNr x1)
    (DSTr x1) (val_main_v28 (F := Ideal) x1) (dinvSpec (DSTr x1)) hn i j).trans ?_
  rw [v76_eq]

/-- The third linear part, from the second layer's output. -/
theorem lin2 (i : Fin 50000) (j : Fin 64) :
    (val_main_v129 (F := Ideal) x0 x1 x2 x3 x4 x5 x6 x7 x8 x9 x10 x11 : S50000x64.Idx → EReal) (ix2 i j)
      = linR (val_main_v112 (F := Ideal) x0 x1 x2 x3 x4 x5 x6 x7 x8 x9) (dinvSpec (DSTr x1)) x10 x11 (SNr x1) (DNr x1) (DSTr x1) i j := by
  have hn : ∀ e : Fin 850000, (val_main_v28 (F := Ideal) x1 : S850000.Idx → EReal) (ix1 e)
      = dinvSpec (DSTr x1) (ix1 (row (val_main_v118 (F := Ideal) x1 (ix1 e))))
        * dinvSpec (DSTr x1) (ix1 (row (DNr x1 (ix1 e)))) := by
    rw [v118_eq]
    exact norm_val x1
  refine (layer_lin _ _ _ _ _ (val_main_v112 (F := Ideal) x0 x1 x2 x3 x4 x5 x6 x7 x8 x9) x10 x11
    (val_main_v118 (F := Ideal) x1) (DNr x1) (DSTr x1) (val_main_v28 (F := Ideal) x1) (dinvSpec (DSTr x1)) hn i j).trans ?_
  rw [v118_eq]

end Cert.ReferenceIdeal.RefV

end
-- ==== Proof.RefNorm.lean ====
/-
  The reference's two normalisations, read entry by entry: a row of the linear part is normalised and clipped.
-/
import proofs.«413777_j75746043232585_3_alg».proof.Proof.Gen.ReferenceIdeal.Read
import proofs.«413777_j75746043232585_3_alg».proof.Proof.Spec

set_option maxRecDepth 16384

noncomputable section

namespace Cert.ReferenceIdeal.RefV

open Idealize.ShloMosaic Idealize.ShloMosaic.TcCoe Idealize.ShloMosaic.ValueIdx Idealize.SL.Sem Cert.ReferenceIdeal Cert.ReferenceIdeal.Read Cert.GCN

variable (x0 : S50000x64.Idx → EReal) (x1 : S2x800000.Idx → BitVec 32) (x2 : S64x64.Idx → EReal) (x3 x4 x5 : S64.Idx → EReal)
  (x6 : S64x64.Idx → EReal) (x7 x8 x9 : S64.Idx → EReal)

/-- The mean of row i of the first linear part, as the reference forms it: the row total over 64. -/
private theorem mean0 (i : Fin 50000) :
    (val_main_v49 (F := Ideal) x0 x1 x2 x3 : S50000x1.Idx → EReal) (ix2 i 0)
      = Ideal.div (∑ k : Fin 64, (val_main_v45 (F := Ideal) x0 x1 x2 x3 : S50000x64.Idx → EReal) (ix2 i k)) c64 := by
  rw [val_main_v49_apply, val_main_v47_apply, val_main_v48_apply, val_main_v46_apply, val_main_cst_9_apply,
    val_main_cst_8_apply]
  simp only [Ideal.hostDivf_def, Ideal.ofBits_def, Ideal.ofBits_zero_f32, zero_add]
  refine congrArg (Ideal.div · c64) (Finset.sum_congr rfl fun k _ => ?_)
  exact congrArg _ (funext fun a => Fin.ext (by match a with | ⟨0, _⟩ => rfl | ⟨1, _⟩ => rfl))

/-- Row i's entry less the row mean (the reference forms this difference twice, from the same mean). -/
private theorem dev0 (i : Fin 50000) (j : Fin 64) :
    (val_main_v51 (F := Ideal) x0 x1 x2 x3 : S50000x64.Idx → EReal) (ix2 i j)
      = (val_main_v45 (F := Ideal) x0 x1 x2 x3 : S50000x64.Idx → EReal) (ix2 i j)
        - Ideal.div (∑ k : Fin 64, (val_main_v45 (F := Ideal) x0 x1 x2 x3 : S50000x64.Idx → EReal) (ix2 i k)) c64 := by
  rw [val_main_v51_apply, val_main_v50_apply]
  have h : idx_main_v50 (ix2 i j) = ix2 i 0 :=
    funext fun a => Fin.ext (by match a with | ⟨0, _⟩ => rfl | ⟨1, _⟩ => rfl)
  rw [h, mean0]
  rfl

/-- The same difference, where the reference forms it the second time. -/
private theorem dev0' (i : Fin 50000) (j : Fin 64) :
    (val_main_v58 (F := Ideal) x0 x1 x2 x3 : S50000x64.Idx → EReal) (ix2 i j)
      = (val_main_v45 (F := Ideal) x0 x1 x2 x3 : S50000x64.Idx → EReal) (ix2 i j)
        - Ideal.div (∑ k : Fin 64, (val_main_v45 (F := Ideal) x0 x1 x2 x3 : S50000x64.Idx → EReal) (ix2 i k)) c64 := by
  rw [val_main_v58_apply, val_main_v57_apply]
  have h : idx_main_v57 (ix2 i j) = ix2 i 0 :=
    funext fun a => Fin.ext (by match a with | ⟨0, _⟩ => rfl | ⟨1, _⟩ => rfl)
  rw [h, mean0]
  rfl

/-- The inverse root of row i's variance plus epsilon. -/
private theorem rstd0 (i : Fin 50000) :
    (val_main_v61 (F := Ideal) x0 x1 x2 x3 : S50000x1.Idx → EReal) (ix2 i 0)
      = Ideal.rsqrt (Ideal.div (∑ k : Fin 64,
          ((val_main_v45 (F := Ideal) x0 x1 x2 x3 : S50000x64.Idx → EReal) (ix2 i k)
            - Ideal.div (∑ k : Fin 64, (val_main_v45 (F := Ideal) x0 x1 x2 x3 : S50000x64.Idx → EReal) (ix2 i k)) c64)
          * ((val_main_v45 (F := Ideal) x0 x1 x2 x3 : S50000x64.Idx → EReal) (ix2 i k)
            - Ideal.div (∑ k : Fin 64, (val_main_v45 (F := Ideal) x0 x1 x2 x3 : S50000x64.Idx → EReal) (ix2 i k)) c64)) c64
          + ceps) := by
  rw [val_main_v61_apply, val_main_v60_apply, val_main_v56_apply, val_main_v54_apply, val_main_v55_apply,
    val_main_v59_apply, val_main_v53_apply, val_main_cst_10_apply, val_main_cst_11_apply, val_main_cst_12_apply]
  simp only [Ideal.hostUnary_rsqrt_def, Ideal.addf_def, Ideal.hostDivf_def, Ideal.ofBits_def, Ideal.ofBits_zero_f32,
    zero_add]
  refine congrArg (fun s => Ideal.rsqrt (Ideal.div s c64 + ceps)) (Finset.sum_congr rfl fun k _ => ?_)
  have h : idx_main_v53 (idx_main_v54 (ix2 i 0)) k = ix2 i k :=
    funext fun a => Fin.ext (by match a with | ⟨0, _⟩ => rfl | ⟨1, _⟩ => rfl)
  rw [h, val_main_v52_apply, dev0]
  rfl

/-- The first layer's output: row i of the first linear part, normalised and clipped. -/
theorem norm0 (i : Fin 50000) (j : Fin 64) :
    (val_main_v70 (F := Ideal) x0 x1 x2 x3 x4 x5 : S50000x64.Idx → EReal) (ix2 i j)
      = lnrelu (fun j' => (val_main_v45 (F := Ideal) x0 x1 x2 x3 : S50000x64.Idx → EReal) (ix2 i j'))
          (fun j => x4 (ix1 j)) (fun j => x5 (ix1 j)) j := by
  rw [val_main_v70_apply, val_main_v69_apply, val_main_v66_apply, val_main_v63_apply, val_main_v62_apply,
    val_main_v65_apply, val_main_v64_apply, val_main_v68_apply, val_main_v67_apply, val_main_call0_v0_apply,
    val_main_call0_cst_apply]
  have h62 : idx_main_v62 (ix2 i j) = ix2 i 0 :=
    funext fun a => Fin.ext (by match a with | ⟨0, _⟩ => rfl | ⟨1, _⟩ => rfl)
  have h4 : idx_main_v64 (idx_main_v65 (ix2 i j)) = ix1 j :=
    funext fun a => Fin.ext (by match a with | ⟨0, _⟩ => rfl)
  have h5 : idx_main_v67 (idx_main_v68 (ix2 i j)) = ix1 j :=
    funext fun a => Fin.ext (by match a with | ⟨0, _⟩ => rfl)
  rw [h62, h4, h5, dev0', rstd0]
  rfl

/-- The mean of row i of the second linear part, as the reference forms it: the row total over 64. -/
private theorem mean1 (i : Fin 50000) :
    (val_main_v91 (F := Ideal) x0 x1 x2 x3 x4 x5 x6 x7 : S50000x1.Idx → EReal) (ix2 i 0)
      = Ideal.div (∑ k : Fin 64, (val_main_v87 (F := Ideal) x0 x1 x2 x3 x4 x5 x6 x7 : S50000x64.Idx → EReal) (ix2 i k)) c64 := by
  rw [val_main_v91_apply, val_main_v89_apply, val_main_v90_apply, val_main_v88_apply, val_main_cst_17_apply,
    val_main_cst_16_apply]
  simp only [Ideal.hostDivf_def, Ideal.ofBits_def, Ideal.ofBits_zero_f32, zero_add]
  refine congrArg (Ideal.div · c64) (Finset.sum_congr rfl fun k _ => ?_)
  exact congrArg _ (funext fun a => Fin.ext (by match a with | ⟨0, _⟩ => rfl | ⟨1, _⟩ => rfl))

/-- Row i's entry less the row mean (the reference forms this difference twice, from the same mean). -/
private theorem dev1 (i : Fin 50000) (j : Fin 64) :
    (val_main_v93 (F := Ideal) x0 x1 x2 x3 x4 x5 x6 x7 : S50000x64.Idx → EReal) (ix2 i j)
      = (val_main_v87 (F := Ideal) x0 x1 x2 x3 x4 x5 x6 x7 : S50000x64.Idx → EReal) (ix2 i j)
        - Ideal.div (∑ k : Fin 64, (val_main_v87 (F := Ideal) x0 x1 x2 x3 x4 x5 x6 x7 : S50000x64.Idx → EReal) (ix2 i k)) c64 := by
  rw [val_main_v93_apply, val_main_v92_apply]
  have h : idx_main_v92 (ix2 i j) = ix2 i 0 :=
    funext fun a => Fin.ext (by match a with | ⟨0, _⟩ => rfl | ⟨1, _⟩ => rfl)
  rw [h, mean1]
  rfl

/-- The same difference, where the reference forms it the second time. -/
private theorem dev1' (i : Fin 50000) (j : Fin 64) :
    (val_main_v100 (F := Ideal) x0 x1 x2 x3 x4 x5 x6 x7 : S50000x64.Idx → EReal) (ix2 i j)
      = (val_main_v87 (F := Ideal) x0 x1 x2 x3 x4 x5 x6 x7 : S50000x64.Idx → EReal) (ix2 i j)
        - Ideal.div (∑ k : Fin 64, (val_main_v87 (F := Ideal) x0 x1 x2 x3 x4 x5 x6 x7 : S50000x64.Idx → EReal) (ix2 i k)) c64 := by
  rw [val_main_v100_apply, val_main_v99_apply]
  have h : idx_main_v99 (ix2 i j) = ix2 i 0 :=
    funext fun a => Fin.ext (by match a with | ⟨0, _⟩ => rfl | ⟨1, _⟩ => rfl)
  rw [h, mean1]
  rfl

/-- The inverse root of row i's variance plus epsilon. -/
private theorem rstd1 (i : Fin 50000) :
    (val_main_v103 (F := Ideal) x0 x1 x2 x3 x4 x5 x6 x7 : S50000x1.Idx → EReal) (ix2 i 0)
      = Ideal.rsqrt (Ideal.div (∑ k : Fin 64,
          ((val_main_v87 (F := Ideal) x0 x1 x2 x3 x4 x5 x6 x7 : S50000x64.Idx → EReal) (ix2 i k)
            - Ideal.div (∑ k : Fin 64, (val_main_v87 (F := Ideal) x0 x1 x2 x3 x4 x5 x6 x7 : S50000x64.Idx → EReal) (ix2 i k)) c64)
          * ((val_main_v87 (F := Ideal) x0 x1 x2 x3 x4 x5 x6 x7 : S50000x64.Idx → EReal) (ix2 i k)
            - Ideal.div (∑ k : Fin 64, (val_main_v87 (F := Ideal) x0 x1 x2 x3 x4 x5 x6 x7 : S50000x64.Idx → EReal) (ix2 i k)) c64)) c64
          + ceps) := by
  rw [val_main_v103_apply, val_main_v102_apply, val_main_v98_apply, val_main_v96_apply, val_main_v97_apply,
    val_main_v101_apply, val_main_v95_apply, val_main_cst_18_apply, val_main_cst_19_apply, val_main_cst_20_apply]
  simp only [Ideal.hostUnary_rsqrt_def, Ideal.addf_def, Ideal.hostDivf_def, Ideal.ofBits_def, Ideal.ofBits_zero_f32,
    zero_add]
  refine congrArg (fun s => Ideal.rsqrt (Ideal.div s c64 + ceps)) (Finset.sum_congr rfl fun k _ => ?_)
  have h : idx_main_v95 (idx_main_v96 (ix2 i 0)) k = ix2 i k :=
    funext fun a => Fin.ext (by match a with | ⟨0, _⟩ => rfl | ⟨1, _⟩ => rfl)
  rw [h, val_main_v94_apply, dev1]
  rfl

/-- The second layer's output. -/
theorem norm1 (i : Fin 50000) (j : Fin 64) :
    (val_main_v112 (F := Ideal) x0 x1 x2 x3 x4 x5 x6 x7 x8 x9 : S50000x64.Idx → EReal) (ix2 i j)
      = lnrelu (fun j' => (val_main_v87 (F := Ideal) x0 x1 x2 x3 x4 x5 x6 x7 : S50000x64.Idx → EReal) (ix2 i j'))
          (fun j => x8 (ix1 j)) (fun j => x9 (ix1 j)) j := by
  rw [val_main_v112_apply, val_main_v111_apply, val_main_v108_apply, val_main_v105_apply, val_main_v104_apply,
    val_main_v107_apply, val_main_v106_apply, val_main_v110_apply, val_main_v109_apply, val_main_call1_v0_apply,
    val_main_call1_cst_apply]
  have h104 : idx_main_v104 (ix2 i j) = ix2 i 0 :=
    funext fun a => Fin.ext (by match a with | ⟨0, _⟩ => rfl | ⟨1, _⟩ => rfl)
  have h4 : idx_main_v106 (idx_main_v107 (ix2 i j)) = ix1 j :=
    funext fun a => Fin.ext (by match a with | ⟨0, _⟩ => rfl)
  have h5 : idx_main_v109 (idx_main_v110 (ix2 i j)) = ix1 j :=
    funext fun a => Fin.ext (by match a with | ⟨0, _⟩ => rfl)
  rw [h104, h4, h5, dev1', rstd1]
  rfl

end Cert.ReferenceIdeal.RefV

end
-- ==== Proof.Math.lean ====
/-
  The two arrangements of a layer agree on real inputs, and a layer of real inputs is real.
-/
import proofs.«413777_j75746043232585_3_alg».proof.Proof.Spec
import Mathlib.Data.EReal.Basic
import Mathlib.Data.EReal.Operations
import Mathlib.Algebra.BigOperators.Ring.Finset
import Mathlib.Algebra.Order.BigOperators.Group.Finset
import Mathlib.Tactic.Ring

noncomputable section

namespace Cert.GCN

open Idealize.ShloMosaic Idealize.ShloMosaic.ValueIdx

/-- The literal one. -/
private theorem c1_eq : c1 = ((1 : ℝ) : EReal) := by
  simp [c1, Ideal.ofBits, Ideal.ieee, -EReal.coe_mul]; norm_num

/-- The literal sixty-four. -/
private theorem c64_eq : c64 = ((64 : ℝ) : EReal) := by
  simp [c64, Ideal.ofBits, Ideal.ieee, -EReal.coe_mul]; norm_num

/-- The literal zero. -/
private theorem c0_eq : c0 = ((0 : ℝ) : EReal) := by
  simp [c0, Ideal.ofBits, Ideal.ieee]

/-- The variance's epsilon is a positive real. -/
private theorem ceps_eq : ∃ r : ℝ, 0 < r ∧ ceps = (r : EReal) := by
  simp [ceps, Ideal.ofBits, Ideal.ieee, -EReal.coe_mul]

/-- The larger of two reals, taken in the extended reals, is the real maximum. -/
private theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- A finite sum of reals, taken in the extended reals, is the real sum. -/
private theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

/-- The inverse square root of a positive real is a real. -/
private theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- Exchanging the sum over the edges with the sum over the feature axis, and regrouping the factors. -/
private theorem real_swap {ι κ : Type*} (S : Finset ι) (T : Finset κ) (f : ι → κ → ℝ) (d : ι → ℝ) (di : ℝ)
    (w : κ → ℝ) :
    ∑ k ∈ T, ((∑ e ∈ S, f e k * d e) * di) * w k = ∑ e ∈ S, (∑ k ∈ T, f e k * w k) * (d e * di) := by
  calc ∑ k ∈ T, ((∑ e ∈ S, f e k * d e) * di) * w k
      = ∑ k ∈ T, ∑ e ∈ S, f e k * w k * (d e * di) := by
        refine Finset.sum_congr rfl fun k _ => ?_
        rw [Finset.sum_mul, Finset.sum_mul]
        exact Finset.sum_congr rfl fun e _ => by ring
    _ = ∑ e ∈ S, ∑ k ∈ T, f e k * w k * (d e * di) := Finset.sum_comm
    _ = ∑ e ∈ S, (∑ k ∈ T, f e k * w k) * (d e * di) := by
        refine Finset.sum_congr rfl fun e _ => ?_
        rw [Finset.sum_mul]

/-- The inverse square root of a degree is a real number. -/
theorem dinvSpec_isReal (dst : SE.Idx → BitVec 32) : IsReal (dinvSpec dst) := by
  intro idx
  unfold dinvSpec
  rw [c1_eq, max_coe]
  have hpos : (0 : ℝ) < max ((into dst (idx 0)).card : ℝ) 1 := lt_max_of_lt_right one_pos
  rw [rsqrt_pos _ hpos]
  exact ⟨_, rfl⟩

/-- On real features and weights the kernel's and the reference's arrangements of the linear part agree: the sum over
    the edges into a row and the sum over the feature axis commute, and the row's own factor d(i) is the factor
    d(tgt e) of every edge into i. -/
theorem linK_eq_linR (h : SNC.Idx → EReal) (dinv : SN.Idx → EReal) (W : SCC.Idx → EReal) (b : SC.Idx → EReal)
    (sN dN dst : SE.Idx → BitVec 32) (hh : IsReal h) (hd : IsReal dinv) (hW : IsReal W)
    (hdN : ∀ (e : Fin 850000) (i : Fin 50000), (dst (ix1 e)).toInt = (i.val : Int) → row (dN (ix1 e)) = i)
    (i : Fin 50000) (j : Fin 64) :
    linK h dinv W b sN dst i j = linR h dinv W b sN dN dst i j := by
  choose hr hhr using hh
  choose dr hdr using hd
  choose Wr hWr using hW
  unfold linK linOfAgg aggK linR
  refine congrArg (· + b (ix1 j)) ?_
  have hR : ∑ e ∈ into dst i, (∑ k : Fin 64, h (ix2 (row (sN (ix1 e))) k) * W (ix2 k j))
        * (dinv (ix1 (row (sN (ix1 e)))) * dinv (ix1 (row (dN (ix1 e)))))
      = ∑ e ∈ into dst i, (∑ k : Fin 64, h (ix2 (row (sN (ix1 e))) k) * W (ix2 k j))
        * (dinv (ix1 (row (sN (ix1 e)))) * dinv (ix1 i)) := by
    refine Finset.sum_congr rfl fun e he => ?_
    rw [hdN e i (Finset.mem_filter.mp he).2]
  rw [hR]
  simp only [hhr, hdr, hWr, zero_add, ← EReal.coe_mul, coe_sum]
  exact congrArg _ (real_swap _ _ _ _ _ _)

/-- The linear part of real inputs is real. -/
theorem linR_isReal (h : SNC.Idx → EReal) (dinv : SN.Idx → EReal) (W : SCC.Idx → EReal) (b : SC.Idx → EReal)
    (sN dN dst : SE.Idx → BitVec 32) (hh : IsReal h) (hd : IsReal dinv) (hW : IsReal W) (hb : IsReal b)
    (i : Fin 50000) (j : Fin 64) : ∃ r : ℝ, linR h dinv W b sN dN dst i j = (r : EReal) := by
  choose hr hhr using hh
  choose dr hdr using hd
  choose Wr hWr using hW
  choose br hbr using hb
  unfold linR
  simp only [hhr, hdr, hWr, hbr, zero_add, ← EReal.coe_mul, coe_sum, ← EReal.coe_add]
  exact ⟨_, rfl⟩

/-- A normalised and clipped row of real numbers is real: the variance is a non-negative real, so the variance plus
    the positive epsilon has a real inverse square root. -/
theorem lnrelu_isReal (z g be : Fin 64 → EReal) (hz : ∀ k, ∃ r : ℝ, z k = (r : EReal)) (hg : ∀ k, ∃ r : ℝ, g k = (r : EReal))
    (hbe : ∀ k, ∃ r : ℝ, be k = (r : EReal)) (j : Fin 64) : ∃ r : ℝ, lnrelu z g be j = (r : EReal) := by
  choose zr hzr using hz
  choose gr hgr using hg
  choose br hbr using hbe
  obtain ⟨eps, heps, hce⟩ := ceps_eq
  have h64 : (64 : ℝ) ≠ 0 := by norm_num
  have hm : Ideal.div (∑ k, z k) c64 = (((∑ k, zr k) * (1 / 64) : ℝ) : EReal) := by
    rw [c64_eq, Ideal.div_coe h64]
    simp only [hzr, coe_sum, ← EReal.coe_mul]
  unfold lnrelu
  rw [hm]
  generalize (∑ k, zr k) * (1 / 64) = m
  have hv : (∑ k, (z k - (m : EReal)) * (z k - (m : EReal)))
      = ((∑ k, (zr k - m) * (zr k - m) : ℝ) : EReal) := by
    simp only [hzr, ← EReal.coe_sub, ← EReal.coe_mul, coe_sum]
  rw [hv, c64_eq, Ideal.div_coe h64, ← EReal.coe_mul, hce, ← EReal.coe_add]
  have hnn : 0 ≤ ∑ k, (zr k - m) * (zr k - m) := Finset.sum_nonneg fun k _ => mul_self_nonneg _
  have hpos : 0 < (∑ k, (zr k - m) * (zr k - m)) * (1 / 64) + eps :=
    add_pos_of_nonneg_of_pos (mul_nonneg hnn (by norm_num)) heps
  rw [rsqrt_pos _ hpos, hzr, hgr, hbr, c0_eq, ← EReal.coe_sub, ← EReal.coe_mul, ← EReal.coe_mul,
    ← EReal.coe_add, max_coe]
  exact ⟨_, rfl⟩

/-- A source word that is the target word with 50000 added when negative reads, for an edge into row i, as row i. -/
theorem row_nrmW_of_into (w : BitVec 32) (i : Fin 50000) (hw : w.toInt = (i.val : Int)) : row (nrmW w) = i := by
  have hns : w.slt 0#32 = false := by
    rw [BitVec.slt, hw]
    simp
  have hn : nrmW w = w := by
    unfold nrmW
    rw [hns]
    rfl
  rw [hn]
  apply Fin.ext
  simp only [row, hw, Int.toNat_natCast]
  have := i.isLt
  omega

/-- A whole layer: the two arrangements agree on real inputs. -/
theorem layerK_eq_layerR (h : SNC.Idx → EReal) (dinv : SN.Idx → EReal) (W : SCC.Idx → EReal) (b g be : SC.Idx → EReal)
    (sN dN dst : SE.Idx → BitVec 32) (hh : IsReal h) (hd : IsReal dinv) (hW : IsReal W)
    (hdN : ∀ (e : Fin 850000) (i : Fin 50000), (dst (ix1 e)).toInt = (i.val : Int) → row (dN (ix1 e)) = i) :
    layerK h dinv W b g be sN dst = layerR h dinv W b g be sN dN dst := by
  funext idx
  show lnrelu _ _ _ _ = lnrelu _ _ _ _
  exact congrArg (fun z => lnrelu z _ _ _)
    (funext fun j' => linK_eq_linR h dinv W b sN dN dst hh hd hW hdN (idx 0) j')

theorem lastK_eq_lastR (h : SNC.Idx → EReal) (dinv : SN.Idx → EReal) (W : SCC.Idx → EReal) (b : SC.Idx → EReal)
    (sN dN dst : SE.Idx → BitVec 32) (hh : IsReal h) (hd : IsReal dinv) (hW : IsReal W)
    (hdN : ∀ (e : Fin 850000) (i : Fin 50000), (dst (ix1 e)).toInt = (i.val : Int) → row (dN (ix1 e)) = i) :
    lastK h dinv W b sN dst = lastR h dinv W b sN dN dst := by
  funext idx
  exact linK_eq_linR h dinv W b sN dN dst hh hd hW hdN (idx 0) (idx 1)

/-- A whole layer of real inputs is real. -/
theorem layerR_isReal (h : SNC.Idx → EReal) (dinv : SN.Idx → EReal) (W : SCC.Idx → EReal) (b g be : SC.Idx → EReal)
    (sN dN dst : SE.Idx → BitVec 32) (hh : IsReal h) (hd : IsReal dinv) (hW : IsReal W) (hb : IsReal b)
    (hg : IsReal g) (hbe : IsReal be) : IsReal (layerR h dinv W b g be sN dN dst) := by
  intro idx
  exact lnrelu_isReal _ _ _ (fun k => linR_isReal h dinv W b sN dN dst hh hd hW hb (idx 0) k)
    (fun k => hg (ix1 k)) (fun k => hbe (ix1 k)) (idx 1)

end Cert.GCN

end
-- ==== Proof.FiniteIn.lean ====
/-
  Under the precondition every float input holds real numbers.
-/
import proofs.«413777_j75746043232585_3_alg».proof.Defs
import proofs.«413777_j75746043232585_3_alg».proof.Proof.Spec
import Idealize.ShloMosaic.Lib.ReduceAll

set_option maxRecDepth 16384

noncomputable section

namespace Cert.Proof.FiniteIn

open Idealize.ShloMosaic Idealize.ShloMosaic.TcCoe Idealize.ShloMosaic.ValueIdx Idealize.SL.Sem Cert.GCN

/-- An extended real whose absolute value lies strictly below the top element is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- The comparison "|x| < +infinity" coming out true says x is a real number. -/
private theorem real_of_cmp (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  refine real_of_abs_lt_top x ?_
  by_contra hn
  simp [Ideal.cmp, hn] at h

private instance : Subsingleton Cert.Pre_finite_inputs.S_.Idx := ⟨fun a b => funext fun d => d.elim0⟩

/-- If the conjunction over a whole array of "|x| < +infinity" is true, every entry of the array is a real number. -/
private theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x) (broadcastInDim s ![] hb (constant (F := Ideal) Cert.Pre_finite_inputs.S_ .f32 0x7F800000#32)))
          init hr hu ix0 = 1#1) :
    IsReal (x : s.Idx → EReal) := by
  intro i
  have h1 := Host.reduce_andi_all _ init hr hu ix0 e i
  exact real_of_cmp (x i) h1

variable [hPre : Cert.Pre_finite_inputs.Facts]

/-- The precondition says each float input's absolute values are all below +infinity: each entry is then a real number. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg0) : Cert.KernelIdeal.S50000x64.Idx → EReal)
    ∧ IsReal (m ((c.tc : Thread Cert.KernelIdeal.nD Cert.KernelIdeal.τ).loc Cert.KernelIdeal.main_arg2) : Cert.KernelIdeal.S64x64.Idx → EReal)
    ∧ IsReal (m ((c.tc : Thread Cert.KernelIdeal.nD Cert.KernelIdeal.τ).loc Cert.KernelIdeal.main_arg3) : Cert.KernelIdeal.S64.Idx → EReal)
    ∧ IsReal (m ((c.tc : Thread Cert.KernelIdeal.nD Cert.KernelIdeal.τ).loc Cert.KernelIdeal.main_arg4) : Cert.KernelIdeal.S64.Idx → EReal)
    ∧ IsReal (m ((c.tc : Thread Cert.KernelIdeal.nD Cert.KernelIdeal.τ).loc Cert.KernelIdeal.main_arg5) : Cert.KernelIdeal.S64.Idx → EReal)
    ∧ IsReal (m ((c.tc : Thread Cert.KernelIdeal.nD Cert.KernelIdeal.τ).loc Cert.KernelIdeal.main_arg6) : Cert.KernelIdeal.S64x64.Idx → EReal)
    ∧ IsReal (m ((c.tc : Thread Cert.KernelIdeal.nD Cert.KernelIdeal.τ).loc Cert.KernelIdeal.main_arg7) : Cert.KernelIdeal.S64.Idx → EReal)
    ∧ IsReal (m ((c.tc : Thread Cert.KernelIdeal.nD Cert.KernelIdeal.τ).loc Cert.KernelIdeal.main_arg8) : Cert.KernelIdeal.S64.Idx → EReal)
    ∧ IsReal (m ((c.tc : Thread Cert.KernelIdeal.nD Cert.KernelIdeal.τ).loc Cert.KernelIdeal.main_arg9) : Cert.KernelIdeal.S64.Idx → EReal)
    ∧ IsReal (m ((c.tc : Thread Cert.KernelIdeal.nD Cert.KernelIdeal.τ).loc Cert.KernelIdeal.main_arg10) : Cert.KernelIdeal.S64x64.Idx → EReal)
    ∧ IsReal (m ((c.tc : Thread Cert.KernelIdeal.nD Cert.KernelIdeal.τ).loc Cert.KernelIdeal.main_arg11) : Cert.KernelIdeal.S64.Idx → EReal) := by
  have h := congrFun (hpre c) ix0
  dsimp only [Cert.Pre_finite_inputs.fn, Cert.Pre_finite_inputs.fn_part1, Cert.Pre_finite_inputs.fn_part2,
    Cert.Pre_finite_inputs.fn_part3] at h
  obtain ⟨h, e11⟩ := IntOp.andi_eq_one.1 h
  obtain ⟨h, e10⟩ := IntOp.andi_eq_one.1 h
  obtain ⟨h, e9⟩ := IntOp.andi_eq_one.1 h
  obtain ⟨h, e8⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨e0, e2⟩ := IntOp.andi_eq_one.1 h
  exact ⟨isReal_of_all _ _ _ _ _ e0, isReal_of_all _ _ _ _ _ e2, isReal_of_all _ _ _ _ _ e3, isReal_of_all _ _ _ _ _ e4,
    isReal_of_all _ _ _ _ _ e5, isReal_of_all _ _ _ _ _ e6, isReal_of_all _ _ _ _ _ e7, isReal_of_all _ _ _ _ _ e8,
    isReal_of_all _ _ _ _ _ e9, isReal_of_all _ _ _ _ _ e10, isReal_of_all _ _ _ _ _ e11⟩

end Cert.Proof.FiniteIn

end
-- ==== Proof.Algebraic.lean ====
/-
  The two programs end with equal results.

  Both results are three layers of the node features over the same edge words and the same inverse square roots of the
  degrees: the kernel's in its arrangement, the reference's in its own. On real inputs the two arrangements of a layer
  agree and a layer's output is real again, so the agreement carries through the three layers. The inputs are real by
  the precondition; the edge words may be anything.
-/
import proofs.«413777_j75746043232585_3_alg».proof.Proof.KRun
import proofs.«413777_j75746043232585_3_alg».proof.Proof.KValue
import proofs.«413777_j75746043232585_3_alg».proof.Proof.RefLin
import proofs.«413777_j75746043232585_3_alg».proof.Proof.RefNorm
import proofs.«413777_j75746043232585_3_alg».proof.Proof.Math
import proofs.«413777_j75746043232585_3_alg».proof.Proof.FiniteIn
import proofs.«413777_j75746043232585_3_alg».proof.Proof.Gen.Pre_finite_inputs
import Idealize.ShloMosaic.Lib.StableHlo.Run

set_option maxRecDepth 16384

noncomputable section

namespace Cert.Proof.Alg

open Idealize.ShloMosaic Idealize.ShloMosaic.TcCoe Idealize.ShloMosaic.ValueIdx Idealize.SL.Sem Cert.GCN

/-! ## The reference's result as three layers -/

section Ref
open Cert.ReferenceIdeal Cert.ReferenceIdeal.Read Cert.ReferenceIdeal.RefV

variable (x0 : S50000x64.Idx → EReal) (x1 : S2x800000.Idx → BitVec 32) (x2 : S64x64.Idx → EReal) (x3 x4 x5 : S64.Idx → EReal)
  (x6 : S64x64.Idx → EReal) (x7 x8 x9 : S64.Idx → EReal) (x10 : S64x64.Idx → EReal) (x11 : S64.Idx → EReal)

theorem ref_layer0 :
    (val_main_v70 (F := Ideal) x0 x1 x2 x3 x4 x5 : S50000x64.Idx → EReal)
      = layerR x0 (dinvSpec (DSTr x1)) x2 x3 x4 x5 (SNr x1) (DNr x1) (DSTr x1) := by
  funext idx
  obtain ⟨i, j, rfl⟩ : ∃ (i : Fin 50000) (j : Fin 64), idx = ix2 i j := ⟨idx 0, idx 1, eq_ix2 idx⟩
  refine (norm0 x0 x1 x2 x3 x4 x5 i j).trans ?_
  show lnrelu _ _ _ _ = lnrelu _ _ _ _
  exact congrArg (fun z => lnrelu z _ _ _) (funext fun j' => lin0 x0 x1 x2 x3 i j')

theorem ref_layer1 :
    (val_main_v112 (F := Ideal) x0 x1 x2 x3 x4 x5 x6 x7 x8 x9 : S50000x64.Idx → EReal)
      = layerR (val_main_v70 (F := Ideal) x0 x1 x2 x3 x4 x5) (dinvSpec (DSTr x1)) x6 x7 x8 x9 (SNr x1) (DNr x1) (DSTr x1) := by
  funext idx
  obtain ⟨i, j, rfl⟩ : ∃ (i : Fin 50000) (j : Fin 64), idx = ix2 i j := ⟨idx 0, idx 1, eq_ix2 idx⟩
  refine (norm1 x0 x1 x2 x3 x4 x5 x6 x7 x8 x9 i j).trans ?_
  show lnrelu _ _ _ _ = lnrelu _ _ _ _
  exact congrArg (fun z => lnrelu z _ _ _) (funext fun j' => lin1 x0 x1 x2 x3 x4 x5 x6 x7 i j')

theorem ref_layer2 :
    (val_main_v129 (F := Ideal) x0 x1 x2 x3 x4 x5 x6 x7 x8 x9 x10 x11 : S50000x64.Idx → EReal)
      = lastR (val_main_v112 (F := Ideal) x0 x1 x2 x3 x4 x5 x6 x7 x8 x9) (dinvSpec (DSTr x1)) x10 x11 (SNr x1) (DNr x1) (DSTr x1) := by
  funext idx
  obtain ⟨i, j, rfl⟩ : ∃ (i : Fin 50000) (j : Fin 64), idx = ix2 i j := ⟨idx 0, idx 1, eq_ix2 idx⟩
  exact lin2 x0 x1 x2 x3 x4 x5 x6 x7 x8 x9 x10 x11 i j

/-- An edge into row i has a target word whose row reading, after the negative-word adjustment, is i. -/
theorem hdN (e : Fin 850000) (i : Fin 50000) (h : (DSTr x1 (ix1 e)).toInt = (i.val : Int)) : row (DNr x1 (ix1 e)) = i :=
  row_nrmW_of_into _ i h

/-- The reference's result equals three layers in the KERNEL's arrangement, on real inputs. -/
theorem ref_total (h0 : IsReal x0) (h2 : IsReal x2) (h3 : IsReal x3) (h4 : IsReal x4) (h5 : IsReal x5) (h6 : IsReal x6)
    (h7 : IsReal x7) (h8 : IsReal x8) (h9 : IsReal x9) (h10 : IsReal x10) :
    (val_main_v129 (F := Ideal) x0 x1 x2 x3 x4 x5 x6 x7 x8 x9 x10 x11 : S50000x64.Idx → EReal)
      = lastK (layerK (layerK x0 (dinvSpec (DSTr x1)) x2 x3 x4 x5 (SNr x1) (DSTr x1))
            (dinvSpec (DSTr x1)) x6 x7 x8 x9 (SNr x1) (DSTr x1))
          (dinvSpec (DSTr x1)) x10 x11 (SNr x1) (DSTr x1) := by
  have hd := dinvSpec_isReal (DSTr x1)
  have e0 := layerK_eq_layerR x0 (dinvSpec (DSTr x1)) x2 x3 x4 x5 (SNr x1) (DNr x1) (DSTr x1) h0 hd h2 (hdN x1)
  have r0 : IsReal (layerR x0 (dinvSpec (DSTr x1)) x2 x3 x4 x5 (SNr x1) (DNr x1) (DSTr x1)) :=
    layerR_isReal _ _ _ _ _ _ _ _ _ h0 hd h2 h3 h4 h5
  have e1 := layerK_eq_layerR _ (dinvSpec (DSTr x1)) x6 x7 x8 x9 (SNr x1) (DNr x1) (DSTr x1) r0 hd h6 (hdN x1)
  have r1 : IsReal (layerR (layerR x0 (dinvSpec (DSTr x1)) x2 x3 x4 x5 (SNr x1) (DNr x1) (DSTr x1)) (dinvSpec (DSTr x1)) x6 x7 x8 x9 (SNr x1) (DNr x1) (DSTr x1)) :=
    layerR_isReal _ _ _ _ _ _ _ _ _ r0 hd h6 h7 h8 h9
  have e2 := lastK_eq_lastR _ (dinvSpec (DSTr x1)) x10 x11 (SNr x1) (DNr x1) (DSTr x1) r1 hd h10 (hdN x1)
  rw [ref_layer2, ref_layer1, ref_layer0, e0, e1, e2]

end Ref

/-! ## The edge words are the same on both sides -/

section Words
open Cert.KernelIdeal Cert.KernelIdeal.Gen Cert.KernelIdeal.HostV

variable (m : (ℓ : Loc Cert.KernelIdeal.nD Cert.KernelIdeal.τ Cert.KernelIdeal.sig) → Buf (Elt Ideal) ℓ) (ρ : Dev Cert.KernelIdeal.nD → PrngReg)

/-- The kernel program lays the target words out as the reference does. -/
theorem dst_eq (c : Dev Cert.KernelIdeal.nD) :
    DST m ρ c = Cert.ReferenceIdeal.Read.val_main_v6 (F := Ideal) (m ((c.tc : Thread Cert.KernelIdeal.nD Cert.KernelIdeal.τ).loc Cert.KernelIdeal.main_arg1)) := by
  show StableHlo.after hostOps0 _ (Proc.devRef .tc main_v6) = _
  after_results
  rfl

/-- And the source words. -/
theorem src_eq (c : Dev Cert.KernelIdeal.nD) :
    SRC m ρ c = Cert.ReferenceIdeal.Read.val_main_v3 (F := Ideal) (m ((c.tc : Thread Cert.KernelIdeal.nD Cert.KernelIdeal.τ).loc Cert.KernelIdeal.main_arg1)) := by
  show StableHlo.after hostOps0 _ (Proc.devRef .tc main_v3) = _
  after_results
  rfl

theorem snrm_eq (c : Dev Cert.KernelIdeal.nD) :
    SNRM m ρ c = Cert.ReferenceIdeal.RefV.SNr (m ((c.tc : Thread Cert.KernelIdeal.nD Cert.KernelIdeal.τ).loc Cert.KernelIdeal.main_arg1)) := by
  unfold SNRM Cert.ReferenceIdeal.RefV.SNr
  rw [src_eq]

end Words

/-! ## The claim -/

theorem algebraic : Cert.algebraic_KernelIdeal_ReferenceIdeal := by
  intro m ρ m' ρ' hpre hagree
  refine ⟨fun c => Cert.KernelIdeal.Gen.W6 (F := Ideal) m ρ c (Proc.devRef .tc Cert.KernelIdeal.main_v87),
    Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  obtain ⟨r0, r2, r3, r4, r5, r6, r7, r8, r9, r10, r11⟩ := Cert.Proof.FiniteIn.real_of_pre m hpre c
  rw [Cert.ReferenceIdeal.Read.val_main_v129_eq, a0, a1, a2, a3, a4, a5, a6, a7, a8, a9, a10, a11]
  refine (ref_total _ _ _ _ _ _ _ _ _ _ _ _ r0 r2 r3 r4 r5 r6 r7 r8 r9 r10).trans ?_
  show _ = Cert.KernelIdeal.Gen.W6 (F := Ideal) m ρ c (Proc.devRef .tc Cert.KernelIdeal.main_v87)
  rw [Cert.KernelIdeal.KValue.total m ρ c, snrm_eq, dst_eq]

end Cert.Proof.Alg

end
-- ==== Proof.lean ====
/-
  A three-layer graph convolution computed by three fused kernels against its plain reference.

  The kernel program computes the degrees in integers, scales each edge's source features by the source's inverse
  square-root degree, adds them into the target rows on the host, and in each kernel scales a block of rows by the
  row's own inverse square-root degree, multiplies by the weights, adds the bias and (in the first two layers)
  normalises each row and clips it at zero. The reference multiplies by the weights first and scales each edge by the
  product of the two inverse square-root degrees. Over the extended reals, with every float input a real number, the
  two are the same function of the inputs, whatever the edge words are: an edge whose target word names no row is
  dropped by both, and a source word is clamped to a row by both.

  The three frames are the generated ones (the reference's is its run with the result dropped); nothing was rewritten
  by the idealization, so that claim is trivial; the equality of the results is Proof/Algebraic.lean.
-/
import proofs.«413777_j75746043232585_3_alg».proof.Defs
import proofs.«413777_j75746043232585_3_alg».proof.Proof.Gen.Kernel
import proofs.«413777_j75746043232585_3_alg».proof.Proof.Gen.Kernel.Skeleton
import proofs.«413777_j75746043232585_3_alg».proof.Proof.Gen.Kernel.Launch
import proofs.«413777_j75746043232585_3_alg».proof.Proof.Gen.Kernel.Points
import proofs.«413777_j75746043232585_3_alg».proof.Proof.Gen.Kernel.Frame
import proofs.«413777_j75746043232585_3_alg».proof.Proof.Gen.KernelIdeal
import proofs.«413777_j75746043232585_3_alg».proof.Proof.Gen.KernelIdeal.Skeleton
import proofs.«413777_j75746043232585_3_alg».proof.Proof.Gen.KernelIdeal.Launch
import proofs.«413777_j75746043232585_3_alg».proof.Proof.Gen.KernelIdeal.Points
import proofs.«413777_j75746043232585_3_alg».proof.Proof.Gen.KernelIdeal.Frame
import proofs.«413777_j75746043232585_3_alg».proof.Proof.Gen.ReferenceIdeal
import proofs.«413777_j75746043232585_3_alg».proof.Proof.Gen.Pre_finite_inputs
import proofs.«413777_j75746043232585_3_alg».proof.Proof.Gen.ReferenceIdeal.Run
import proofs.«413777_j75746043232585_3_alg».proof.Proof.Gen.ReferenceIdeal.Read
import proofs.«413777_j75746043232585_3_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Proof.Alg.algebraic⟩

end Cert.Proof

end
